-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x900x256 : Shape := ⟨3, ![64, 900, 256]⟩
abbrev S64x900x4 : Shape := ⟨3, ![64, 900, 4]⟩
abbrev S64x128 : Shape := ⟨2, ![64, 128]⟩
abbrev S64x128x4 : Shape := ⟨3, ![64, 128, 4]⟩
abbrev S_ : Shape := ⟨0, ![]⟩

class Facts : Prop where
  bcast_S_S64x900x256 : S_.BroadcastsInDim S64x900x256 (![] : Fin 0 → Fin S64x900x256.rank)
  reducesTo_S64x900x256_S_d0_1_2 : S64x900x256.ReducesTo [0, 1, 2] S_
  h_S_ : 0 < S_.numel
  bcast_S_S64x900x4 : S_.BroadcastsInDim S64x900x4 (![] : Fin 0 → Fin S64x900x4.rank)
  reducesTo_S64x900x4_S_d0_1_2 : S64x900x4.ReducesTo [0, 1, 2] S_
  bcast_S_S64x128x4 : S_.BroadcastsInDim S64x128x4 (![] : Fin 0 → Fin S64x128x4.rank)
  reducesTo_S64x128x4_S_d0_1_2 : S64x128x4.ReducesTo [0, 1, 2] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg2 : IVec S64x128 32) (main_v13 : IVec S_ 1) (main_v15 : IVec S64x128 1) (main_c_5 : IVec S_ 32) : IVec S_ 1 :=
  let main_v16 : IVec S64x128 32 := broadcastInDim S64x128 ![] bcast_S_S64x128 main_c_5
  let main_v17 : IVec S64x128 1 := cmpi .slt main_arg2 main_v16
  let main_v18 : IVec S64x128 1 := andi main_v15 main_v17
  let main_c_6 : IVec S_ 1 := constantI S_ 1 1#1
  let main_v19 : IVec S_ 1 := (fun x v => Host.reduce IntOp.andi x v reducesTo_S64x128_S_d0_1 h_S_) main_v18 main_c_6
  let main_v20 : IVec S_ 1 := andi main_v13 main_v19
  main_v20

def fn {F : FTy → Type} [FloatOps F] (main_arg0 : FVec F S64x900x256 .f32) (main_arg1 : FVec F S64x900x4 .f32) (main_arg2 : IVec S64x128 32) (main_arg3 : FVec F S64x128x4 .f32) : IVec S_ 1 :=
  let main_v0 : FVec F S64x900x256 .f32 := Host.absf main_arg0
  let main_cst : FVec F S_ .f32 := constant S_ .f32 0x7F800000#32
  let main_v1 : FVec F S64x900x256 .f32 := broadcastInDim S64x900x256 ![] bcast_S_S64x900x256 main_cst
  let main_v2 : IVec S64x900x256 1 := cmpf .olt main_v0 main_v1
  let main_c : IVec S_ 1 := constantI S_ 1 1#1
  let main_v3 : IVec S_ 1 := (fun x v => Host.reduce IntOp.andi x v reducesTo_S64x900x256_S_d0_1_2 h_S_) main_v2 main_c
  let main_v4 : FVec F S64x900x4 .f32 := Host.absf main_arg1
  let main_cst_0 : FVec F S_ .f32 := constant S_ .f32 0x7F800000#32
  let main_v5 : FVec F S64x900x4 .f32 := broadcastInDim S64x900x4 ![] bcast_S_S64x900x4 main_cst_0
  let main_v6 : IVec S64x900x4 1 := cmpf .olt main_v4 main_v5
  let main_c_1 : IVec S_ 1 := constantI S_ 1 1#1
  let main_v7 : IVec S_ 1 := (fun x v => Host.reduce IntOp.andi x v reducesTo_S64x900x4_S_d0_1_2 h_S_) main_v6 main_c_1
  let main_v8 : IVec S_ 1 := andi main_v3 main_v7
  let main_v9 : FVec F S64x128x4 .f32 := Host.absf main_arg3
  let main_cst_2 : FVec F S_ .f32 := constant S_ .f32 0x7F800000#32
  let main_v10 : FVec F S64x128x4 .f32 := broadcastInDim S64x128x4 ![] bcast_S_S64x128x4 main_cst_2
  let main_v11 : IVec S64x128x4 1 := cmpf .olt main_v9 main_v10
  let main_c_3 : IVec S_ 1 := constantI S_ 1 1#1
  let main_v12 : IVec S_ 1 := (fun x v => Host.reduce IntOp.andi x v reducesTo_S64x128x4_S_d0_1_2 h_S_) main_v11 main_c_3
  let main_v13 : IVec S_ 1 := andi main_v8 main_v12
  let main_c_4 : IVec S_ 32 := constantI S_ 32 0#32
  let main_v14 : IVec S64x128 32 := broadcastInDim S64x128 ![] bcast_S_S64x128 main_c_4
  let main_v15 : IVec S64x128 1 := cmpi .sge main_arg2 main_v14
  let main_c_5 : IVec S_ 32 := constantI S_ 32 256#32
  fn_part1 (F := F) main_arg2 main_v13 main_v15 main_c_5
-- ==== Kernel.lean ====
abbrev S64x900x256 : Shape := ⟨3, ![64, 900, 256]⟩
abbrev S64x900x4 : Shape := ⟨3, ![64, 900, 4]⟩
abbrev S64x128 : Shape := ⟨2, ![64, 128]⟩
abbrev S64x128x4 : Shape := ⟨3, ![64, 128, 4]⟩
abbrev S64x1x128 : Shape := ⟨3, ![64, 1, 128]⟩
abbrev S64x4x128 : Shape := ⟨3, ![64, 4, 128]⟩
abbrev S64x900x128 : Shape := ⟨3, ![64, 900, 128]⟩
abbrev S1x900x256 : Shape := ⟨3, ![1, 900, 256]⟩
abbrev S1x900x4 : Shape := ⟨3, ![1, 900, 4]⟩
abbrev S1x1x128 : Shape := ⟨3, ![1, 1, 128]⟩
abbrev S1x4x128 : Shape := ⟨3, ![1, 4, 128]⟩
abbrev S1x900x128 : Shape := ⟨3, ![1, 900, 128]⟩
abbrev S900x256 : Shape := ⟨2, ![900, 256]⟩
abbrev S900x4 : Shape := ⟨2, ![900, 4]⟩
abbrev S1x128 : Shape := ⟨2, ![1, 128]⟩
abbrev S4x128 : Shape := ⟨2, ![4, 128]⟩
abbrev S900 : Shape := ⟨1, ![900]⟩
abbrev S900x1 : Shape := ⟨2, ![900, 1]⟩
abbrev S256x128 : Shape := ⟨2, ![256, 128]⟩
abbrev S900x128 : Shape := ⟨2, ![900, 128]⟩

abbrev nBuf : Space → Nat
  | .hbm => 7
  | .vmem => 10
  | .smem => 0
  | _ => 0

abbrev bufTy : (tb : Table) → Fin (tcTables nBuf tb) → BufTy
  | .hbm, ⟨0, _⟩ => ⟨S64x900x256, .f32⟩
  | .hbm, ⟨1, _⟩ => ⟨S64x900x4, .f32⟩
  | .hbm, ⟨2, _⟩ => ⟨S64x128, .i32⟩
  | .hbm, ⟨3, _⟩ => ⟨S64x128x4, .f32⟩
  | .hbm, ⟨4, _⟩ => ⟨S64x1x128, .i32⟩
  | .hbm, ⟨5, _⟩ => ⟨S64x4x128, .f32⟩
  | .hbm, ⟨6, _⟩ => ⟨S64x900x128, .f32⟩
  | .local _ .vmem, ⟨0, _⟩ => ⟨S1x900x256, .f32⟩
  | .local _ .vmem, ⟨1, _⟩ => ⟨S1x900x256, .f32⟩
  | .local _ .vmem, ⟨2, _⟩ => ⟨S1x900x4, .f32⟩
  | .local _ .vmem, ⟨3, _⟩ => ⟨S1x900x4, .f32⟩
  | .local _ .vmem, ⟨4, _⟩ => ⟨S1x1x128, .i32⟩
  | .local _ .vmem, ⟨5, _⟩ => ⟨S1x1x128, .i32⟩
  | .local _ .vmem, ⟨6, _⟩ => ⟨S1x4x128, .f32⟩
  | .local _ .vmem, ⟨7, _⟩ => ⟨S1x4x128, .f32⟩
  | .local _ .vmem, ⟨8, _⟩ => ⟨S1x900x128, .f32⟩
  | .local _ .vmem, ⟨9, _⟩ => ⟨S1x900x128, .f32⟩
  | _, _ => ⟨S64x900x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x900x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64x128_S64x1x128_0_2 : S64x128.BroadcastsInDim S64x1x128 (![0, 2] : Fin 2 → Fin S64x1x128.rank)
  transposes_S64x128x4_S64x4x128_0_2_1 : S64x128x4.Transposes [0, 2, 1] S64x4x128
  inb_S1x900x256_S1x900x256_0_0_0 : ∀ a, (![0, 0, 0] : Fin 3 → Nat) a + S1x900x256.size a ≤ S1x900x256.size a
  h_S1x900x256 : 0 < S1x900x256.numel
  shapeCasts_S1x900x256_S900x256 : S1x900x256.ShapeCasts S900x256
  inb_S1x900x4_S1x900x4_0_0_0 : ∀ a, (![0, 0, 0] : Fin 3 → Nat) a + S1x900x4.size a ≤ S1x900x4.size a
  h_S1x900x4 : 0 < S1x900x4.numel
  shapeCasts_S1x900x4_S900x4 : S1x900x4.ShapeCasts S900x4
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  reduces_S900x256_S900 : S900x256.Reduces [1] S900
  shapeCasts_S900_S900x1 : S900.ShapeCasts S900x1
  broadcasts_S900x1_S900x256 : S900x1.Broadcasts S900x256
  iota_S256x128_d0_w32 : S256x128.Iotas .tc 32 [0]
  shapeCasts_S1x128_S1x128 : S1x128.ShapeCasts S1x128
  broadcasts_S1x128_S256x128 : S1x128.Broadcasts S256x128
  natLt_1_32 : 1 < 32
  bitsLt_bf16_f32 : FTy.bits .bf16 < FTy.bits .f32
  slices_S900x4_o0_0_S900x1 : S900x4.Slices ![0, 0] S900x1
  slices_S900x4_o0_1_S900x1 : S900x4.Slices ![0, 1] S900x1
  slices_S900x4_o0_2_S900x1 : S900x4.Slices ![0, 2] S900x1
  slices_S900x4_o0_3_S900x1 : S900x4.Slices ![0, 3] S900x1
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  broadcasts_S900x1_S900x128 : S900x1.Broadcasts S900x128
  broadcasts_S1x128_S900x128 : S1x128.Broadcasts S900x128
  inb_S1x900x128_S1x900x128_0_0_0 : ∀ a, (![0, 0, 0] : Fin 3 → Nat) a + S1x900x128.size a ≤ S1x900x128.size a
  h_S1x900x128 : 0 < S1x900x128.numel
  shapeCasts_S1x900x128_S900x128 : S1x900x128.ShapeCasts S900x128
  shapeCasts_S900x128_S1x900x128 : S900x128.ShapeCasts S1x900x128
  dot_S900x256_S256x128_S900x128_1_0_0_1_n_n_wf : DotDims.WF S900x256 S256x128 S900x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x256.size a ≤ S64x900x256.size a
  hwx0_0 : ∀ i : grid0.Coords, EltTy.bits .f32 = 32 ∨ (Rect.block (s := S64x900x256) S1x900x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x4.size a ≤ S64x900x4.size a
  hwx0_1 : ∀ i : grid0.Coords, EltTy.bits .f32 = 32 ∨ (Rect.block (s := S64x900x4) S1x900x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .i32 = 32 ∨ (Rect.block (s := S64x1x128) S1x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128.size a ≤ S64x4x128.size a
  hwx0_3 : ∀ i : grid0.Coords, EltTy.bits .f32 = 32 ∨ (Rect.block (s := S64x4x128) S1x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x128.size a ≤ S64x900x128.size a
  hwx0_4 : ∀ i : grid0.Coords, EltTy.bits .f32 = 32 ∨ (Rect.block (s := S64x900x128) S1x900x128.size (cc0_transform_4 i) (hinb0_4 i)).WholeWords (EltTy.packing .f32)

variable [Facts₀]

def dot_S900x256_S256x128_S900x128_1_0_0_1_n_n : DotDims S900x256 S256x128 S900x128 where
  lhsContracting := [1]
  rhsContracting := [0]
  lhsNonContracting := [0]
  rhsNonContracting := [1]
  lhsBatch := []
  rhsBatch := []
  wf := dot_S900x256_S256x128_S900x128_1_0_0_1_n_n_wf

abbrev win0_0 : Pipeline.Window sig grid0 :=
  Pipeline.Window.ofSpec (Memref.whole main_arg0) S1x900x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x900x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x900x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x900x256 : Shape := ⟨3, ![64, 900, 256]⟩
abbrev S64x900x4 : Shape := ⟨3, ![64, 900, 4]⟩
abbrev S64x128 : Shape := ⟨2, ![64, 128]⟩
abbrev S64x128x4 : Shape := ⟨3, ![64, 128, 4]⟩
abbrev S_ : Shape := ⟨0, ![]⟩
abbrev S64x900 : Shape := ⟨2, ![64, 900]⟩
abbrev S64x900x1 : Shape := ⟨3, ![64, 900, 1]⟩
abbrev S64x1x128 : Shape := ⟨3, ![64, 1, 128]⟩
abbrev S64x900x128 : Shape := ⟨3, ![64, 900, 128]⟩
abbrev S64x900x128x1 : Shape := ⟨4, ![64, 900, 128, 1]⟩
abbrev S1 : Shape := ⟨1, ![1]⟩
abbrev S1x1x1x1 : Shape := ⟨4, ![1, 1, 1, 1]⟩
abbrev S64x900x1x4 : Shape := ⟨4, ![64, 900, 1, 4]⟩
abbrev S64x1x128x4 : Shape := ⟨4, ![64, 1, 128, 4]⟩
abbrev S64x900x128x4 : Shape := ⟨4, ![64, 900, 128, 4]⟩
abbrev S64x128x1 : Shape := ⟨3, ![64, 128, 1]⟩
abbrev S64x900x2 : Shape := ⟨3, ![64, 900, 2]⟩
abbrev S64x900x1x2 : Shape := ⟨4, ![64, 900, 1, 2]⟩
abbrev S64x128x2 : Shape := ⟨3, ![64, 128, 2]⟩
abbrev S64x1x128x2 : Shape := ⟨4, ![64, 1, 128, 2]⟩
abbrev S64x900x128x2 : Shape := ⟨4, ![64, 900, 128, 2]⟩

abbrev nBuf : Space → Nat
  | .hbm => 223
  | .vmem => 0
  | .smem => 0
  | _ => 0

abbrev hbmTy0_0 (i : Nat) : BufTy := match i % 128 with
  | 0 => ⟨S64x900x256, .f32⟩
  | 1 => ⟨S64x900x4, .f32⟩
  | 2 => ⟨S64x128, .i32⟩
  | 3 => ⟨S64x128x4, .f32⟩
  | 4 => ⟨S_, .f32⟩
  | 5 => ⟨S64x900, .f32⟩
  | 6 => ⟨S_, .f32⟩
  | 7 => ⟨S64x900, .f32⟩
  | 8 => ⟨S64x900, .f32⟩
  | 9 => ⟨S64x900x1, .f32⟩
  | 10 => ⟨S64x900x256, .f32⟩
  | 11 => ⟨S64x900x256, .f32⟩
  | 12 => ⟨S64x900x256, .f32⟩
  | 13 => ⟨S_, .f32⟩
  | 14 => ⟨S64x900, .f32⟩
  | 15 => ⟨S64x900x1, .f32⟩
  | 16 => ⟨S64x900x256, .f32⟩
  | 17 => ⟨S64x900x256, .f32⟩
  | 18 => ⟨S64x1x128, .i32⟩
  | 19 => ⟨S64x900x128, .i32⟩
  | 20 => ⟨S_, .i32⟩
  | 21 => ⟨S64x900x128, .i32⟩
  | 22 => ⟨S64x900x128, .i1⟩
  | 23 => ⟨S_, .i32⟩
  | 24 => ⟨S64x900x128, .i32⟩
  | 25 => ⟨S64x900x128, .i32⟩
  | 26 => ⟨S64x900x128, .i32⟩
  | 27 => ⟨S64x900x128x1, .i32⟩
  | 28 => ⟨S1, .i32⟩
  | 29 => ⟨S_, .i32⟩
  | 30 => ⟨S64x900x128x1, .i32⟩
  | 31 => ⟨S64x900x128x1, .i1⟩
  | 32 => ⟨S1x1x1x1, .i32⟩
  | 33 => ⟨S64x900x128x1, .i32⟩
  | 34 => ⟨S64x900x128x1, .i1⟩
  | 35 => ⟨S64x900x128x1, .i1⟩
  | 36 => ⟨S_, .i1⟩
  | 37 => ⟨S64x900x128, .i1⟩
  | 38 => ⟨S64x900x128, .f32⟩
  | 39 => ⟨S_, .f32⟩
  | 40 => ⟨S64x900x128, .f32⟩
  | 41 => ⟨S64x900x128, .f32⟩
  | 42 => ⟨S64x900x128, .f32⟩
  | 43 => ⟨S64x900x1x4, .f32⟩
  | 44 => ⟨S64x1x128x4, .f32⟩
  | 45 => ⟨S64x900x128x4, .f32⟩
  | 46 => ⟨S64x900x128x4, .f32⟩
  | 47 => ⟨S64x900x128x4, .f32⟩
  | 48 => ⟨S64x900x128x4, .f32⟩
  | 49 => ⟨S_, .f32⟩
  | 50 => ⟨S64x900x128, .f32⟩
  | 51 => ⟨S64x900x1, .f32⟩
  | 52 => ⟨S64x900, .f32⟩
  | 53 => ⟨S64x900x1, .f32⟩
  | 54 => ⟨S64x900, .f32⟩
  | 55 => ⟨S64x900x1, .f32⟩
  | 56 => ⟨S64x900, .f32⟩
  | 57 => ⟨S64x900x1, .f32⟩
  | 58 => ⟨S64x900, .f32⟩
  | 59 => ⟨S_, .f32⟩
  | 60 => ⟨S64x900, .f32⟩
  | 61 => ⟨S64x900, .f32⟩
  | 62 => ⟨S64x900, .f32⟩
  | 63 => ⟨S_, .f32⟩
  | 64 => ⟨S64x900, .f32⟩
  | 65 => ⟨S64x900, .f32⟩
  | 66 => ⟨S64x900, .f32⟩
  | 67 => ⟨S_, .f32⟩
  | 68 => ⟨S64x900, .f32⟩
  | 69 => ⟨S64x900, .f32⟩
  | 70 => ⟨S64x900, .f32⟩
  | 71 => ⟨S_, .f32⟩
  | 72 => ⟨S64x900, .f32⟩
  | 73 => ⟨S64x900, .f32⟩
  | 74 => ⟨S64x900, .f32⟩
  | 75 => ⟨S64x900x1, .f32⟩
  | 76 => ⟨S64x900x1, .f32⟩
  | 77 => ⟨S64x900x1, .f32⟩
  | 78 => ⟨S64x900x1, .f32⟩
  | 79 => ⟨S64x900x4, .f32⟩
  | 80 => ⟨S64x128x1, .f32⟩
  | 81 => ⟨S64x128, .f32⟩
  | 82 => ⟨S64x128x1, .f32⟩
  | 83 => ⟨S64x128, .f32⟩
  | 84 => ⟨S64x128x1, .f32⟩
  | 85 => ⟨S64x128, .f32⟩
  | 86 => ⟨S64x128x1, .f32⟩
  | 87 => ⟨S64x128, .f32⟩
  | 88 => ⟨S_, .f32⟩
  | 89 => ⟨S64x128, .f32⟩
  | 90 => ⟨S64x128, .f32⟩
  | 91 => ⟨S64x128, .f32⟩
  | 92 => ⟨S_, .f32⟩
  | 93 => ⟨S64x128, .f32⟩
  | 94 => ⟨S64x128, .f32⟩
  | 95 => ⟨S64x128, .f32⟩
  | 96 => ⟨S_, .f32⟩
  | 97 => ⟨S64x128, .f32⟩
  | 98 => ⟨S64x128, .f32⟩
  | 99 => ⟨S64x128, .f32⟩
  | 100 => ⟨S_, .f32⟩
  | 101 => ⟨S64x128, .f32⟩
  | 102 => ⟨S64x128, .f32⟩
  | 103 => ⟨S64x128, .f32⟩
  | 104 => ⟨S64x128x1, .f32⟩
  | 105 => ⟨S64x128x1, .f32⟩
  | 106 => ⟨S64x128x1, .f32⟩
  | 107 => ⟨S64x128x1, .f32⟩
  | 108 => ⟨S64x128x4, .f32⟩
  | 109 => ⟨S64x900x1, .f32⟩
  | 110 => ⟨S64x900, .f32⟩
  | 111 => ⟨S64x900x1, .f32⟩
  | 112 => ⟨S64x900, .f32⟩
  | 113 => ⟨S64x900, .f32⟩
  | 114 => ⟨S_, .i32⟩
  | 115 => ⟨S_, .f32⟩
  | 116 => ⟨S64x900, .f32⟩
  | 117 => ⟨S64x900, .f32⟩
  | 118 => ⟨S64x900x1, .f32⟩
  | 119 => ⟨S64x900, .f32⟩
  | 120 => ⟨S64x900x1, .f32⟩
  | 121 => ⟨S64x900, .f32⟩
  | 122 => ⟨S64x900, .f32⟩
  | 123 => ⟨S_, .i32⟩
  | 124 => ⟨S_, .f32⟩
  | 125 => ⟨S64x900, .f32⟩
  | 126 => ⟨S64x900, .f32⟩
  | 127 => ⟨S64x900, .f32⟩
  | _ => ⟨S64x900x256, .f32⟩

abbrev hbmTy0_1 (i : Nat) : BufTy := match i % 128 with
  | 0 => ⟨S64x128x1, .f32⟩
  | 1 => ⟨S64x128, .f32⟩
  | 2 => ⟨S64x128x1, .f32⟩
  | 3 => ⟨S64x128, .f32⟩
  | 4 => ⟨S64x128, .f32⟩
  | 5 => ⟨S_, .i32⟩
  | 6 => ⟨S_, .f32⟩
  | 7 => ⟨S64x128, .f32⟩
  | 8 => ⟨S64x128, .f32⟩
  | 9 => ⟨S64x128x1, .f32⟩
  | 10 => ⟨S64x128, .f32⟩
  | 11 => ⟨S64x128x1, .f32⟩
  | 12 => ⟨S64x128, .f32⟩
  | 13 => ⟨S64x128, .f32⟩
  | 14 => ⟨S_, .i32⟩
  | 15 => ⟨S_, .f32⟩
  | 16 => ⟨S64x128, .f32⟩
  | 17 => ⟨S64x128, .f32⟩
  | 18 => ⟨S64x128, .f32⟩
  | 19 => ⟨S64x900x2, .f32⟩
  | 20 => ⟨S64x900x1x2, .f32⟩
  | 21 => ⟨S64x128x2, .f32⟩
  | 22 => ⟨S64x1x128x2, .f32⟩
  | 23 => ⟨S64x900x128x2, .f32⟩
  | 24 => ⟨S64x900x128x2, .f32⟩
  | 25 => ⟨S64x900x128x2, .f32⟩
  | 26 => ⟨S64x900x2, .f32⟩
  | 27 => ⟨S64x900x1x2, .f32⟩
  | 28 => ⟨S64x128x2, .f32⟩
  | 29 => ⟨S64x1x128x2, .f32⟩
  | 30 => ⟨S64x900x128x2, .f32⟩
  | 31 => ⟨S64x900x128x2, .f32⟩
  | 32 => ⟨S64x900x128x2, .f32⟩
  | 33 => ⟨S64x900x128x2, .f32⟩
  | 34 => ⟨S_, .i32⟩
  | 35 => ⟨S_, .f32⟩
  | 36 => ⟨S64x900x128x2, .f32⟩
  | 37 => ⟨S64x900x128x2, .f32⟩
  | 38 => ⟨S64x900x128x1, .f32⟩
  | 39 => ⟨S64x900x128, .f32⟩
  | 40 => ⟨S64x900x128x1, .f32⟩
  | 41 => ⟨S64x900x128, .f32⟩
  | 42 => ⟨S64x900x128, .f32⟩
  | 43 => ⟨S64x900x1, .f32⟩
  | 44 => ⟨S64x1x128, .f32⟩
  | 45 => ⟨S64x900x128, .f32⟩
  | 46 => ⟨S64x900x128, .f32⟩
  | 47 => ⟨S64x900x128, .f32⟩
  | 48 => ⟨S64x900x128, .f32⟩
  | 49 => ⟨S_, .f32⟩
  | 50 => ⟨S64x900x128, .f32⟩
  | 51 => ⟨S64x900x128, .f32⟩
  | 52 => ⟨S64x900x128, .f32⟩
  | 53 => ⟨S64x900x2, .f32⟩
  | 54 => ⟨S64x900x1x2, .f32⟩
  | 55 => ⟨S64x128x2, .f32⟩
  | 56 => ⟨S64x1x128x2, .f32⟩
  | 57 => ⟨S64x900x128x2, .f32⟩
  | 58 => ⟨S64x900x128x2, .f32⟩
  | 59 => ⟨S64x900x128x2, .f32⟩
  | 60 => ⟨S64x900x2, .f32⟩
  | 61 => ⟨S64x900x1x2, .f32⟩
  | 62 => ⟨S64x128x2, .f32⟩
  | 63 => ⟨S64x1x128x2, .f32⟩
  | 64 => ⟨S64x900x128x2, .f32⟩
  | 65 => ⟨S64x900x128x2, .f32⟩
  | 66 => ⟨S64x900x128x2, .f32⟩
  | 67 => ⟨S64x900x128x2, .f32⟩
  | 68 => ⟨S_, .i32⟩
  | 69 => ⟨S_, .f32⟩
  | 70 => ⟨S64x900x128x2, .f32⟩
  | 71 => ⟨S64x900x128x2, .f32⟩
  | 72 => ⟨S64x900x128x1, .f32⟩
  | 73 => ⟨S64x900x128, .f32⟩
  | 74 => ⟨S64x900x128x1, .f32⟩
  | 75 => ⟨S64x900x128, .f32⟩
  | 76 => ⟨S64x900x128, .f32⟩
  | 77 => ⟨S_, .f32⟩
  | 78 => ⟨S64x900x128, .f32⟩
  | 79 => ⟨S64x900x128, .f32⟩
  | 80 => ⟨S64x900x128, .f32⟩
  | 81 => ⟨S64x900x128, .f32⟩
  | 82 => ⟨S64x900x128, .f32⟩
  | 83 => ⟨S64x900x128, .f32⟩
  | 84 => ⟨S_, .f32⟩
  | 85 => ⟨S64x900x128, .f32⟩
  | 86 => ⟨S64x900x128, .f32⟩
  | 87 => ⟨S_, .f32⟩
  | 88 => ⟨S64x900x128, .f32⟩
  | 89 => ⟨S64x900x128, .f32⟩
  | 90 => ⟨S64x900x128, .f32⟩
  | 91 => ⟨S_, .f32⟩
  | 92 => ⟨S64x900x128, .f32⟩
  | 93 => ⟨S64x900x128, .f32⟩
  | 94 => ⟨S64x900x128, .f32⟩
  | _ => ⟨S64x900x256, .f32⟩

abbrev hbmTy (i : Nat) : BufTy := match i / 128 with
  | 0 => hbmTy0_0 i
  | 1 => hbmTy0_1 i
  | _ => ⟨S64x900x256, .f32⟩

abbrev bufTy : (tb : Table) → Fin (tcTables nBuf tb) → BufTy
  | .hbm, ⟨i, _⟩ => hbmTy i
  | _, _ => ⟨S64x900x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_3 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_7 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_9 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c : Ref sig .tc := ⟨.hbm, 114, rfl⟩
abbrev main_call1_v0 : Ref sig .tc := ⟨.hbm, 115, rfl⟩
abbrev main_call1_v1 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_11 : Ref sig .tc := ⟨.hbm, 123, rfl⟩
abbrev main_call2_v0 : Ref sig .tc := ⟨.hbm, 124, rfl⟩
abbrev main_call2_v1 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_c_12 : Ref sig .tc := ⟨.hbm, 133, rfl⟩
abbrev main_call3_v0 : Ref sig .tc := ⟨.hbm, 134, rfl⟩
abbrev main_call3_v1 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_13 : Ref sig .tc := ⟨.hbm, 142, rfl⟩
abbrev main_call4_v0 : Ref sig .tc := ⟨.hbm, 143, rfl⟩
abbrev main_call4_v1 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_14 : Ref sig .tc := ⟨.hbm, 162, rfl⟩
abbrev main_call5_v0 : Ref sig .tc := ⟨.hbm, 163, rfl⟩
abbrev main_call5_v1 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_15 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c_16 : Ref sig .tc := ⟨.hbm, 196, rfl⟩
abbrev main_call6_v0 : Ref sig .tc := ⟨.hbm, 197, rfl⟩
abbrev main_call6_v1 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_17 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_18 : Ref sig .tc := ⟨.hbm, 212, rfl⟩
abbrev main_v155 : Ref sig .tc := ⟨.hbm, 213, rfl⟩
abbrev main_v156 : Ref sig .tc := ⟨.hbm, 214, rfl⟩
abbrev main_cst_19 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_20 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩

abbrev nD : Nat := 1
abbrev τ : Topo := Topo.v7x

variable {F : FTy → Type} [FloatOps F]

class Facts₀ : Prop where
  reducesTo_S64x900x256_S64x900_d2 : S64x900x256.ReducesTo [2] S64x900
  h_S_ : 0 < S_.numel
  bcast_S_S64x900 : S_.BroadcastsInDim S64x900 (![] : Fin 0 → Fin S64x900.rank)
  bcast_S64x900_S64x900x1_0_1 : S64x900.BroadcastsInDim S64x900x1 (![0, 1] : Fin 2 → Fin S64x900x1.rank)
  bcast_S64x900x1_S64x900x256_0_1_2 : S64x900x1.BroadcastsInDim S64x900x256 (![0, 1, 2] : Fin 3 → Fin S64x900x256.rank)
  bcast_S64x128_S64x1x128_0_2 : S64x128.BroadcastsInDim S64x1x128 (![0, 2] : Fin 2 → Fin S64x1x128.rank)
  bcast_S64x1x128_S64x900x128_0_1_2 : S64x1x128.BroadcastsInDim S64x900x128 (![0, 1, 2] : Fin 3 → Fin S64x900x128.rank)
  bcast_S_S64x900x128 : S_.BroadcastsInDim S64x900x128 (![] : Fin 0 → Fin S64x900x128.rank)
  shapeCasts_S64x900x128_S64x900x128x1 : S64x900x128.ShapeCasts S64x900x128x1
  bcast_S_S64x900x128x1 : S_.BroadcastsInDim S64x900x128x1 (![] : Fin 0 → Fin S64x900x128x1.rank)
  bcast_S1_S1x1x1x1_3 : S1.BroadcastsInDim S1x1x1x1 (![3] : Fin 1 → Fin S1x1x1x1.rank)
  bcast_S1x1x1x1_S64x900x128x1_0_1_2_3 : S1x1x1x1.BroadcastsInDim S64x900x128x1 (![0, 1, 2, 3] : Fin 4 → Fin S64x900x128x1.rank)
  reducesTo_S64x900x128x1_S64x900x128_d3 : S64x900x128x1.ReducesTo [3] S64x900x128
  bcast_S64x900x4_S64x900x1x4_0_1_3 : S64x900x4.BroadcastsInDim S64x900x1x4 (![0, 1, 3] : Fin 3 → Fin S64x900x1x4.rank)
  bcast_S64x128x4_S64x1x128x4_0_2_3 : S64x128x4.BroadcastsInDim S64x1x128x4 (![0, 2, 3] : Fin 3 → Fin S64x1x128x4.rank)
  bcast_S64x900x1x4_S64x900x128x4_0_1_2_3 : S64x900x1x4.BroadcastsInDim S64x900x128x4 (![0, 1, 2, 3] : Fin 4 → Fin S64x900x128x4.rank)
  bcast_S64x1x128x4_S64x900x128x4_0_1_2_3 : S64x1x128x4.BroadcastsInDim S64x900x128x4 (![0, 1, 2, 3] : Fin 4 → Fin S64x900x128x4.rank)
  reducesTo_S64x900x128x4_S64x900x128_d3 : S64x900x128x4.ReducesTo [3] S64x900x128
  slices_S64x900x4_S64x900x1_0_0_0 : S64x900x4.Slices ![0, 0, 0] S64x900x1
  shapeCasts_S64x900x1_S64x900 : S64x900x1.ShapeCasts S64x900
  slices_S64x900x4_S64x900x1_0_0_1 : S64x900x4.Slices ![0, 0, 1] S64x900x1
  slices_S64x900x4_S64x900x1_0_0_2 : S64x900x4.Slices ![0, 0, 2] S64x900x1
  slices_S64x900x4_S64x900x1_0_0_3 : S64x900x4.Slices ![0, 0, 3] S64x900x1
  concatenates_S64x900x1_S64x900x1_S64x900x1_S64x900x1_S64x900x4_d2 : Shape.Concatenates [S64x900x1, S64x900x1, S64x900x1, S64x900x1] S64x900x4 2
  slices_S64x128x4_S64x128x1_0_0_0 : S64x128x4.Slices ![0, 0, 0] S64x128x1
  shapeCasts_S64x128x1_S64x128 : S64x128x1.ShapeCasts S64x128
  slices_S64x128x4_S64x128x1_0_0_1 : S64x128x4.Slices ![0, 0, 1] S64x128x1
  slices_S64x128x4_S64x128x1_0_0_2 : S64x128x4.Slices ![0, 0, 2] S64x128x1
  slices_S64x128x4_S64x128x1_0_0_3 : S64x128x4.Slices ![0, 0, 3] S64x128x1
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  concatenates_S64x128x1_S64x128x1_S64x128x1_S64x128x1_S64x128x4_d2 : Shape.Concatenates [S64x128x1, S64x128x1, S64x128x1, S64x128x1] S64x128x4 2
  slices_S64x900x4_S64x900x2_0_0_0 : S64x900x4.Slices ![0, 0, 0] S64x900x2
  bcast_S64x900x2_S64x900x1x2_0_1_3 : S64x900x2.BroadcastsInDim S64x900x1x2 (![0, 1, 3] : Fin 3 → Fin S64x900x1x2.rank)
  slices_S64x128x4_S64x128x2_0_0_0 : S64x128x4.Slices ![0, 0, 0] S64x128x2
  bcast_S64x128x2_S64x1x128x2_0_2_3 : S64x128x2.BroadcastsInDim S64x1x128x2 (![0, 2, 3] : Fin 3 → Fin S64x1x128x2.rank)
  bcast_S64x900x1x2_S64x900x128x2_0_1_2_3 : S64x900x1x2.BroadcastsInDim S64x900x128x2 (![0, 1, 2, 3] : Fin 4 → Fin S64x900x128x2.rank)
  bcast_S64x1x128x2_S64x900x128x2_0_1_2_3 : S64x1x128x2.BroadcastsInDim S64x900x128x2 (![0, 1, 2, 3] : Fin 4 → Fin S64x900x128x2.rank)
  slices_S64x900x4_S64x900x2_0_0_2 : S64x900x4.Slices ![0, 0, 2] S64x900x2
  slices_S64x128x4_S64x128x2_0_0_2 : S64x128x4.Slices ![0, 0, 2] S64x128x2
  bcast_S_S64x900x128x2 : S_.BroadcastsInDim S64x900x128x2 (![] : Fin 0 → Fin S64x900x128x2.rank)
  slices_S64x900x128x2_S64x900x128x1_0_0_0_0 : S64x900x128x2.Slices ![0, 0, 0, 0] S64x900x128x1
  shapeCasts_S64x900x128x1_S64x900x128 : S64x900x128x1.ShapeCasts S64x900x128
  slices_S64x900x128x2_S64x900x128x1_0_0_0_1 : S64x900x128x2.Slices ![0, 0, 0, 1] S64x900x128x1
  bcast_S64x900x1_S64x900x128_0_1_2 : S64x900x1.BroadcastsInDim S64x900x128 (![0, 1, 2] : Fin 3 → Fin S64x900x128.rank)
  gather_S64x900x256_S64x900x128x1_S64x900x128_n_2_01_01_2_3_111_wf : GatherDims.WF S64x900x256 S64x900x128x1 S64x900x128 [] [2] [0, 1] [2] [0, 1] 3 ![1, 1, 1]

variable [Facts₀]

def gather_S64x900x256_S64x900x128x1_S64x900x128_n_2_01_01_2_3_111 : GatherDims S64x900x256 S64x900x128x1 S64x900x128 where
  offsetDims := []
  collapsedSliceDims := [2]
  operandBatchingDims := [0, 1]
  startIndicesBatchingDims := [0, 1]
  startIndexMap := [2]
  indexVectorDim := 3
  sliceSizes := ![1, 1, 1]
  wf := gather_S64x900x256_S64x900x128x1_S64x900x128_n_2_01_01_2_3_111_wf

class Facts : Prop extends Facts₀ where

variable [Facts]
-- ==== Proof.RefRun1a.lean ====
/-
  The reference's run, stretch 1 (first part) of 6: the softmax and the labels laid along the queries.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The softmax probabilities. -/
theorem c1a_v10 (W : Valuation τ sig (Elt F)) (a0 : (⟨S64x900x256, .f32⟩ : BufTy).Contents (Elt F)) (h0 : W (Proc.devRef .tc main_arg0) = a0) :
    after ops1a W (Proc.devRef .tc main_v10) = val_main_v10 (F := F) a0 := by
  subst h0
  after_results_simp <;> (try simp only [TRef.ofBuf, TRef.toBuf, cast_eq]) <;> rfl

/-- The labels laid along the queries. -/
theorem c1a_v12 (W : Valuation τ sig (Elt F)) (a2 : (⟨S64x128, .i32⟩ : BufTy).Contents (Elt F)) (h2 : W (Proc.devRef .tc main_arg2) = a2) :
    after ops1a W (Proc.devRef .tc main_v12) = val_main_v12 (F := F) a2 := by
  subst h2
  after_results_simp <;> (try simp only [TRef.ofBuf, TRef.toBuf, cast_eq]) <;> rfl

/-- The operations of this stretch write none of these buffers. -/
theorem c1a_keep (W : Valuation τ sig (Elt F)) :
    after ops1a W (Proc.devRef .tc main_arg0) = W (Proc.devRef .tc main_arg0)
    ∧ after ops1a W (Proc.devRef .tc main_arg1) = W (Proc.devRef .tc main_arg1)
    ∧ after ops1a W (Proc.devRef .tc main_arg2) = W (Proc.devRef .tc main_arg2)
    ∧ after ops1a W (Proc.devRef .tc main_arg3) = W (Proc.devRef .tc main_arg3) := by
  refine ⟨?_, ?_, ?_, ?_⟩ <;> after_results_simp

end Cert.MatchCost.RefRun

end
-- ==== Proof.RefRun1b.lean ====
/-
  The reference's run, stretch 1 (second part) of 6: the label lookup in the probabilities and its negation.

  From any contents `W` of the device's buffers, the buffers this stretch of @main writes end at their stages (the
  read module's `val_…`) of the argument arrays, given that the buffers it reads hold theirs; the buffers it does
  not write keep their contents.
  The lookup is itself taken in three parts (its index, its range mask, the gather with the select and the negation),
  chained the same way.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The buffers after two lists in a row: after the second, from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The lookup's index: the laid-out label, plus 256 where negative, as a column. -/
theorem c1x_v5 (W : Valuation τ sig (Elt F)) (a2 : (⟨S64x128, .i32⟩ : BufTy).Contents (Elt F)) (h12 : W (Proc.devRef .tc main_v12) = val_main_v12 (F := F) a2) :
    after ops1x W (Proc.devRef .tc main_call0_v5) = val_main_call0_v5 (F := F) a2 := by
  after_results_simp
  (try simp only [TRef.ofBuf, TRef.toBuf, cast_eq])
  rw [h12]
  rfl

/-- The operations of this part write none of these buffers. -/
theorem c1x_keep (W : Valuation τ sig (Elt F)) :
    after ops1x W (Proc.devRef .tc main_v10) = W (Proc.devRef .tc main_v10)
    ∧ after ops1x W (Proc.devRef .tc main_arg0) = W (Proc.devRef .tc main_arg0)
    ∧ after ops1x W (Proc.devRef .tc main_arg1) = W (Proc.devRef .tc main_arg1)
    ∧ after ops1x W (Proc.devRef .tc main_arg2) = W (Proc.devRef .tc main_arg2)
    ∧ after ops1x W (Proc.devRef .tc main_arg3) = W (Proc.devRef .tc main_arg3) := by
  refine ⟨?_, ?_, ?_, ?_, ?_⟩ <;> after_results_simp

/-- The lookup's range mask. -/
theorem c1y_v12 (W : Valuation τ sig (Elt F)) (a2 : (⟨S64x128, .i32⟩ : BufTy).Contents (Elt F)) (h5 : W (Proc.devRef .tc main_call0_v5) = val_main_call0_v5 (F := F) a2) :
    after ops1y W (Proc.devRef .tc main_call0_v12) = val_main_call0_v12 (F := F) a2 := by
  after_results_simp
  (try simp only [TRef.ofBuf, TRef.toBuf, cast_eq])
  rw [h5]
  rfl

/-- The operations of this part write none of these buffers. -/
theorem c1y_keep (W : Valuation τ sig (Elt F)) :
    after ops1y W (Proc.devRef .tc main_v10) = W (Proc.devRef .tc main_v10)
    ∧ after ops1y W (Proc.devRef .tc main_call0_v5) = W (Proc.devRef .tc main_call0_v5)
    ∧ after ops1y W (Proc.devRef .tc main_arg0) = W (Proc.devRef .tc main_arg0)
    ∧ after ops1y W (Proc.devRef .tc main_arg1) = W (Proc.devRef .tc main_arg1)
    ∧ after ops1y W (Proc.devRef .tc main_arg2) = W (Proc.devRef .tc main_arg2)
    ∧ after ops1y W (Proc.devRef .tc main_arg3) = W (Proc.devRef .tc main_arg3) := by
  refine ⟨?_, ?_, ?_, ?_, ?_, ?_⟩ <;> after_results_simp

/-- The gathered probability where the mask holds, negated. -/
theorem c1z_v14 (W : Valuation τ sig (Elt F)) (a0 : (⟨S64x900x256, .f32⟩ : BufTy).Contents (Elt F)) (a2 : (⟨S64x128, .i32⟩ : BufTy).Contents (Elt F)) (h10 : W (Proc.devRef .tc main_v10) = val_main_v10 (F := F) a0)
    (h5 : W (Proc.devRef .tc main_call0_v5) = val_main_call0_v5 (F := F) a2) (hm : W (Proc.devRef .tc main_call0_v12) = val_main_call0_v12 (F := F) a2) :
    after ops1z W (Proc.devRef .tc main_v14) = val_main_v14 (F := F) a0 a2 := by
  after_results_simp
  (try simp only [TRef.ofBuf, TRef.toBuf, cast_eq])
  rw [h10, h5, hm]
  rfl

/-- The operations of this part write none of these buffers. -/
theorem c1z_keep (W : Valuation τ sig (Elt F)) :
    after ops1z W (Proc.devRef .tc main_arg0) = W (Proc.devRef .tc main_arg0)
    ∧ after ops1z W (Proc.devRef .tc main_arg1) = W (Proc.devRef .tc main_arg1)
    ∧ after ops1z W (Proc.devRef .tc main_arg2) = W (Proc.devRef .tc main_arg2)
    ∧ after ops1z W (Proc.devRef .tc main_arg3) = W (Proc.devRef .tc main_arg3) := by
  refine ⟨?_, ?_, ?_, ?_⟩ <;> after_results_simp

/-- The negated class probabilities, from the probabilities and the laid-out labels. -/
theorem c1b_v14 (W : Valuation τ sig (Elt F)) (a0 : (⟨S64x900x256, .f32⟩ : BufTy).Contents (Elt F)) (a2 : (⟨S64x128, .i32⟩ : BufTy).Contents (Elt F))
    (h10 : W (Proc.devRef .tc main_v10) = val_main_v10 (F := F) a0) (h12 : W (Proc.devRef .tc main_v12) = val_main_v12 (F := F) a2) :
    after ops1b W (Proc.devRef .tc main_v14) = val_main_v14 (F := F) a0 a2 := by
  rw [ops1b_cut]
  simp only [after_append]
  obtain ⟨kx10, -⟩ := c1x_keep W
  obtain ⟨ky10, ky5, -⟩ := c1y_keep (after ops1x W)
  have v5x := c1x_v5 W a2 h12
  have v12y := c1y_v12 (after ops1x W) a2 v5x
  exact c1z_v14 (after ops1y (after ops1x W)) a0 a2 ((ky10.trans kx10).trans h10) (ky5.trans v5x) v12y

/-- The lookup writes none of the argument buffers. -/
theorem c1b_keep (W : Valuation τ sig (Elt F)) :
    after ops1b W (Proc.devRef .tc main_arg0) = W (Proc.devRef .tc main_arg0)
    ∧ after ops1b W (Proc.devRef .tc main_arg1) = W (Proc.devRef .tc main_arg1)
    ∧ after ops1b W (Proc.devRef .tc main_arg2) = W (Proc.devRef .tc main_arg2)
    ∧ after ops1b W (Proc.devRef .tc main_arg3) = W (Proc.devRef .tc main_arg3) := by
  rw [ops1b_cut]
  simp only [after_append]
  obtain ⟨-, x0, x1, x2, x3⟩ := c1x_keep W
  obtain ⟨-, -, y0, y1, y2, y3⟩ := c1y_keep (after ops1x W)
  obtain ⟨z0, z1, z2, z3⟩ := c1z_keep (after ops1y (after ops1x W))
  exact ⟨z0.trans (y0.trans x0), z1.trans (y1.trans x1), z2.trans (y2.trans x2), z3.trans (y3.trans x3)⟩

end Cert.MatchCost.RefRun

end
-- ==== Proof.RefRun2.lean ====
/-
  The reference's run, stretch 2 of 6: the box distance and the predicted boxes' four corner columns.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The box distance. -/
theorem c2_v21 (W : Valuation τ sig (Elt F)) (a1 : (⟨S64x900x4, .f32⟩ : BufTy).Contents (Elt F)) (a3 : (⟨S64x128x4, .f32⟩ : BufTy).Contents (Elt F)) (h1 : W (Proc.devRef .tc main_arg1) = a1) (h3 : W (Proc.devRef .tc main_arg3) = a3) :
    after ops2 W (Proc.devRef .tc main_v21) = val_main_v21 (F := F) a1 a3 := by
  subst h1; subst h3
  after_results_simp <;> (try simp only [TRef.ofBuf, TRef.toBuf, cast_eq]) <;> rfl

/-- Corner column 0 of the predicted boxes. -/
theorem c2_v42 (W : Valuation τ sig (Elt F)) (a1 : (⟨S64x900x4, .f32⟩ : BufTy).Contents (Elt F)) (h1 : W (Proc.devRef .tc main_arg1) = a1) :
    after ops2 W (Proc.devRef .tc main_v42) = val_main_v42 (F := F) a1 := by
  subst h1
  after_results_simp <;> (try simp only [TRef.ofBuf, TRef.toBuf, cast_eq]) <;> rfl

/-- Corner column 1 of the predicted boxes. -/
theorem c2_v43 (W : Valuation τ sig (Elt F)) (a1 : (⟨S64x900x4, .f32⟩ : BufTy).Contents (Elt F)) (h1 : W (Proc.devRef .tc main_arg1) = a1) :
    after ops2 W (Proc.devRef .tc main_v43) = val_main_v43 (F := F) a1 := by
  subst h1
  after_results_simp <;> (try simp only [TRef.ofBuf, TRef.toBuf, cast_eq]) <;> rfl

/-- Corner column 2 of the predicted boxes. -/
theorem c2_v44 (W : Valuation τ sig (Elt F)) (a1 : (⟨S64x900x4, .f32⟩ : BufTy).Contents (Elt F)) (h1 : W (Proc.devRef .tc main_arg1) = a1) :
    after ops2 W (Proc.devRef .tc main_v44) = val_main_v44 (F := F) a1 := by
  subst h1
  after_results_simp <;> (try simp only [TRef.ofBuf, TRef.toBuf, cast_eq]) <;> rfl

/-- Corner column 3 of the predicted boxes. -/
theorem c2_v45 (W : Valuation τ sig (Elt F)) (a1 : (⟨S64x900x4, .f32⟩ : BufTy).Contents (Elt F)) (h1 : W (Proc.devRef .tc main_arg1) = a1) :
    after ops2 W (Proc.devRef .tc main_v45) = val_main_v45 (F := F) a1 := by
  subst h1
  after_results_simp <;> (try simp only [TRef.ofBuf, TRef.toBuf, cast_eq]) <;> rfl

/-- The operations of this stretch write none of these buffers. -/
theorem c2_keep (W : Valuation τ sig (Elt F)) :
    after ops2 W (Proc.devRef .tc main_v14) = W (Proc.devRef .tc main_v14)
    ∧ after ops2 W (Proc.devRef .tc main_arg0) = W (Proc.devRef .tc main_arg0)
    ∧ after ops2 W (Proc.devRef .tc main_arg1) = W (Proc.devRef .tc main_arg1)
    ∧ after ops2 W (Proc.devRef .tc main_arg2) = W (Proc.devRef .tc main_arg2)
    ∧ after ops2 W (Proc.devRef .tc main_arg3) = W (Proc.devRef .tc main_arg3) := by
  refine ⟨?_, ?_, ?_, ?_, ?_⟩ <;> after_results_simp

end Cert.MatchCost.RefRun

end
-- ==== Proof.RefRun3.lean ====
/-
  The reference's run, stretch 3 of 6: the predicted boxes' corner form (the first concatenate) and the target boxes' four corner columns.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The predicted boxes in corner form: the concatenate of the four columns. (Its operands read the buffers through
    the operand vector; the hypotheses are spelt the same way.) -/
theorem c3_v46 (W : Valuation τ sig (Elt F)) (a1 : (⟨S64x900x4, .f32⟩ : BufTy).Contents (Elt F))
    (h42 : W (Proc.devRef .tc (![main_v42, main_v43, main_v44, main_v45] 0)) = val_main_v42 (F := F) a1)
    (h43 : W (Proc.devRef .tc (![main_v42, main_v43, main_v44, main_v45] 1)) = val_main_v43 (F := F) a1)
    (h44 : W (Proc.devRef .tc (![main_v42, main_v43, main_v44, main_v45] 2)) = val_main_v44 (F := F) a1)
    (h45 : W (Proc.devRef .tc (![main_v42, main_v43, main_v44, main_v45] 3)) = val_main_v45 (F := F) a1) :
    after ops3 W (Proc.devRef .tc main_v46) = val_main_v46 (F := F) a1 := by
  after_results_simp
  rw [h42, h43, h44, h45]
  rfl

/-- Corner column 0 of the target boxes. -/
theorem c3_v67 (W : Valuation τ sig (Elt F)) (a3 : (⟨S64x128x4, .f32⟩ : BufTy).Contents (Elt F)) (h3 : W (Proc.devRef .tc main_arg3) = a3) :
    after ops3 W (Proc.devRef .tc main_v67) = val_main_v67 (F := F) a3 := by
  subst h3
  after_results_simp <;> (try simp only [TRef.ofBuf, TRef.toBuf, cast_eq]) <;> rfl

/-- Corner column 1 of the target boxes. -/
theorem c3_v68 (W : Valuation τ sig (Elt F)) (a3 : (⟨S64x128x4, .f32⟩ : BufTy).Contents (Elt F)) (h3 : W (Proc.devRef .tc main_arg3) = a3) :
    after ops3 W (Proc.devRef .tc main_v68) = val_main_v68 (F := F) a3 := by
  subst h3
  after_results_simp <;> (try simp only [TRef.ofBuf, TRef.toBuf, cast_eq]) <;> rfl

/-- Corner column 2 of the target boxes. -/
theorem c3_v69 (W : Valuation τ sig (Elt F)) (a3 : (⟨S64x128x4, .f32⟩ : BufTy).Contents (Elt F)) (h3 : W (Proc.devRef .tc main_arg3) = a3) :
    after ops3 W (Proc.devRef .tc main_v69) = val_main_v69 (F := F) a3 := by
  subst h3
  after_results_simp <;> (try simp only [TRef.ofBuf, TRef.toBuf, cast_eq]) <;> rfl

/-- Corner column 3 of the target boxes. -/
theorem c3_v70 (W : Valuation τ sig (Elt F)) (a3 : (⟨S64x128x4, .f32⟩ : BufTy).Contents (Elt F)) (h3 : W (Proc.devRef .tc main_arg3) = a3) :
    after ops3 W (Proc.devRef .tc main_v70) = val_main_v70 (F := F) a3 := by
  subst h3
  after_results_simp <;> (try simp only [TRef.ofBuf, TRef.toBuf, cast_eq]) <;> rfl

/-- The operations of this stretch write none of these buffers. -/
theorem c3_keep (W : Valuation τ sig (Elt F)) :
    after ops3 W (Proc.devRef .tc main_v14) = W (Proc.devRef .tc main_v14)
    ∧ after ops3 W (Proc.devRef .tc main_v21) = W (Proc.devRef .tc main_v21)
    ∧ after ops3 W (Proc.devRef .tc main_arg0) = W (Proc.devRef .tc main_arg0)
    ∧ after ops3 W (Proc.devRef .tc main_arg1) = W (Proc.devRef .tc main_arg1)
    ∧ after ops3 W (Proc.devRef .tc main_arg2) = W (Proc.devRef .tc main_arg2)
    ∧ after ops3 W (Proc.devRef .tc main_arg3) = W (Proc.devRef .tc main_arg3) := by
  refine ⟨?_, ?_, ?_, ?_, ?_, ?_⟩ <;> after_results_simp

end Cert.MatchCost.RefRun

end
-- ==== Proof.RefRun4.lean ====
/-
  The reference's run, stretch 4 of 6: the target boxes' corner form (the second concatenate) and the two clipped areas.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The target boxes in corner form. -/
theorem c4_v71 (W : Valuation τ sig (Elt F)) (a3 : (⟨S64x128x4, .f32⟩ : BufTy).Contents (Elt F))
    (h67 : W (Proc.devRef .tc (![main_v67, main_v68, main_v69, main_v70] 0)) = val_main_v67 (F := F) a3)
    (h68 : W (Proc.devRef .tc (![main_v67, main_v68, main_v69, main_v70] 1)) = val_main_v68 (F := F) a3)
    (h69 : W (Proc.devRef .tc (![main_v67, main_v68, main_v69, main_v70] 2)) = val_main_v69 (F := F) a3)
    (h70 : W (Proc.devRef .tc (![main_v67, main_v68, main_v69, main_v70] 3)) = val_main_v70 (F := F) a3) :
    after ops4 W (Proc.devRef .tc main_v71) = val_main_v71 (F := F) a3 := by
  after_results_simp
  rw [h67, h68, h69, h70]
  rfl

/-- The predicted boxes' areas. -/
theorem c4_v84 (W : Valuation τ sig (Elt F)) (a1 : (⟨S64x900x4, .f32⟩ : BufTy).Contents (Elt F)) (h46 : W (Proc.devRef .tc main_v46) = val_main_v46 (F := F) a1) :
    after ops4 W (Proc.devRef .tc main_v84) = val_main_v84 (F := F) a1 := by
  after_results_simp
  (try simp only [TRef.ofBuf, TRef.toBuf, cast_eq])
  rw [h46]
  rfl

/-- The target boxes' areas. -/
theorem c4_v97 (W : Valuation τ sig (Elt F)) (a3 : (⟨S64x128x4, .f32⟩ : BufTy).Contents (Elt F))
    (h67 : W (Proc.devRef .tc (![main_v67, main_v68, main_v69, main_v70] 0)) = val_main_v67 (F := F) a3)
    (h68 : W (Proc.devRef .tc (![main_v67, main_v68, main_v69, main_v70] 1)) = val_main_v68 (F := F) a3)
    (h69 : W (Proc.devRef .tc (![main_v67, main_v68, main_v69, main_v70] 2)) = val_main_v69 (F := F) a3)
    (h70 : W (Proc.devRef .tc (![main_v67, main_v68, main_v69, main_v70] 3)) = val_main_v70 (F := F) a3) :
    after ops4 W (Proc.devRef .tc main_v97) = val_main_v97 (F := F) a3 := by
  after_results_simp
  (try simp only [TRef.ofBuf, TRef.toBuf, cast_eq])
  rw [h67, h68, h69, h70]
  rfl

/-- The operations of this stretch write none of these buffers. -/
theorem c4_keep (W : Valuation τ sig (Elt F)) :
    after ops4 W (Proc.devRef .tc main_v14) = W (Proc.devRef .tc main_v14)
    ∧ after ops4 W (Proc.devRef .tc main_v21) = W (Proc.devRef .tc main_v21)
    ∧ after ops4 W (Proc.devRef .tc main_v46) = W (Proc.devRef .tc main_v46)
    ∧ after ops4 W (Proc.devRef .tc main_arg0) = W (Proc.devRef .tc main_arg0)
    ∧ after ops4 W (Proc.devRef .tc main_arg1) = W (Proc.devRef .tc main_arg1)
    ∧ after ops4 W (Proc.devRef .tc main_arg2) = W (Proc.devRef .tc main_arg2)
    ∧ after ops4 W (Proc.devRef .tc main_arg3) = W (Proc.devRef .tc main_arg3) := by
  refine ⟨?_, ?_, ?_, ?_, ?_, ?_, ?_⟩ <;> after_results_simp

end Cert.MatchCost.RefRun

end
-- ==== Proof.RefRun5.lean ====
/-
  The reference's run, stretch 5 of 6: the intersection, the union and their quotient.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The union's area, guarded. -/
theorem c5_v126 (W : Valuation τ sig (Elt F)) (a1 : (⟨S64x900x4, .f32⟩ : BufTy).Contents (Elt F)) (a3 : (⟨S64x128x4, .f32⟩ : BufTy).Contents (Elt F))
    (h46 : W (Proc.devRef .tc main_v46) = val_main_v46 (F := F) a1) (h71 : W (Proc.devRef .tc main_v71) = val_main_v71 (F := F) a3)
    (h84 : W (Proc.devRef .tc main_v84) = val_main_v84 (F := F) a1) (h97 : W (Proc.devRef .tc main_v97) = val_main_v97 (F := F) a3) :
    after ops5 W (Proc.devRef .tc main_v126) = val_main_v126 (F := F) a1 a3 := by
  after_results_simp
  (try simp only [TRef.ofBuf, TRef.toBuf, cast_eq])
  rw [h46, h71, h84, h97]
  rfl

/-- The intersection over the union. -/
theorem c5_v127 (W : Valuation τ sig (Elt F)) (a1 : (⟨S64x900x4, .f32⟩ : BufTy).Contents (Elt F)) (a3 : (⟨S64x128x4, .f32⟩ : BufTy).Contents (Elt F))
    (h46 : W (Proc.devRef .tc main_v46) = val_main_v46 (F := F) a1) (h71 : W (Proc.devRef .tc main_v71) = val_main_v71 (F := F) a3)
    (h84 : W (Proc.devRef .tc main_v84) = val_main_v84 (F := F) a1) (h97 : W (Proc.devRef .tc main_v97) = val_main_v97 (F := F) a3) :
    after ops5 W (Proc.devRef .tc main_v127) = val_main_v127 (F := F) a1 a3 := by
  after_results_simp
  (try simp only [TRef.ofBuf, TRef.toBuf, cast_eq])
  rw [h46, h71, h84, h97]
  rfl

/-- The operations of this stretch write none of these buffers. -/
theorem c5_keep (W : Valuation τ sig (Elt F)) :
    after ops5 W (Proc.devRef .tc main_v14) = W (Proc.devRef .tc main_v14)
    ∧ after ops5 W (Proc.devRef .tc main_v21) = W (Proc.devRef .tc main_v21)
    ∧ after ops5 W (Proc.devRef .tc main_v46) = W (Proc.devRef .tc main_v46)
    ∧ after ops5 W (Proc.devRef .tc main_v71) = W (Proc.devRef .tc main_v71)
    ∧ after ops5 W (Proc.devRef .tc main_arg0) = W (Proc.devRef .tc main_arg0)
    ∧ after ops5 W (Proc.devRef .tc main_arg1) = W (Proc.devRef .tc main_arg1)
    ∧ after ops5 W (Proc.devRef .tc main_arg2) = W (Proc.devRef .tc main_arg2)
    ∧ after ops5 W (Proc.devRef .tc main_arg3) = W (Proc.devRef .tc main_arg3) := by
  refine ⟨?_, ?_, ?_, ?_, ?_, ?_, ?_, ?_⟩ <;> after_results_simp

end Cert.MatchCost.RefRun

end
-- ==== Proof.RefRun6.lean ====
/-
  The reference's run, stretch 6 of 6: the enclosing box, the generalised IoU, and the weighted sum.

  From any contents `W` of the device's buffers, the buffers this stretch of @main writes end at their stages (the
  read module's `val_…`) of the argument arrays, given that the buffers it reads hold theirs; the buffers it does
  not write keep their contents.
-/
import proofs.«400868_j75771813036148_1_alg».proof.Proof.RefOpsCut
import proofs.«400868_j75771813036148_1_alg».proof.Proof.RefRead

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The result. -/
theorem c6_v162 (W : Valuation τ sig (Elt F)) (a0 : (⟨S64x900x256, .f32⟩ : BufTy).Contents (Elt F)) (a1 : (⟨S64x900x4, .f32⟩ : BufTy).Contents (Elt F)) (a2 : (⟨S64x128, .i32⟩ : BufTy).Contents (Elt F)) (a3 : (⟨S64x128x4, .f32⟩ : BufTy).Contents (Elt F))
    (h14 : W (Proc.devRef .tc main_v14) = val_main_v14 (F := F) a0 a2) (h21 : W (Proc.devRef .tc main_v21) = val_main_v21 (F := F) a1 a3)
    (h46 : W (Proc.devRef .tc main_v46) = val_main_v46 (F := F) a1) (h71 : W (Proc.devRef .tc main_v71) = val_main_v71 (F := F) a3)
    (h126 : W (Proc.devRef .tc main_v126) = val_main_v126 (F := F) a1 a3) (h127 : W (Proc.devRef .tc main_v127) = val_main_v127 (F := F) a1 a3) :
    after ops6 W (Proc.devRef .tc main_v162) = val_main_v162 (F := F) a0 a1 a2 a3 := by
  after_results_simp
  (try simp only [TRef.ofBuf, TRef.toBuf, cast_eq])
  rw [h14, h21, h46, h71, h126, h127]
  rfl

/-- The operations of this stretch write none of these buffers. -/
theorem c6_keep (W : Valuation τ sig (Elt F)) :
    after ops6 W (Proc.devRef .tc main_arg0) = W (Proc.devRef .tc main_arg0)
    ∧ after ops6 W (Proc.devRef .tc main_arg1) = W (Proc.devRef .tc main_arg1)
    ∧ after ops6 W (Proc.devRef .tc main_arg2) = W (Proc.devRef .tc main_arg2)
    ∧ after ops6 W (Proc.devRef .tc main_arg3) = W (Proc.devRef .tc main_arg3) := by
  refine ⟨?_, ?_, ?_, ?_⟩ <;> after_results_simp

end Cert.MatchCost.RefRun

end
-- ==== Proof.RefRun.lean ====
/-
  The reference's run, read: every weakly fair execution of its @main terminates with the result buffer at the last
  stage of the read module, `val_main_v162` of the four argument arrays, and the arguments unchanged.

  @main is a list of 219 host operations; the buffers after the list are a left fold over it from the launch contents.
  The list is cut into six stretches (before each of the two concatenates, so that a concatenate's operands are
  buffers the stretch finds rather than values it computes, and at three more places; the first stretch once more, before
  the label lookup). Each stretch maps "the buffers
  I read hold their stages" to "the buffers I write hold theirs" and keeps the rest; chaining the six gives the
  result buffer at its stage and the arguments kept.
-/
import proofs.«400868_j75771813036148_1_alg».proof.Proof.RefRun1a
import proofs.«400868_j75771813036148_1_alg».proof.Proof.RefRun1b
import proofs.«400868_j75771813036148_1_alg».proof.Proof.RefRun2
import proofs.«400868_j75771813036148_1_alg».proof.Proof.RefRun3
import proofs.«400868_j75771813036148_1_alg».proof.Proof.RefRun4
import proofs.«400868_j75771813036148_1_alg».proof.Proof.RefRun5
import proofs.«400868_j75771813036148_1_alg».proof.Proof.RefRun6

noncomputable section

namespace Cert.MatchCost.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after the first k stretches. -/
abbrev W1a (W0 : Valuation τ sig (Elt F)) : Valuation τ sig (Elt F) := after ops1a W0
abbrev W1 (W0 : Valuation τ sig (Elt F)) : Valuation τ sig (Elt F) := after ops1b (W1a W0)
abbrev W2 (W0 : Valuation τ sig (Elt F)) : Valuation τ sig (Elt F) := after ops2 (W1 W0)
abbrev W3 (W0 : Valuation τ sig (Elt F)) : Valuation τ sig (Elt F) := after ops3 (W2 W0)
abbrev W4 (W0 : Valuation τ sig (Elt F)) : Valuation τ sig (Elt F) := after ops4 (W3 W0)
abbrev W5 (W0 : Valuation τ sig (Elt F)) : Valuation τ sig (Elt F) := after ops5 (W4 W0)
abbrev W6 (W0 : Valuation τ sig (Elt F)) : Valuation τ sig (Elt F) := after ops6 (W5 W0)

/-- The whole list is the six stretches in a row. -/
theorem after_ops_eq (W0 : Valuation τ sig (Elt F)) : after ops W0 = W6 W0 := by
  rw [ops_cut, ops1_cut]
  simp only [after_append]

/-- From any entry contents: the result buffer ends at the last stage of the entry contents' argument arrays, and
    the four argument buffers are kept. -/
theorem after_ops (W0 : Valuation τ sig (Elt F)) :
    after ops W0 (Proc.devRef .tc main_v162)
        = val_main_v162 (F := F) (W0 (Proc.devRef .tc main_arg0)) (W0 (Proc.devRef .tc main_arg1)) (W0 (Proc.devRef .tc main_arg2)) (W0 (Proc.devRef .tc main_arg3))
    ∧ after ops W0 (Proc.devRef .tc main_arg0) = W0 (Proc.devRef .tc main_arg0)
    ∧ after ops W0 (Proc.devRef .tc main_arg1) = W0 (Proc.devRef .tc main_arg1)
    ∧ after ops W0 (Proc.devRef .tc main_arg2) = W0 (Proc.devRef .tc main_arg2)
    ∧ after ops W0 (Proc.devRef .tc main_arg3) = W0 (Proc.devRef .tc main_arg3) := by
  rw [after_ops_eq]
  -- what each stretch keeps
  obtain ⟨ka_0, ka_1, ka_2, ka_3⟩ := c1a_keep W0
  obtain ⟨kb_0, kb_1, kb_2, kb_3⟩ := c1b_keep (W1a W0)
  have k1_0 : W1 W0 (Proc.devRef .tc main_arg0) = W0 (Proc.devRef .tc main_arg0) := kb_0.trans ka_0
  have k1_1 : W1 W0 (Proc.devRef .tc main_arg1) = W0 (Proc.devRef .tc main_arg1) := kb_1.trans ka_1
  have k1_2 : W1 W0 (Proc.devRef .tc main_arg2) = W0 (Proc.devRef .tc main_arg2) := kb_2.trans ka_2
  have k1_3 : W1 W0 (Proc.devRef .tc main_arg3) = W0 (Proc.devRef .tc main_arg3) := kb_3.trans ka_3
  obtain ⟨k2_14, k2_0, k2_1, k2_2, k2_3⟩ := c2_keep (W1 W0)
  obtain ⟨k3_14, k3_21, k3_0, k3_1, k3_2, k3_3⟩ := c3_keep (W2 W0)
  obtain ⟨k4_14, k4_21, k4_46, k4_0, k4_1, k4_2, k4_3⟩ := c4_keep (W3 W0)
  obtain ⟨k5_14, k5_21, k5_46, k5_71, k5_0, k5_1, k5_2, k5_3⟩ := c5_keep (W4 W0)
  obtain ⟨k6_0, k6_1, k6_2, k6_3⟩ := c6_keep (W5 W0)
  -- the argument buffers after each stretch
  have e2_1 : W2 W0 (Proc.devRef .tc main_arg1) = W0 (Proc.devRef .tc main_arg1) := k2_1.trans k1_1
  have e2_3 : W2 W0 (Proc.devRef .tc main_arg3) = W0 (Proc.devRef .tc main_arg3) := k2_3.trans k1_3
  -- stretch 1: the class term
  have v10_a : W1a W0 (Proc.devRef .tc main_v10) = val_main_v10 (F := F) (W0 (Proc.devRef .tc main_arg0)) := c1a_v10 W0 _ rfl
  have v12_a : W1a W0 (Proc.devRef .tc main_v12) = val_main_v12 (F := F) (W0 (Proc.devRef .tc main_arg2)) := c1a_v12 W0 _ rfl
  have v14_1 : W1 W0 (Proc.devRef .tc main_v14) = val_main_v14 (F := F) (W0 (Proc.devRef .tc main_arg0)) (W0 (Proc.devRef .tc main_arg2)) := c1b_v14 (W1a W0) _ _ v10_a v12_a
  -- stretch 2: the box distance and the predicted corners' columns
  have v21_2 : W2 W0 (Proc.devRef .tc main_v21) = val_main_v21 (F := F) (W0 (Proc.devRef .tc main_arg1)) (W0 (Proc.devRef .tc main_arg3)) := c2_v21 (W1 W0) _ _ k1_1 k1_3
  have v42_2 : W2 W0 (Proc.devRef .tc main_v42) = val_main_v42 (F := F) (W0 (Proc.devRef .tc main_arg1)) := c2_v42 (W1 W0) _ k1_1
  have v43_2 : W2 W0 (Proc.devRef .tc main_v43) = val_main_v43 (F := F) (W0 (Proc.devRef .tc main_arg1)) := c2_v43 (W1 W0) _ k1_1
  have v44_2 : W2 W0 (Proc.devRef .tc main_v44) = val_main_v44 (F := F) (W0 (Proc.devRef .tc main_arg1)) := c2_v44 (W1 W0) _ k1_1
  have v45_2 : W2 W0 (Proc.devRef .tc main_v45) = val_main_v45 (F := F) (W0 (Proc.devRef .tc main_arg1)) := c2_v45 (W1 W0) _ k1_1
  -- stretch 3: the predicted corners and the target corners' columns
  have v46_3 : W3 W0 (Proc.devRef .tc main_v46) = val_main_v46 (F := F) (W0 (Proc.devRef .tc main_arg1)) := c3_v46 (W2 W0) _ v42_2 v43_2 v44_2 v45_2
  have v67_3 : W3 W0 (Proc.devRef .tc main_v67) = val_main_v67 (F := F) (W0 (Proc.devRef .tc main_arg3)) := c3_v67 (W2 W0) _ e2_3
  have v68_3 : W3 W0 (Proc.devRef .tc main_v68) = val_main_v68 (F := F) (W0 (Proc.devRef .tc main_arg3)) := c3_v68 (W2 W0) _ e2_3
  have v69_3 : W3 W0 (Proc.devRef .tc main_v69) = val_main_v69 (F := F) (W0 (Proc.devRef .tc main_arg3)) := c3_v69 (W2 W0) _ e2_3
  have v70_3 : W3 W0 (Proc.devRef .tc main_v70) = val_main_v70 (F := F) (W0 (Proc.devRef .tc main_arg3)) := c3_v70 (W2 W0) _ e2_3
  -- stretch 4: the target corners and the two areas
  have v71_4 : W4 W0 (Proc.devRef .tc main_v71) = val_main_v71 (F := F) (W0 (Proc.devRef .tc main_arg3)) := c4_v71 (W3 W0) _ v67_3 v68_3 v69_3 v70_3
  have v84_4 : W4 W0 (Proc.devRef .tc main_v84) = val_main_v84 (F := F) (W0 (Proc.devRef .tc main_arg1)) := c4_v84 (W3 W0) _ v46_3
  have v97_4 : W4 W0 (Proc.devRef .tc main_v97) = val_main_v97 (F := F) (W0 (Proc.devRef .tc main_arg3)) := c4_v97 (W3 W0) _ v67_3 v68_3 v69_3 v70_3
  have v46_4 : W4 W0 (Proc.devRef .tc main_v46) = val_main_v46 (F := F) (W0 (Proc.devRef .tc main_arg1)) := k4_46.trans v46_3
  -- stretch 5: the union and the quotient
  have v126_5 : W5 W0 (Proc.devRef .tc main_v126) = val_main_v126 (F := F) (W0 (Proc.devRef .tc main_arg1)) (W0 (Proc.devRef .tc main_arg3)) := c5_v126 (W4 W0) _ _ v46_4 v71_4 v84_4 v97_4
  have v127_5 : W5 W0 (Proc.devRef .tc main_v127) = val_main_v127 (F := F) (W0 (Proc.devRef .tc main_arg1)) (W0 (Proc.devRef .tc main_arg3)) := c5_v127 (W4 W0) _ _ v46_4 v71_4 v84_4 v97_4
  have v14_5 : W5 W0 (Proc.devRef .tc main_v14) = val_main_v14 (F := F) (W0 (Proc.devRef .tc main_arg0)) (W0 (Proc.devRef .tc main_arg2)) :=
    k5_14.trans (k4_14.trans (k3_14.trans (k2_14.trans v14_1)))
  have v21_5 : W5 W0 (Proc.devRef .tc main_v21) = val_main_v21 (F := F) (W0 (Proc.devRef .tc main_arg1)) (W0 (Proc.devRef .tc main_arg3)) :=
    k5_21.trans (k4_21.trans (k3_21.trans v21_2))
  have v46_5 : W5 W0 (Proc.devRef .tc main_v46) = val_main_v46 (F := F) (W0 (Proc.devRef .tc main_arg1)) := k5_46.trans v46_4
  have v71_5 : W5 W0 (Proc.devRef .tc main_v71) = val_main_v71 (F := F) (W0 (Proc.devRef .tc main_arg3)) := k5_71.trans v71_4
  -- stretch 6: the result
  exact ⟨c6_v162 (W5 W0) _ _ _ _ v14_5 v21_5 v46_5 v71_5 v126_5 v127_5,
    k6_0.trans (k5_0.trans (k4_0.trans (k3_0.trans (k2_0.trans k1_0)))),
    k6_1.trans (k5_1.trans (k4_1.trans (k3_1.trans (k2_1.trans k1_1)))),
    k6_2.trans (k5_2.trans (k4_2.trans (k3_2.trans (k2_2.trans k1_2)))),
    k6_3.trans (k5_3.trans (k4_3.trans (k3_3.trans (k2_3.trans k1_3))))⟩

set_option maxRecDepth 8192 in
set_option maxHeartbeats 87600000 in
/-- On every device, from any memory with zero counters: every weakly fair execution of @main terminates with the
    result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162)
          = val_main_v162 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨hv, h0, h1, h2, h3⟩ := after_ops (launchContents m c)
      exact ⟨(h c main_v162).trans hv, (h c main_arg0).trans h0, (h c main_arg1).trans h1,
        (h c main_arg2).trans h2, (h c main_arg3).trans h3⟩)
    (run_seq scopedRefs_eq scopedSems_eq defs main (fun _ => ops) main_eq (fun _ => ops_sub) m ρ)

end Cert.MatchCost.RefRun

end
-- ==== Proof.Spec.lean ====
/-
  The matching cost, as ONE function of the four argument arrays, entry by entry.

  For batch `b`, query `q` and target `t` the cost is
      1 · (0 − P) + 5 · L1 + 2 · (0 − GIoU)
  where `P` is the softmax probability of query (b, q) at the class the label of target (b, t) names,
  `L1` is the sum of the four absolute coordinate differences of the two boxes (centre x, centre y, width, height),
  and `GIoU` is the generalised intersection over union of the two boxes once turned into corner form.
  Everything is over the extended reals; the float literals are kept as the words both programs carry.

  The class term is written the way a one-hot product computes it, `∑ c, prob c · [c = label]`, which is total in the
  label word; `classSum_eq` collapses it to the single probability when the label is a class (below 256).
-/
import Idealize.ShloMosaic.PureOps.Ideal.Laws
import Idealize.ShloMosaic.Lib.ValueIdx

noncomputable section

open scoped BigOperators

namespace Cert.MatchCost

open Idealize.ShloMosaic Idealize.ShloMosaic.ValueIdx

/-! ## The literals -/

/-- `-∞` as the f32 word both programs start a row maximum from. -/
abbrev negInf : EReal := Ideal.ofBits .f32 0xFF800000#32
/-- The word of `0.0`. -/
abbrev zeroW : EReal := Ideal.ofBits .f32 0x00000000#32
/-- The word of `0.5`. -/
abbrev halfW : EReal := Ideal.ofBits .f32 0x3F000000#32
/-- The word of the f32 nearest `1e-6`, the same on both sides. -/
abbrev epsW : EReal := Ideal.ofBits .f32 0x358637BD#32
/-- The three weights `1.0`, `5.0`, `2.0`. -/
abbrev wCls : EReal := Ideal.ofBits .f32 0x3F800000#32
abbrev wBox : EReal := Ideal.ofBits .f32 0x40A00000#32
abbrev wGiou : EReal := Ideal.ofBits .f32 0x40000000#32

/-! ## Softmax of one row of 256 logits -/

/-- The row's maximum, folded from `-∞`. -/
def rowMax (r : Fin 256 → EReal) : EReal := (Finset.univ : Finset (Fin 256)).fold max negInf r

/-- The shifted exponential of one logit. -/
def expShift (r : Fin 256 → EReal) (c : Fin 256) : EReal := Ideal.exp (r c - rowMax r)

/-- The softmax probability of class `c`. -/
def prob (r : Fin 256 → EReal) (c : Fin 256) : EReal := Ideal.div (expShift r c) (∑ c' : Fin 256, expShift r c')

/-- The indicator that class `c` is the one the label word names. -/
def isClass (c : Fin 256) (l : BitVec 32) : EReal := if BitVec.ofNat 32 c.val = l then 1 else 0

/-- The probability picked by a one-hot product: every class's probability times its indicator. -/
def classSum (r : Fin 256 → EReal) (l : BitVec 32) : EReal := ∑ c : Fin 256, prob r c * isClass c l

/-- A label word that is a class picks that class's probability: all the other terms of the one-hot product vanish
    (on the extended reals `x · 0 = 0` for every `x`, infinite ones included). -/
theorem classSum_eq (r : Fin 256 → EReal) (l : BitVec 32) (h : l.toNat < 256) :
    classSum r l = prob r ⟨l.toNat, h⟩ := by
  unfold classSum
  rw [Finset.sum_eq_single (⟨l.toNat, h⟩ : Fin 256)]
  · have e : BitVec.ofNat 32 l.toNat = l := by
      apply BitVec.eq_of_toNat_eq
      simp only [BitVec.toNat_ofNat]
      omega
    simp only [isClass, e, if_true, mul_one]
  · intro c _ hc
    have hne : BitVec.ofNat 32 c.val ≠ l := by
      intro e
      apply hc
      apply Fin.ext
      have := congrArg BitVec.toNat e
      simp only [BitVec.toNat_ofNat] at this
      have hc' : c.val < 256 := c.isLt
      show c.val = l.toNat
      omega
    simp only [isClass, if_neg hne, mul_zero]
  · intro hn; exact absurd (Finset.mem_univ _) hn

/-! ## The two box terms, over the four coordinates (cx, cy, w, h) of a predicted box `p` and a target box `t` -/

/-- Absolute value as the float operation reads at the extended reals. -/
abbrev absE (a : EReal) : EReal := max a (-a)

/-- The sum of the four absolute coordinate differences, added left to right. -/
def l1 (p t : Fin 4 → EReal) : EReal :=
  ((absE (p 0 - t 0) + absE (p 1 - t 1)) + absE (p 2 - t 2)) + absE (p 3 - t 3)

/-- Corner form of a box given by centre and size: left, top, right, bottom. -/
def xLo (b : Fin 4 → EReal) : EReal := b 0 - halfW * b 2
def yLo (b : Fin 4 → EReal) : EReal := b 1 - halfW * b 3
def xHi (b : Fin 4 → EReal) : EReal := b 0 + halfW * b 2
def yHi (b : Fin 4 → EReal) : EReal := b 1 + halfW * b 3

/-- The four corners as one vector (left, top, right, bottom). -/
def corner (b : Fin 4 → EReal) : Fin 4 → EReal := fun k => match k with
  | ⟨0, _⟩ => xLo b
  | ⟨1, _⟩ => yLo b
  | ⟨2, _⟩ => xHi b
  | ⟨3, _⟩ => yHi b

/-- A corner-form box's area, its sides clipped at zero. -/
def areaC (c : Fin 4 → EReal) : EReal := max (c 2 - c 0) zeroW * max (c 3 - c 1) zeroW

/-- The area of the intersection of two corner-form boxes. -/
def interC (p t : Fin 4 → EReal) : EReal :=
  max (min (p 2) (t 2) - max (p 0) (t 0)) zeroW * max (min (p 3) (t 3) - max (p 1) (t 1)) zeroW

/-- The area of their union, plus the guard. -/
def unionC (p t : Fin 4 → EReal) : EReal := areaC p + areaC t - interC p t + epsW

/-- The area of the smallest box enclosing both, plus the guard. -/
def encloseC (p t : Fin 4 → EReal) : EReal :=
  max (max (p 2) (t 2) - min (p 0) (t 0)) zeroW * max (max (p 3) (t 3) - min (p 1) (t 1)) zeroW + epsW

/-- Generalised intersection over union of two corner-form boxes. -/
def giouC (p t : Fin 4 → EReal) : EReal :=
  Ideal.div (interC p t) (unionC p t) - Ideal.div (encloseC p t - unionC p t) (encloseC p t)

/-- Generalised intersection over union of two boxes given by centre and size. -/
def giou (p t : Fin 4 → EReal) : EReal := giouC (corner p) (corner t)

/-! ## The cost -/

/-- One entry, from the (already negated) class term and the two boxes. -/
def cost (negCls : EReal) (p t : Fin 4 → EReal) : EReal :=
  (wCls * negCls + wBox * l1 p t) + wGiou * (zeroW - giou p t)

/-- The whole result array: entry (b, q, t) from row (b, q) of the logits, box (b, q) of the predictions, label (b, t) and
    box (b, t) of the targets. -/
def G (logits : (⟨3, ![64, 900, 256]⟩ : Shape).Idx → EReal) (pbox : (⟨3, ![64, 900, 4]⟩ : Shape).Idx → EReal)
    (labels : (⟨2, ![64, 128]⟩ : Shape).Idx → BitVec 32) (tbox : (⟨3, ![64, 128, 4]⟩ : Shape).Idx → EReal) :
    (⟨3, ![64, 900, 128]⟩ : Shape).Idx → EReal := fun i =>
  cost (zeroW - classSum (fun c => logits (ix3 (i 0) (i 1) c)) (labels (ix2 (i 0) (i 2))))
    (fun k => pbox (ix3 (i 0) (i 1) k)) (fun k => tbox (ix3 (i 0) (i 2) k))

end Cert.MatchCost

end
-- ==== Proof.RefBox.lean ====
/-
  The reference's box-distance term, read at one entry.

  The reference lays the predicted boxes along the targets and the target boxes along the queries (two broadcasts each),
  subtracts, takes absolute values and sums the last axis of extent four from zero. At entry (b, q, t) that is
  `0 + (|Δ0| + |Δ1| + |Δ2| + |Δ3|)` with `Δk` the difference of coordinate `k` of predicted box (b, q) and target box (b, t):
  the specification's `l1`, whose sum is written left to right.
-/
import proofs.«400868_j75771813036148_1_alg».proof.Proof.RefRead
import proofs.«400868_j75771813036148_1_alg».proof.Proof.Spec

noncomputable section

open scoped BigOperators

namespace Cert.MatchCost.RefBox

open Cert.ReferenceIdeal Cert.ReferenceIdeal.ReadP Idealize.ShloMosaic Idealize.ShloMosaic.ValueIdx Cert.MatchCost

/-- One absolute difference: the summand the reference adds for coordinate `k` at entry (b, q, t). -/
theorem diff_at (x1 : (⟨S64x900x4, .f32⟩ : BufTy).Contents (Elt Ideal)) (x3 : (⟨S64x128x4, .f32⟩ : BufTy).Contents (Elt Ideal))
    (b : Fin 64) (q : Fin 900) (t : Fin 128) (k : Fin 4) :
    val_main_v20 (F := Ideal) x1 x3 (idx_main_v21 (ix3 b q t) k) = absE (x1 (ix3 b q k) - x3 (ix3 b t k)) := by
  rw [val_main_v20_apply, val_main_v19_apply, val_main_v17_apply, val_main_v15_apply, val_main_v18_apply, val_main_v16_apply]
  have e1 : idx_main_v15 (idx_main_v17 (idx_main_v21 (ix3 b q t) k)) = ix3 b q k := by
    funext a; match a with | ⟨0, _⟩ => rfl | ⟨1, _⟩ => rfl | ⟨2, _⟩ => rfl
  have e2 : idx_main_v16 (idx_main_v18 (idx_main_v21 (ix3 b q t) k)) = ix3 b t k := by
    funext a; match a with | ⟨0, _⟩ => rfl | ⟨1, _⟩ => rfl | ⟨2, _⟩ => rfl
  rw [e1, e2]
  rfl

/-- The reference's box-distance array at entry (b, q, t) is the specification's `l1` of the two boxes. -/
theorem ref_l1 (x1 : (⟨S64x900x4, .f32⟩ : BufTy).Contents (Elt Ideal)) (x3 : (⟨S64x128x4, .f32⟩ : BufTy).Contents (Elt Ideal))
    (b : Fin 64) (q : Fin 900) (t : Fin 128) :
    val_main_v21 (F := Ideal) x1 x3 (ix3 b q t) = l1 (fun k => x1 (ix3 b q k)) (fun k => x3 (ix3 b t k)) := by
  rw [val_main_v21_apply]
  simp only [diff_at, Fin.sum_univ_four]
  show Ideal.ofBits .f32 0x00000000#32 + _ = _
  rw [Ideal.ofBits_zero_f32, zero_add]
  rfl

end Cert.MatchCost.RefBox

end
-- ==== Proof.RefClass.lean ====
/-
  The reference's class term, read at one entry.
-/
import proofs.«400868_j75771813036148_1_alg».proof.Proof.RefRead
import proofs.«400868_j75771813036148_1_alg».proof.Proof.Spec
import Idealize.ShloMosaic.Lib.StableHlo.Predicate

noncomputable section

open scoped BigOperators

namespace Cert.MatchCost.RefClass

open Cert.ReferenceIdeal Cert.ReferenceIdeal.ReadP Idealize.ShloMosaic Idealize.ShloMosaic.ValueIdx Cert.MatchCost

/-! ## The softmax of row (b, q) -/

/-- The shape fact that names, for a row index and a class, the logits index with the class inserted on the last axis. -/
theorem redRow : S64x900x256.Reduces [2] S64x900 := by decide

/-- That inserted index is (b, q, k). -/
theorem lift_row (b : Fin 64) (q : Fin 900) (k : Fin 256) : redRow.lift (ix2 b q) k = ix3 b q k := by
  funext a
  apply Fin.ext
  match a with
  | ⟨0, _⟩ => rfl
  | ⟨1, _⟩ => rfl
  | ⟨2, _⟩ => rfl

/-- The row maximum the reference subtracts: the fold of max over the row's 256 logits from -∞; the extra maximum with
    -∞ changes nothing because the fold is at least its starting value. -/
theorem v2_read (x0 : (⟨S64x900x256, .f32⟩ : BufTy).Contents (Elt Ideal)) (b : Fin 64) (q : Fin 900) :
    val_main_v2 (F := Ideal) x0 (ix2 b q) = rowMax (fun c => x0 (ix3 b q c)) := by
  rw [val_main_v2_apply, val_main_v1_apply, val_main_cst_0_apply]
  unfold val_main_v0
  rw [Host.reduce_eq_fold_single (FloatOps.maximumf (F := Ideal) (φ := .f32)) x0 _ Gen.reducesTo_S64x900x256_S64x900_d2 redRow Gen.h_S_ (ix2 b q)]
  rw [val_main_cst_apply]
  have hf : (x0 ∘ redRow.lift (ix2 b q)) = fun c : Fin 256 => x0 (ix3 b q c) := by
    funext k
    exact congrArg x0 (lift_row b q k)
  rw [hf]
  show max negInf ((Finset.univ : Finset (Fin 256)).fold max negInf (fun c => x0 (ix3 b q c))) = _
  exact max_eq_right ((Finset.le_fold_max _).mpr (Or.inl le_rfl))

/-- The shifted exponential at (b, q, k): the two broadcasts carry the row maximum of row (b, q) to every class. -/
theorem v6_read (x0 : (⟨S64x900x256, .f32⟩ : BufTy).Contents (Elt Ideal)) (b : Fin 64) (q : Fin 900) (k : Fin 256) :
    val_main_v6 (F := Ideal) x0 (ix3 b q k) = expShift (fun c => x0 (ix3 b q c)) k := by
  rw [val_main_v6_apply, val_main_v5_apply, val_main_v4_apply, val_main_v3_apply]
  have hi : idx_main_v3 (idx_main_v4 (ix3 b q k)) = ix2 b q := by
    funext a
    match a with
    | ⟨0, _⟩ => rfl
    | ⟨1, _⟩ => rfl
  rw [hi, v2_read]
  rfl

/-- The row's sum of shifted exponentials: the reference starts the sum from the zero word, which adds nothing. -/
theorem v7_read (x0 : (⟨S64x900x256, .f32⟩ : BufTy).Contents (Elt Ideal)) (b : Fin 64) (q : Fin 900) :
    val_main_v7 (F := Ideal) x0 (ix2 b q) = ∑ c' : Fin 256, expShift (fun c => x0 (ix3 b q c)) c' := by
  rw [val_main_v7_apply, val_main_cst_1_apply]
  have hz : FloatOps.ofBits (F := Ideal) .f32 0x00000000#32 = 0 := Ideal.ofBits_zero_f32
  rw [hz, zero_add]
  refine Finset.sum_congr rfl fun k _ => ?_
  have hi : idx_main_v7 (ix2 b q) k = ix3 b q k := by
    funext a
    match a with
    | ⟨0, _⟩ => rfl
    | ⟨1, _⟩ => rfl
    | ⟨2, _⟩ => rfl
  rw [hi, v6_read]

/-- The softmax probability at (b, q, c). -/
theorem v10_read (x0 : (⟨S64x900x256, .f32⟩ : BufTy).Contents (Elt Ideal)) (b : Fin 64) (q : Fin 900) (c : Fin 256) :
    val_main_v10 (F := Ideal) x0 (ix3 b q c) = prob (fun c' => x0 (ix3 b q c')) c := by
  rw [val_main_v10_apply, val_main_v9_apply, val_main_v8_apply]
  have hi : idx_main_v8 (idx_main_v9 (ix3 b q c)) = ix2 b q := by
    funext a
    match a with
    | ⟨0, _⟩ => rfl
    | ⟨1, _⟩ => rfl
  rw [hi, v7_read, v6_read]
  rfl

/-! ## The label of target (b, t), as the reference's lookup carries it -/

/-- The labels broadcast to [64, 900, 128] read, at (b, q, t), the label of target (b, t). -/
theorem v12_read (x2 : (⟨S64x128, .i32⟩ : BufTy).Contents (Elt Ideal)) (b : Fin 64) (q : Fin 900) (t : Fin 128) :
    val_main_v12 (F := Ideal) x2 (ix3 b q t) = x2 (ix2 b t) := by
  rw [val_main_v12_apply, val_main_v11_apply]
  refine congrArg x2 ?_
  funext a
  match a with
  | ⟨0, _⟩ => rfl
  | ⟨1, _⟩ => rfl

/-- A word below 256 is not negative when read signed. -/
theorem not_neg_of_lt (l : BitVec 32) (hl : l.toNat < 256) : IntOp.cmpi .slt l 0#32 = 0#1 := by
  apply eq_zero_of_ne_one
  intro h
  have h' := (StableHlo.Predicate.slt_iff_toNat (a := l) (b := 0#32) (by omega) (by decide)).mp h
  have h0 : (0#32 : BitVec 32).toNat = 0 := rfl
  rw [h0] at h'
  exact Nat.not_lt_zero _ h'

/-- The wrap of a negative index (label + 256) is not taken for a class label: the index stays the label. -/
theorem call0_v4_read (x2 : (⟨S64x128, .i32⟩ : BufTy).Contents (Elt Ideal)) (b : Fin 64) (q : Fin 900) (t : Fin 128)
    (hl : (x2 (ix2 b t)).toNat < 256) : val_main_call0_v4 (F := Ideal) x2 (ix3 b q t) = x2 (ix2 b t) := by
  rw [val_main_call0_v4_apply, val_main_call0_v1_apply, val_main_call0_v0_apply, val_main_call0_c_apply, v12_read,
    not_neg_of_lt _ hl, select_zero]

/-- The reshape to [64, 900, 128, 1] keeps row-major order, so (b, q, t, 0) reads (b, q, t). -/
theorem call0_v5_read (x2 : (⟨S64x128, .i32⟩ : BufTy).Contents (Elt Ideal)) (b : Fin 64) (q : Fin 900) (t : Fin 128)
    (hl : (x2 (ix2 b t)).toNat < 256) : val_main_call0_v5 (F := Ideal) x2 (ix4 b q t (0 : Fin 1)) = x2 (ix2 b t) := by
  rw [val_main_call0_v5_apply]
  have hi : idx_main_call0_v5 (ix4 b q t (0 : Fin 1)) = ix3 b q t := by
    funext a
    apply Fin.ext
    have hb := b.isLt
    have hq := q.isLt
    have ht := t.isLt
    match a with
    | ⟨0, _⟩ => show (((b.val * 900 + q.val) * 128 + t.val) * 1 + 0) / 115200 = b.val; omega
    | ⟨1, _⟩ => show (((b.val * 900 + q.val) * 128 + t.val) * 1 + 0) / 128 % 900 = q.val; omega
    | ⟨2, _⟩ => show (((b.val * 900 + q.val) * 128 + t.val) * 1 + 0) % 128 = t.val; omega
  rw [hi, call0_v4_read x2 b q t hl]

/-! ## The range mask -/

/-- The shape fact that names the index with the unit last axis put back. -/
theorem redUnit : S64x900x128x1.Reduces [3] S64x900x128 := by decide

/-- The only index of the unit axis over (b, q, t) is (b, q, t, 0). -/
theorem lift_unit (b : Fin 64) (q : Fin 900) (t : Fin 128) (k : Fin 1) : redUnit.lift (ix3 b q t) k = ix4 b q t (0 : Fin 1) := by
  funext a
  apply Fin.ext
  match a with
  | ⟨0, _⟩ => rfl
  | ⟨1, _⟩ => rfl
  | ⟨2, _⟩ => rfl
  | ⟨3, _⟩ => exact Nat.lt_one_iff.mp k.isLt

/-- For a class label both range tests hold (0 ≤ label and label ≤ 255), so their conjunction is the set bit. -/
theorem call0_v11_read (x2 : (⟨S64x128, .i32⟩ : BufTy).Contents (Elt Ideal)) (b : Fin 64) (q : Fin 900) (t : Fin 128)
    (hl : (x2 (ix2 b t)).toNat < 256) : val_main_call0_v11 (F := Ideal) x2 (ix4 b q t (0 : Fin 1)) = 1#1 := by
  rw [val_main_call0_v11_apply, val_main_call0_v7_apply, val_main_call0_v10_apply, val_main_call0_v6_apply,
    val_main_call0_c_2_apply, val_main_call0_v9_apply, val_main_call0_v8_apply, val_main_call0_c_1_apply,
    call0_v5_read x2 b q t hl]
  have h0 : (0#32 : BitVec 32).toNat = 0 := rfl
  have h255 : (255#32 : BitVec 32).toNat = 255 := rfl
  have hge : IntOp.cmpi .sge (x2 (ix2 b t)) 0#32 = 1#1 :=
    (StableHlo.Predicate.sge_iff_toNat (by omega) (by decide)).mpr (by rw [h0]; exact Nat.zero_le _)
  have hle : IntOp.cmpi .sle (x2 (ix2 b t)) 255#32 = 1#1 :=
    (StableHlo.Predicate.sle_iff_toNat (by omega) (by decide)).mpr (by rw [h255]; omega)
  rw [hge, hle]
  rfl

/-- The conjunction over the unit axis is that one bit (and the starting bit 1). -/
theorem call0_v12_read (x2 : (⟨S64x128, .i32⟩ : BufTy).Contents (Elt Ideal)) (b : Fin 64) (q : Fin 900) (t : Fin 128)
    (hl : (x2 (ix2 b t)).toNat < 256) : val_main_call0_v12 (F := Ideal) x2 (ix3 b q t) = 1#1 := by
  unfold val_main_call0_v12
  rw [Host.reduce_eq_fold_single (IntOp.andi (w := 1)) _ _ Gen.reducesTo_S64x900x128x1_S64x900x128_d3 redUnit Gen.h_S_ (ix3 b q t)]
  rw [val_main_call0_c_3_apply]
  have hf : (val_main_call0_v11 (F := Ideal) x2 ∘ redUnit.lift (ix3 b q t)) = fun _ : Fin 1 => 1#1 := by
    funext k
    exact (congrArg (val_main_call0_v11 (F := Ideal) x2) (lift_unit b q t k)).trans (call0_v11_read x2 b q t hl)
  rw [hf]
  rfl

/-! ## The lookup -/

/-- The lookup's dimension numbers: axes 0 and 1 of the probabilities are batch axes paired with axes 0 and 1 of the
    indices, and the class axis 2 is the one the index selects (a slice of one class). -/
abbrev gd := gather_S64x900x256_S64x900x128x1_S64x900x128_n_2_01_01_2_3_111

/-- On the first batch axis the probabilities index of result entry (b, q, t) is b: no start, no offset. -/
theorem opIdx0 (idx : IVec S64x900x128x1 32) (b : Fin 64) (q : Fin 900) (t : Fin 128) :
    gd.start (ix3 b q t) idx (0 : Fin 3) + gd.batchCoord (ix3 b q t) (0 : Fin 3) + gd.offCoord (ix3 b q t) (0 : Fin 3) = b.val := by
  have hm : (0 : Fin 3) ∈ gd.operandBatchingDims := by decide
  rw [GatherDims.start_batching gd _ _ _ hm,
    GatherDims.offCoord_eq_zero gd _ _ (fun h => ((GatherDims.mem_sKept gd _).mp h).2 hm), Nat.zero_add, Nat.add_zero]
  rfl

/-- On the second batch axis it is q. -/
theorem opIdx1 (idx : IVec S64x900x128x1 32) (b : Fin 64) (q : Fin 900) (t : Fin 128) :
    gd.start (ix3 b q t) idx (1 : Fin 3) + gd.batchCoord (ix3 b q t) (1 : Fin 3) + gd.offCoord (ix3 b q t) (1 : Fin 3) = q.val := by
  have hm : (1 : Fin 3) ∈ gd.operandBatchingDims := by decide
  rw [GatherDims.start_batching gd _ _ _ hm,
    GatherDims.offCoord_eq_zero gd _ _ (fun h => ((GatherDims.mem_sKept gd _).mp h).2 hm), Nat.zero_add, Nat.add_zero]
  unfold GatherDims.batchCoord
  rw [dif_pos hm]
  rfl

/-- On the class axis it is the index word at (b, q, t, 0), read signed and clamped into [0, 255]: no batch coordinate and
    no offset there. -/
theorem opIdx2 (idx : IVec S64x900x128x1 32) (b : Fin 64) (q : Fin 900) (t : Fin 128) :
    gd.start (ix3 b q t) idx (2 : Fin 3) + gd.batchCoord (ix3 b q t) (2 : Fin 3) + gd.offCoord (ix3 b q t) (2 : Fin 3)
      = min (idx (ix4 b q t (0 : Fin 1))).toInt.toNat 255 := by
  have hnb : (2 : Fin 3) ∉ gd.operandBatchingDims := by decide
  have hc : (2 : Fin 3) ∈ gd.collapsedSliceDims := by decide
  have hm : (2 : Fin 3) ∈ gd.startIndexMap := by decide
  rw [GatherDims.batchCoord_eq_zero gd _ _ hnb,
    GatherDims.offCoord_eq_zero gd _ _ (fun h => ((GatherDims.mem_sKept gd _).mp h).1 hc)]
  simp only [Nat.add_zero]
  unfold GatherDims.start
  rw [dif_pos hm]
  have hsi : gd.siIdx (ix3 b q t) ⟨List.idxOf (2 : Fin 3) gd.startIndexMap, List.idxOf_lt_length_iff.2 hm⟩
      = ix4 b q t (0 : Fin 1) := by
    funext c
    apply Fin.ext
    match c with
    | ⟨0, _⟩ => rfl
    | ⟨1, _⟩ => rfl
    | ⟨2, _⟩ => rfl
    | ⟨3, _⟩ => rfl
  rw [hsi]
  rfl

/-- The lookup at (b, q, t) reads the softmax probability of the class the label names: a class label read signed is itself,
    and clamping it into [0, 255] changes nothing. -/
theorem call0_v13_read (x0 : (⟨S64x900x256, .f32⟩ : BufTy).Contents (Elt Ideal)) (x2 : (⟨S64x128, .i32⟩ : BufTy).Contents (Elt Ideal))
    (b : Fin 64) (q : Fin 900) (t : Fin 128) (hl : (x2 (ix2 b t)).toNat < 256) :
    val_main_call0_v13 (F := Ideal) x0 x2 (ix3 b q t) = prob (fun c => x0 (ix3 b q c)) ⟨(x2 (ix2 b t)).toNat, hl⟩ := by
  unfold val_main_call0_v13 Host.gather
  have hidx : gd.operandIdx (ix3 b q t) (val_main_call0_v5 (F := Ideal) x2) = ix3 b q ⟨(x2 (ix2 b t)).toNat, hl⟩ := by
    funext a
    apply Fin.ext
    match a with
    | ⟨0, _⟩ => exact opIdx0 _ b q t
    | ⟨1, _⟩ => exact opIdx1 _ b q t
    | ⟨2, _⟩ =>
      refine (opIdx2 _ b q t).trans ?_
      rw [call0_v5_read x2 b q t hl, StableHlo.Predicate.toInt_eq_toNat_of_lt (by omega), Int.toNat_natCast]
      show min (x2 (ix2 b t)).toNat 255 = (x2 (ix2 b t)).toNat
      omega
  rw [hidx, v10_read]

/-- The reference's negated class probability at entry (b, q, t), for a label that is a class. -/
theorem ref_class (x0 : (⟨S64x900x256, .f32⟩ : BufTy).Contents (Elt Ideal)) (x2 : (⟨S64x128, .i32⟩ : BufTy).Contents (Elt Ideal))
    (b : Fin 64) (q : Fin 900) (t : Fin 128) (hl : (x2 (ix2 b t)).toNat < 256) :
    val_main_v14 (F := Ideal) x0 x2 (ix3 b q t) = zeroW - classSum (fun c => x0 (ix3 b q c)) (x2 (ix2 b t)) := by
  rw [val_main_v14_apply, val_main_v13_apply, call0_v12_read x2 b q t hl, select_one, call0_v13_read x0 x2 b q t hl,
    classSum_eq _ _ hl]
  have hz : zeroW = 0 := Ideal.ofBits_zero_f32
  rw [hz, zero_sub]
  rfl

end Cert.MatchCost.RefClass

end
-- ==== Proof.RefCorners.lean ====
/-
  The reference's two corner-form box arrays, read at one entry.
-/
import proofs.«400868_j75771813036148_1_alg».proof.Proof.RefRead
import proofs.«400868_j75771813036148_1_alg».proof.Proof.Spec

noncomputable section

open scoped BigOperators

namespace Cert.MatchCost.RefCorners

open Cert.ReferenceIdeal Cert.ReferenceIdeal.ReadP Idealize.ShloMosaic Idealize.ShloMosaic.ValueIdx Cert.MatchCost

/-- Two rank-3 indices with the same three coordinates are the same index. -/
private theorem idx3_ext {n0 n1 n2 : Nat} (i j : (⟨3, ![n0, n1, n2]⟩ : Shape).Idx)
    (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-- Two rank-2 indices with the same two coordinates are the same index. -/
private theorem idx2_ext {n0 n1 : Nat} (i j : (⟨2, ![n0, n1]⟩ : Shape).Idx)
    (h0 : (i 0).val = (j 0).val) (h1 : (i 1).val = (j 1).val) : i = j := by
  funext a
  match a with
  | ⟨0, _⟩ => exact Fin.ext h0
  | ⟨1, _⟩ => exact Fin.ext h1

/-! ## Predicted boxes

Box (b, q) has coordinates (cx, cy, w, h) at positions 0 … 3 of the last axis. Each is cut out by a unit slice at its
offset and flattened to [64, 900]; the flat position of (b, q) is b · 900 + q, whose quotient and remainder by 900 give
back b and q. -/

/-- Centre x: the slice at offset 0. -/
private theorem pred_c0 (x1 : (⟨S64x900x4, .f32⟩ : BufTy).Contents (Elt Ideal)) (b : Fin 64) (q : Fin 900) :
    val_main_v23 (F := Ideal) x1 (ix2 b q) = x1 (ix3 b q 0) := by
  rw [val_main_v23_apply, val_main_v22_apply]
  congr 1
  apply idx3_ext
  · show (b.val * 900 + q.val) / 900 = b.val
    have hb := b.isLt; have hq := q.isLt; omega
  · show (b.val * 900 + q.val) / 1 % 900 = q.val
    have hb := b.isLt; have hq := q.isLt; omega
  · rfl

/-- Centre y: the slice at offset 1. -/
private theorem pred_c1 (x1 : (⟨S64x900x4, .f32⟩ : BufTy).Contents (Elt Ideal)) (b : Fin 64) (q : Fin 900) :
    val_main_v25 (F := Ideal) x1 (ix2 b q) = x1 (ix3 b q 1) := by
  rw [val_main_v25_apply, val_main_v24_apply]
  congr 1
  apply idx3_ext
  · show (b.val * 900 + q.val) / 900 = b.val
    have hb := b.isLt; have hq := q.isLt; omega
  · show (b.val * 900 + q.val) / 1 % 900 = q.val
    have hb := b.isLt; have hq := q.isLt; omega
  · rfl

/-- Width: the slice at offset 2. -/
private theorem pred_c2 (x1 : (⟨S64x900x4, .f32⟩ : BufTy).Contents (Elt Ideal)) (b : Fin 64) (q : Fin 900) :
    val_main_v27 (F := Ideal) x1 (ix2 b q) = x1 (ix3 b q 2) := by
  rw [val_main_v27_apply, val_main_v26_apply]
  congr 1
  apply idx3_ext
  · show (b.val * 900 + q.val) / 900 = b.val
    have hb := b.isLt; have hq := q.isLt; omega
  · show (b.val * 900 + q.val) / 1 % 900 = q.val
    have hb := b.isLt; have hq := q.isLt; omega
  · rfl

/-- Height: the slice at offset 3. -/
private theorem pred_c3 (x1 : (⟨S64x900x4, .f32⟩ : BufTy).Contents (Elt Ideal)) (b : Fin 64) (q : Fin 900) :
    val_main_v29 (F := Ideal) x1 (ix2 b q) = x1 (ix3 b q 3) := by
  rw [val_main_v29_apply, val_main_v28_apply]
  congr 1
  apply idx3_ext
  · show (b.val * 900 + q.val) / 900 = b.val
    have hb := b.isLt; have hq := q.isLt; omega
  · show (b.val * 900 + q.val) / 1 % 900 = q.val
    have hb := b.isLt; have hq := q.isLt; omega
  · rfl

/-- Each of the four broadcast scalars is the word of 0.5 at every position. -/
private theorem pred_half30 (i : S64x900.Idx) : val_main_v30 (F := Ideal) i = halfW := by
  rw [val_main_v30_apply, val_main_cst_3_apply]; rfl
private theorem pred_half33 (i : S64x900.Idx) : val_main_v33 (F := Ideal) i = halfW := by
  rw [val_main_v33_apply, val_main_cst_4_apply]; rfl
private theorem pred_half36 (i : S64x900.Idx) : val_main_v36 (F := Ideal) i = halfW := by
  rw [val_main_v36_apply, val_main_cst_5_apply]; rfl
private theorem pred_half39 (i : S64x900.Idx) : val_main_v39 (F := Ideal) i = halfW := by
  rw [val_main_v39_apply, val_main_cst_6_apply]; rfl

/-- Left edge: cx − 0.5 · w. -/
private theorem pred_xLo (x1 : (⟨S64x900x4, .f32⟩ : BufTy).Contents (Elt Ideal)) (b : Fin 64) (q : Fin 900) :
    val_main_v32 (F := Ideal) x1 (ix2 b q) = xLo (fun k' => x1 (ix3 b q k')) := by
  rw [val_main_v32_apply, val_main_v31_apply, pred_c0, pred_c2, pred_half30]
  rfl

/-- Top edge: cy − 0.5 · h. -/
private theorem pred_yLo (x1 : (⟨S64x900x4, .f32⟩ : BufTy).Contents (Elt Ideal)) (b : Fin 64) (q : Fin 900) :
    val_main_v35 (F := Ideal) x1 (ix2 b q) = yLo (fun k' => x1 (ix3 b q k')) := by
  rw [val_main_v35_apply, val_main_v34_apply, pred_c1, pred_c3, pred_half33]
  rfl

/-- Right edge: cx + 0.5 · w. -/
private theorem pred_xHi (x1 : (⟨S64x900x4, .f32⟩ : BufTy).Contents (Elt Ideal)) (b : Fin 64) (q : Fin 900) :
    val_main_v38 (F := Ideal) x1 (ix2 b q) = xHi (fun k' => x1 (ix3 b q k')) := by
  rw [val_main_v38_apply, val_main_v37_apply, pred_c0, pred_c2, pred_half36]
  rfl

/-- Bottom edge: cy + 0.5 · h. -/
private theorem pred_yHi (x1 : (⟨S64x900x4, .f32⟩ : BufTy).Contents (Elt Ideal)) (b : Fin 64) (q : Fin 900) :
    val_main_v41 (F := Ideal) x1 (ix2 b q) = yHi (fun k' => x1 (ix3 b q k')) := by
  rw [val_main_v41_apply, val_main_v40_apply, pred_c1, pred_c3, pred_half39]
  rfl

/-- The four unit-width pieces stacked along the last axis, by piece number: left, top, right, bottom. -/
private def predPiece (x1 : (⟨S64x900x4, .f32⟩ : BufTy).Contents (Elt Ideal)) :
    Fin 4 → (⟨S64x900x1, .f32⟩ : BufTy).Contents (Elt Ideal) := fun n => match n with
  | ⟨0, _⟩ => val_main_v42 (F := Ideal) x1
  | ⟨1, _⟩ => val_main_v43 (F := Ideal) x1
  | ⟨2, _⟩ => val_main_v44 (F := Ideal) x1
  | ⟨3, _⟩ => val_main_v45 (F := Ideal) x1

/-- A piece re-attaches a last axis of extent one, so at (b, q, 0) it reads its edge at (b, q). -/
private theorem pred_p0 (x1 : (⟨S64x900x4, .f32⟩ : BufTy).Contents (Elt Ideal)) (b : Fin 64) (q : Fin 900) :
    val_main_v42 (F := Ideal) x1 (ix3 b q (0 : Fin 1)) = xLo (fun k' => x1 (ix3 b q k')) := by
  rw [val_main_v42_apply, ← pred_xLo]
  congr 1
  apply idx2_ext <;> rfl
private theorem pred_p1 (x1 : (⟨S64x900x4, .f32⟩ : BufTy).Contents (Elt Ideal)) (b : Fin 64) (q : Fin 900) :
    val_main_v43 (F := Ideal) x1 (ix3 b q (0 : Fin 1)) = yLo (fun k' => x1 (ix3 b q k')) := by
  rw [val_main_v43_apply, ← pred_yLo]
  congr 1
  apply idx2_ext <;> rfl
private theorem pred_p2 (x1 : (⟨S64x900x4, .f32⟩ : BufTy).Contents (Elt Ideal)) (b : Fin 64) (q : Fin 900) :
    val_main_v44 (F := Ideal) x1 (ix3 b q (0 : Fin 1)) = xHi (fun k' => x1 (ix3 b q k')) := by
  rw [val_main_v44_apply, ← pred_xHi]
  congr 1
  apply idx2_ext <;> rfl
private theorem pred_p3 (x1 : (⟨S64x900x4, .f32⟩ : BufTy).Contents (Elt Ideal)) (b : Fin 64) (q : Fin 900) :
    val_main_v45 (F := Ideal) x1 (ix3 b q (0 : Fin 1)) = yHi (fun k' => x1 (ix3 b q k')) := by
  rw [val_main_v45_apply, ← pred_yHi]
  congr 1
  apply idx2_ext <;> rfl

/-- The stacked array at (b, q, k) is piece k at (b, q, 0): the pieces all have extent one along the joined axis, so
    the coordinate on that axis is the piece number. -/
private theorem pred_cat (x1 : (⟨S64x900x4, .f32⟩ : BufTy).Contents (Elt Ideal))
    (b : Fin 64) (q : Fin 900) (k : Fin 4) :
    val_main_v46 (F := Ideal) x1 (ix3 b q k) = predPiece x1 k (ix3 b q (0 : Fin 1)) := by
  unfold val_main_v46
  exact concatenate_ofFn_unit_apply (t := S64x900x4) (s₁ := S64x900x1) 2 (predPiece x1)
    Gen.concatenates_S64x900x1_S64x900x1_S64x900x1_S64x900x1_S64x900x4_d2 rfl rfl (ix3 b q k) k rfl
    (ix3 b q (0 : Fin 1))
    (fun c hc => match c with
      | ⟨0, _⟩ => rfl
      | ⟨1, _⟩ => rfl
      | ⟨2, _⟩ => absurd rfl hc)

/-- Coordinate `k` of the corner form of predicted box (b, q). -/
theorem ref_corners_pred (x1 : (⟨S64x900x4, .f32⟩ : BufTy).Contents (Elt Ideal))
    (b : Fin 64) (q : Fin 900) (k : Fin 4) :
    val_main_v46 (F := Ideal) x1 (ix3 b q k) = corner (fun k' => x1 (ix3 b q k')) k := by
  rw [pred_cat]
  match k with
  | ⟨0, _⟩ => exact pred_p0 x1 b q
  | ⟨1, _⟩ => exact pred_p1 x1 b q
  | ⟨2, _⟩ => exact pred_p2 x1 b q
  | ⟨3, _⟩ => exact pred_p3 x1 b q

/-! ## Target boxes

The same road for box (b, t) of the targets; the flat position of (b, t) in [64, 128] is b · 128 + t. -/

/-- Centre x: the slice at offset 0. -/
private theorem tgt_c0 (x3 : (⟨S64x128x4, .f32⟩ : BufTy).Contents (Elt Ideal)) (b : Fin 64) (t : Fin 128) :
    val_main_v48 (F := Ideal) x3 (ix2 b t) = x3 (ix3 b t 0) := by
  rw [val_main_v48_apply, val_main_v47_apply]
  congr 1
  apply idx3_ext
  · show (b.val * 128 + t.val) / 128 = b.val
    have hb := b.isLt; have ht := t.isLt; omega
  · show (b.val * 128 + t.val) / 1 % 128 = t.val
    have hb := b.isLt; have ht := t.isLt; omega
  · rfl

/-- Centre y: the slice at offset 1. -/
private theorem tgt_c1 (x3 : (⟨S64x128x4, .f32⟩ : BufTy).Contents (Elt Ideal)) (b : Fin 64) (t : Fin 128) :
    val_main_v50 (F := Ideal) x3 (ix2 b t) = x3 (ix3 b t 1) := by
  rw [val_main_v50_apply, val_main_v49_apply]
  congr 1
  apply idx3_ext
  · show (b.val * 128 + t.val) / 128 = b.val
    have hb := b.isLt; have ht := t.isLt; omega
  · show (b.val * 128 + t.val) / 1 % 128 = t.val
    have hb := b.isLt; have ht := t.isLt; omega
  · rfl

/-- Width: the slice at offset 2. -/
private theorem tgt_c2 (x3 : (⟨S64x128x4, .f32⟩ : BufTy).Contents (Elt Ideal)) (b : Fin 64) (t : Fin 128) :
    val_main_v52 (F := Ideal) x3 (ix2 b t) = x3 (ix3 b t 2) := by
  rw [val_main_v52_apply, val_main_v51_apply]
  congr 1
  apply idx3_ext
  · show (b.val * 128 + t.val) / 128 = b.val
    have hb := b.isLt; have ht := t.isLt; omega
  · show (b.val * 128 + t.val) / 1 % 128 = t.val
    have hb := b.isLt; have ht := t.isLt; omega
  · rfl

/-- Height: the slice at offset 3. -/
private theorem tgt_c3 (x3 : (⟨S64x128x4, .f32⟩ : BufTy).Contents (Elt Ideal)) (b : Fin 64) (t : Fin 128) :
    val_main_v54 (F := Ideal) x3 (ix2 b t) = x3 (ix3 b t 3) := by
  rw [val_main_v54_apply, val_main_v53_apply]
  congr 1
  apply idx3_ext
  · show (b.val * 128 + t.val) / 128 = b.val
    have hb := b.isLt; have ht := t.isLt; omega
  · show (b.val * 128 + t.val) / 1 % 128 = t.val
    have hb := b.isLt; have ht := t.isLt; omega
  · rfl

/-- Each of the four broadcast scalars is the word of 0.5 at every position. -/
private theorem tgt_half55 (i : S64x128.Idx) : val_main_v55 (F := Ideal) i = halfW := by
  rw [val_main_v55_apply, val_main_cst_7_apply]; rfl
private theorem tgt_half58 (i : S64x128.Idx) : val_main_v58 (F := Ideal) i = halfW := by
  rw [val_main_v58_apply, val_main_cst_8_apply]; rfl
private theorem tgt_half61 (i : S64x128.Idx) : val_main_v61 (F := Ideal) i = halfW := by
  rw [val_main_v61_apply, val_main_cst_9_apply]; rfl
private theorem tgt_half64 (i : S64x128.Idx) : val_main_v64 (F := Ideal) i = halfW := by
  rw [val_main_v64_apply, val_main_cst_10_apply]; rfl

/-- Left edge: cx − 0.5 · w. -/
private theorem tgt_xLo (x3 : (⟨S64x128x4, .f32⟩ : BufTy).Contents (Elt Ideal)) (b : Fin 64) (t : Fin 128) :
    val_main_v57 (F := Ideal) x3 (ix2 b t) = xLo (fun k' => x3 (ix3 b t k')) := by
  rw [val_main_v57_apply, val_main_v56_apply, tgt_c0, tgt_c2, tgt_half55]
  rfl

/-- Top edge: cy − 0.5 · h. -/
private theorem tgt_yLo (x3 : (⟨S64x128x4, .f32⟩ : BufTy).Contents (Elt Ideal)) (b : Fin 64) (t : Fin 128) :
    val_main_v60 (F := Ideal) x3 (ix2 b t) = yLo (fun k' => x3 (ix3 b t k')) := by
  rw [val_main_v60_apply, val_main_v59_apply, tgt_c1, tgt_c3, tgt_half58]
  rfl

/-- Right edge: cx + 0.5 · w. -/
private theorem tgt_xHi (x3 : (⟨S64x128x4, .f32⟩ : BufTy).Contents (Elt Ideal)) (b : Fin 64) (t : Fin 128) :
    val_main_v63 (F := Ideal) x3 (ix2 b t) = xHi (fun k' => x3 (ix3 b t k')) := by
  rw [val_main_v63_apply, val_main_v62_apply, tgt_c0, tgt_c2, tgt_half61]
  rfl

/-- Bottom edge: cy + 0.5 · h. -/
private theorem tgt_yHi (x3 : (⟨S64x128x4, .f32⟩ : BufTy).Contents (Elt Ideal)) (b : Fin 64) (t : Fin 128) :
    val_main_v66 (F := Ideal) x3 (ix2 b t) = yHi (fun k' => x3 (ix3 b t k')) := by
  rw [val_main_v66_apply, val_main_v65_apply, tgt_c1, tgt_c3, tgt_half64]
  rfl

/-- The four unit-width pieces stacked along the last axis, by piece number: left, top, right, bottom. -/
private def tgtPiece (x3 : (⟨S64x128x4, .f32⟩ : BufTy).Contents (Elt Ideal)) :
    Fin 4 → (⟨S64x128x1, .f32⟩ : BufTy).Contents (Elt Ideal) := fun n => match n with
  | ⟨0, _⟩ => val_main_v67 (F := Ideal) x3
  | ⟨1, _⟩ => val_main_v68 (F := Ideal) x3
  | ⟨2, _⟩ => val_main_v69 (F := Ideal) x3
  | ⟨3, _⟩ => val_main_v70 (F := Ideal) x3

/-- A piece re-attaches a last axis of extent one, so at (b, t, 0) it reads its edge at (b, t). -/
private theorem tgt_p0 (x3 : (⟨S64x128x4, .f32⟩ : BufTy).Contents (Elt Ideal)) (b : Fin 64) (t : Fin 128) :
    val_main_v67 (F := Ideal) x3 (ix3 b t (0 : Fin 1)) = xLo (fun k' => x3 (ix3 b t k')) := by
  rw [val_main_v67_apply, ← tgt_xLo]
  congr 1
  apply idx2_ext <;> rfl
private theorem tgt_p1 (x3 : (⟨S64x128x4, .f32⟩ : BufTy).Contents (Elt Ideal)) (b : Fin 64) (t : Fin 128) :
    val_main_v68 (F := Ideal) x3 (ix3 b t (0 : Fin 1)) = yLo (fun k' => x3 (ix3 b t k')) := by
  rw [val_main_v68_apply, ← tgt_yLo]
  congr 1
  apply idx2_ext <;> rfl
private theorem tgt_p2 (x3 : (⟨S64x128x4, .f32⟩ : BufTy).Contents (Elt Ideal)) (b : Fin 64) (t : Fin 128) :
    val_main_v69 (F := Ideal) x3 (ix3 b t (0 : Fin 1)) = xHi (fun k' => x3 (ix3 b t k')) := by
  rw [val_main_v69_apply, ← tgt_xHi]
  congr 1
  apply idx2_ext <;> rfl
private theorem tgt_p3 (x3 : (⟨S64x128x4, .f32⟩ : BufTy).Contents (Elt Ideal)) (b : Fin 64) (t : Fin 128) :
    val_main_v70 (F := Ideal) x3 (ix3 b t (0 : Fin 1)) = yHi (fun k' => x3 (ix3 b t k')) := by
  rw [val_main_v70_apply, ← tgt_yHi]
  congr 1
  apply idx2_ext <;> rfl

/-- The stacked array at (b, t, k) is piece k at (b, t, 0): the pieces all have extent one along the joined axis, so
    the coordinate on that axis is the piece number. -/
private theorem tgt_cat (x3 : (⟨S64x128x4, .f32⟩ : BufTy).Contents (Elt Ideal))
    (b : Fin 64) (t : Fin 128) (k : Fin 4) :
    val_main_v71 (F := Ideal) x3 (ix3 b t k) = tgtPiece x3 k (ix3 b t (0 : Fin 1)) := by
  unfold val_main_v71
  exact concatenate_ofFn_unit_apply (t := S64x128x4) (s₁ := S64x128x1) 2 (tgtPiece x3)
    Gen.concatenates_S64x128x1_S64x128x1_S64x128x1_S64x128x1_S64x128x4_d2 rfl rfl (ix3 b t k) k rfl
    (ix3 b t (0 : Fin 1))
    (fun c hc => match c with
      | ⟨0, _⟩ => rfl
      | ⟨1, _⟩ => rfl
      | ⟨2, _⟩ => absurd rfl hc)

/-- Coordinate `k` of the corner form of target box (b, t). -/
theorem ref_corners_tgt (x3 : (⟨S64x128x4, .f32⟩ : BufTy).Contents (Elt Ideal))
    (b : Fin 64) (t : Fin 128) (k : Fin 4) :
    val_main_v71 (F := Ideal) x3 (ix3 b t k) = corner (fun k' => x3 (ix3 b t k')) k := by
  rw [tgt_cat]
  match k with
  | ⟨0, _⟩ => exact tgt_p0 x3 b t
  | ⟨1, _⟩ => exact tgt_p1 x3 b t
  | ⟨2, _⟩ => exact tgt_p2 x3 b t
  | ⟨3, _⟩ => exact tgt_p3 x3 b t

end Cert.MatchCost.RefCorners

end
-- ==== Proof.RefGiou.lean ====
/-
  The reference's generalised-IoU term over its two corner-form box arrays, read at one entry.
-/
import proofs.«400868_j75771813036148_1_alg».proof.Proof.RefRead
import proofs.«400868_j75771813036148_1_alg».proof.Proof.Spec

noncomputable section

open scoped BigOperators

namespace Cert.MatchCost.RefGiou

open Cert.ReferenceIdeal Cert.ReferenceIdeal.ReadP Idealize.ShloMosaic Idealize.ShloMosaic.ValueIdx Cert.MatchCost

/-! ## The literals -/

/-- The word of `0.0` is the real 0. -/
theorem zeroW_eq : zeroW = 0 := Ideal.ofBits_zero_f32

/-- The signed integer word 0 converts to the real 0. -/
theorem sitofp_zero : (FloatOps.sitofp .f32 (0#32 : BitVec 32) : Ideal .f32) = 0 := by
  show (((0#32 : BitVec 32).toInt : ℝ) : EReal) = 0
  simp only [BitVec.toInt_zero, Int.cast_zero, EReal.coe_zero]

/-- Clipping from below at 0, bound first, is the same maximum with the bound written second as the word of `0.0`
    (the maximum is commutative). -/
theorem clip_eq (x : EReal) : max (0 : EReal) x = max x zeroW := by rw [zeroW_eq, max_comm]

/-! ## The predicted box: its four corners read at (b, q), its clipped sides and its area -/

section Pred
variable (x1 : (⟨S64x900x4, .f32⟩ : BufTy).Contents (Elt Ideal)) (b : Fin 64) (q : Fin 900)

/-- Right edge: column 2 of the corner array, the unit axis dropped (row-major position b·900 + q splits back into b, q). -/
theorem v73_at : val_main_v73 (F := Ideal) x1 (ix2 b q) = val_main_v46 (F := Ideal) x1 (ix3 b q 2) := by
  rw [val_main_v73_apply, val_main_v72_apply]
  congr 1
  funext a
  match a with
  | ⟨0, _⟩ => exact Fin.ext (by show (b.val * 900 + q.val) / 900 = b.val; omega)
  | ⟨1, _⟩ => exact Fin.ext (by show (b.val * 900 + q.val) / 1 % 900 = q.val; omega)
  | ⟨2, _⟩ => rfl

/-- Left edge: column 0. -/
theorem v75_at : val_main_v75 (F := Ideal) x1 (ix2 b q) = val_main_v46 (F := Ideal) x1 (ix3 b q 0) := by
  rw [val_main_v75_apply, val_main_v74_apply]
  congr 1
  funext a
  match a with
  | ⟨0, _⟩ => exact Fin.ext (by show (b.val * 900 + q.val) / 900 = b.val; omega)
  | ⟨1, _⟩ => exact Fin.ext (by show (b.val * 900 + q.val) / 1 % 900 = q.val; omega)
  | ⟨2, _⟩ => rfl

/-- Bottom edge: column 3. -/
theorem v79_at : val_main_v79 (F := Ideal) x1 (ix2 b q) = val_main_v46 (F := Ideal) x1 (ix3 b q 3) := by
  rw [val_main_v79_apply, val_main_v78_apply]
  congr 1
  funext a
  match a with
  | ⟨0, _⟩ => exact Fin.ext (by show (b.val * 900 + q.val) / 900 = b.val; omega)
  | ⟨1, _⟩ => exact Fin.ext (by show (b.val * 900 + q.val) / 1 % 900 = q.val; omega)
  | ⟨2, _⟩ => rfl

/-- Top edge: column 1. -/
theorem v81_at : val_main_v81 (F := Ideal) x1 (ix2 b q) = val_main_v46 (F := Ideal) x1 (ix3 b q 1) := by
  rw [val_main_v81_apply, val_main_v80_apply]
  congr 1
  funext a
  match a with
  | ⟨0, _⟩ => exact Fin.ext (by show (b.val * 900 + q.val) / 900 = b.val; omega)
  | ⟨1, _⟩ => exact Fin.ext (by show (b.val * 900 + q.val) / 1 % 900 = q.val; omega)
  | ⟨2, _⟩ => rfl

/-- The bound the width is clipped at is the real 0 at every entry. -/
theorem call1_zero (i : S64x900.Idx) : val_main_call1_v1 (F := Ideal) i = 0 := by
  rw [val_main_call1_v1_apply, val_main_call1_v0_apply, val_main_c_apply]; exact sitofp_zero

/-- The bound the height is clipped at is the real 0 at every entry. -/
theorem call2_zero (i : S64x900.Idx) : val_main_call2_v1 (F := Ideal) i = 0 := by
  rw [val_main_call2_v1_apply, val_main_call2_v0_apply, val_main_c_11_apply]; exact sitofp_zero

/-- The predicted box's area: (right − left) and (bottom − top), each clipped at 0, multiplied. -/
theorem v84_at : val_main_v84 (F := Ideal) x1 (ix2 b q)
    = areaC (fun k => val_main_v46 (F := Ideal) x1 (ix3 b q k)) := by
  rw [val_main_v84_apply, val_main_v77_apply, val_main_v83_apply, val_main_v76_apply, val_main_v82_apply,
    call1_zero, call2_zero, v73_at, v75_at, v79_at, v81_at]
  simp only [Ideal.maximumf_def, Ideal.mulf_def, Ideal.subf_def, clip_eq]
  rfl

end Pred

/-! ## The target box: its four corners read at (b, t), its clipped sides and its area -/

section Targ
variable (x3 : (⟨S64x128x4, .f32⟩ : BufTy).Contents (Elt Ideal)) (b : Fin 64) (t : Fin 128)

/-- Right edge: column 2 of the corner array, the unit axis dropped (row-major position b·128 + t splits back into b, t). -/
theorem v86_at : val_main_v86 (F := Ideal) x3 (ix2 b t) = val_main_v71 (F := Ideal) x3 (ix3 b t 2) := by
  rw [val_main_v86_apply, val_main_v85_apply]
  congr 1
  funext a
  match a with
  | ⟨0, _⟩ => exact Fin.ext (by show (b.val * 128 + t.val) / 128 = b.val; omega)
  | ⟨1, _⟩ => exact Fin.ext (by show (b.val * 128 + t.val) / 1 % 128 = t.val; omega)
  | ⟨2, _⟩ => rfl

/-- Left edge: column 0. -/
theorem v88_at : val_main_v88 (F := Ideal) x3 (ix2 b t) = val_main_v71 (F := Ideal) x3 (ix3 b t 0) := by
  rw [val_main_v88_apply, val_main_v87_apply]
  congr 1
  funext a
  match a with
  | ⟨0, _⟩ => exact Fin.ext (by show (b.val * 128 + t.val) / 128 = b.val; omega)
  | ⟨1, _⟩ => exact Fin.ext (by show (b.val * 128 + t.val) / 1 % 128 = t.val; omega)
  | ⟨2, _⟩ => rfl

/-- Bottom edge: column 3. -/
theorem v92_at : val_main_v92 (F := Ideal) x3 (ix2 b t) = val_main_v71 (F := Ideal) x3 (ix3 b t 3) := by
  rw [val_main_v92_apply, val_main_v91_apply]
  congr 1
  funext a
  match a with
  | ⟨0, _⟩ => exact Fin.ext (by show (b.val * 128 + t.val) / 128 = b.val; omega)
  | ⟨1, _⟩ => exact Fin.ext (by show (b.val * 128 + t.val) / 1 % 128 = t.val; omega)
  | ⟨2, _⟩ => rfl

/-- Top edge: column 1. -/
theorem v94_at : val_main_v94 (F := Ideal) x3 (ix2 b t) = val_main_v71 (F := Ideal) x3 (ix3 b t 1) := by
  rw [val_main_v94_apply, val_main_v93_apply]
  congr 1
  funext a
  match a with
  | ⟨0, _⟩ => exact Fin.ext (by show (b.val * 128 + t.val) / 128 = b.val; omega)
  | ⟨1, _⟩ => exact Fin.ext (by show (b.val * 128 + t.val) / 1 % 128 = t.val; omega)
  | ⟨2, _⟩ => rfl

/-- The bound the width is clipped at is the real 0 at every entry. -/
theorem call3_zero (i : S64x128.Idx) : val_main_call3_v1 (F := Ideal) i = 0 := by
  rw [val_main_call3_v1_apply, val_main_call3_v0_apply, val_main_c_12_apply]; exact sitofp_zero

/-- The bound the height is clipped at is the real 0 at every entry. -/
theorem call4_zero (i : S64x128.Idx) : val_main_call4_v1 (F := Ideal) i = 0 := by
  rw [val_main_call4_v1_apply, val_main_call4_v0_apply, val_main_c_13_apply]; exact sitofp_zero

/-- The target box's area: (right − left) and (bottom − top), each clipped at 0, multiplied. -/
theorem v97_at : val_main_v97 (F := Ideal) x3 (ix2 b t)
    = areaC (fun k => val_main_v71 (F := Ideal) x3 (ix3 b t k)) := by
  rw [val_main_v97_apply, val_main_v90_apply, val_main_v96_apply, val_main_v89_apply, val_main_v95_apply,
    call3_zero, call4_zero, v86_at, v88_at, v92_at, v94_at]
  simp only [Ideal.maximumf_def, Ideal.mulf_def, Ideal.subf_def, clip_eq]
  rfl

end Targ

/-! ## The pairwise stages, at (b, q, t) and a trailing axis k of extent 2 (k = 0: horizontal, k = 1: vertical)

Each two-column slice of a corner array is broadcast across the other box's axis; read back at (b, q, t, k) it is the
corner `m` of the one box it came from, where `m = k` for the low corners (left, top) and `m = 2 + k` for the high ones
(right, bottom). -/

section Pair
variable (x1 : (⟨S64x900x4, .f32⟩ : BufTy).Contents (Elt Ideal)) (x3 : (⟨S64x128x4, .f32⟩ : BufTy).Contents (Elt Ideal))
  (b : Fin 64) (q : Fin 900) (t : Fin 128)

/-- Predicted low corner, for the intersection. -/
theorem v102_at (k : Fin 2) (m : Fin 4) (h : m.val = k.val) :
    val_main_v102 (F := Ideal) x1 (ix4 b q t k) = val_main_v46 (F := Ideal) x1 (ix3 b q m) := by
  rw [val_main_v102_apply, val_main_v99_apply, val_main_v98_apply]
  congr 1
  funext a
  match a with
  | ⟨0, _⟩ => rfl
  | ⟨1, _⟩ => rfl
  | ⟨2, _⟩ => exact Fin.ext h.symm

/-- Target low corner, for the intersection. -/
theorem v103_at (k : Fin 2) (m : Fin 4) (h : m.val = k.val) :
    val_main_v103 (F := Ideal) x3 (ix4 b q t k) = val_main_v71 (F := Ideal) x3 (ix3 b t m) := by
  rw [val_main_v103_apply, val_main_v101_apply, val_main_v100_apply]
  congr 1
  funext a
  match a with
  | ⟨0, _⟩ => rfl
  | ⟨1, _⟩ => rfl
  | ⟨2, _⟩ => exact Fin.ext h.symm

/-- Predicted high corner, for the intersection. -/
theorem v109_at (k : Fin 2) (m : Fin 4) (h : m.val = 2 + k.val) :
    val_main_v109 (F := Ideal) x1 (ix4 b q t k) = val_main_v46 (F := Ideal) x1 (ix3 b q m) := by
  rw [val_main_v109_apply, val_main_v106_apply, val_main_v105_apply]
  congr 1
  funext a
  match a with
  | ⟨0, _⟩ => rfl
  | ⟨1, _⟩ => rfl
  | ⟨2, _⟩ => exact Fin.ext h.symm

/-- Target high corner, for the intersection. -/
theorem v110_at (k : Fin 2) (m : Fin 4) (h : m.val = 2 + k.val) :
    val_main_v110 (F := Ideal) x3 (ix4 b q t k) = val_main_v71 (F := Ideal) x3 (ix3 b t m) := by
  rw [val_main_v110_apply, val_main_v108_apply, val_main_v107_apply]
  congr 1
  funext a
  match a with
  | ⟨0, _⟩ => rfl
  | ⟨1, _⟩ => rfl
  | ⟨2, _⟩ => exact Fin.ext h.symm

/-- Predicted low corner, for the enclosing box. -/
theorem v132_at (k : Fin 2) (m : Fin 4) (h : m.val = k.val) :
    val_main_v132 (F := Ideal) x1 (ix4 b q t k) = val_main_v46 (F := Ideal) x1 (ix3 b q m) := by
  rw [val_main_v132_apply, val_main_v129_apply, val_main_v128_apply]
  congr 1
  funext a
  match a with
  | ⟨0, _⟩ => rfl
  | ⟨1, _⟩ => rfl
  | ⟨2, _⟩ => exact Fin.ext h.symm

/-- Target low corner, for the enclosing box. -/
theorem v133_at (k : Fin 2) (m : Fin 4) (h : m.val = k.val) :
    val_main_v133 (F := Ideal) x3 (ix4 b q t k) = val_main_v71 (F := Ideal) x3 (ix3 b t m) := by
  rw [val_main_v133_apply, val_main_v131_apply, val_main_v130_apply]
  congr 1
  funext a
  match a with
  | ⟨0, _⟩ => rfl
  | ⟨1, _⟩ => rfl
  | ⟨2, _⟩ => exact Fin.ext h.symm

/-- Predicted high corner, for the enclosing box. -/
theorem v139_at (k : Fin 2) (m : Fin 4) (h : m.val = 2 + k.val) :
    val_main_v139 (F := Ideal) x1 (ix4 b q t k) = val_main_v46 (F := Ideal) x1 (ix3 b q m) := by
  rw [val_main_v139_apply, val_main_v136_apply, val_main_v135_apply]
  congr 1
  funext a
  match a with
  | ⟨0, _⟩ => rfl
  | ⟨1, _⟩ => rfl
  | ⟨2, _⟩ => exact Fin.ext h.symm

/-- Target high corner, for the enclosing box. -/
theorem v140_at (k : Fin 2) (m : Fin 4) (h : m.val = 2 + k.val) :
    val_main_v140 (F := Ideal) x3 (ix4 b q t k) = val_main_v71 (F := Ideal) x3 (ix3 b t m) := by
  rw [val_main_v140_apply, val_main_v138_apply, val_main_v137_apply]
  congr 1
  funext a
  match a with
  | ⟨0, _⟩ => rfl
  | ⟨1, _⟩ => rfl
  | ⟨2, _⟩ => exact Fin.ext h.symm

/-- The bound the intersection's extents are clipped at is the real 0 at every entry. -/
theorem call5_zero (i : S64x900x128x2.Idx) : val_main_call5_v1 (F := Ideal) i = 0 := by
  rw [val_main_call5_v1_apply, val_main_call5_v0_apply, val_main_c_14_apply]; exact sitofp_zero

/-- The bound the enclosing box's extents are clipped at is the real 0 at every entry. -/
theorem call6_zero (i : S64x900x128x2.Idx) : val_main_call6_v1 (F := Ideal) i = 0 := by
  rw [val_main_call6_v1_apply, val_main_call6_v0_apply, val_main_c_16_apply]; exact sitofp_zero

/-- One extent of the intersection: the smaller high corner minus the larger low corner, clipped at 0. -/
theorem v113_at (k : Fin 2) (lo hi : Fin 4) (hlo : lo.val = k.val) (hhi : hi.val = 2 + k.val) :
    val_main_v113 (F := Ideal) x1 x3 (ix4 b q t k)
      = max (min (val_main_v46 (F := Ideal) x1 (ix3 b q hi)) (val_main_v71 (F := Ideal) x3 (ix3 b t hi))
            - max (val_main_v46 (F := Ideal) x1 (ix3 b q lo)) (val_main_v71 (F := Ideal) x3 (ix3 b t lo))) zeroW := by
  rw [val_main_v113_apply, val_main_v112_apply, val_main_v111_apply, val_main_v104_apply, call5_zero,
    v109_at x1 b q t k hi hhi, v110_at x3 b q t k hi hhi, v102_at x1 b q t k lo hlo, v103_at x3 b q t k lo hlo]
  simp only [Ideal.maximumf_def, Ideal.minimumf_def, Ideal.subf_def, clip_eq]

/-- One extent of the enclosing box: the larger high corner minus the smaller low corner, clipped at 0. -/
theorem v143_at (k : Fin 2) (lo hi : Fin 4) (hlo : lo.val = k.val) (hhi : hi.val = 2 + k.val) :
    val_main_v143 (F := Ideal) x1 x3 (ix4 b q t k)
      = max (max (val_main_v46 (F := Ideal) x1 (ix3 b q hi)) (val_main_v71 (F := Ideal) x3 (ix3 b t hi))
            - min (val_main_v46 (F := Ideal) x1 (ix3 b q lo)) (val_main_v71 (F := Ideal) x3 (ix3 b t lo))) zeroW := by
  rw [val_main_v143_apply, val_main_v142_apply, val_main_v141_apply, val_main_v134_apply, call6_zero,
    v139_at x1 b q t k hi hhi, v140_at x3 b q t k hi hhi, v132_at x1 b q t k lo hlo, v133_at x3 b q t k lo hlo]
  simp only [Ideal.maximumf_def, Ideal.minimumf_def, Ideal.subf_def, clip_eq]

/-- Column 0 of the intersection's extents, the unit axis dropped (row-major position (b·900 + q)·128 + t splits back). -/
theorem v115_at : val_main_v115 (F := Ideal) x1 x3 (ix3 b q t) = val_main_v113 (F := Ideal) x1 x3 (ix4 b q t 0) := by
  rw [val_main_v115_apply, val_main_v114_apply]
  congr 1
  funext a
  match a with
  | ⟨0, _⟩ => exact Fin.ext (by show ((b.val * 900 + q.val) * 128 + t.val) / 115200 = b.val; omega)
  | ⟨1, _⟩ => exact Fin.ext (by show ((b.val * 900 + q.val) * 128 + t.val) / 128 % 900 = q.val; omega)
  | ⟨2, _⟩ => exact Fin.ext (by show ((b.val * 900 + q.val) * 128 + t.val) / 1 % 128 = t.val; omega)
  | ⟨3, _⟩ => rfl

/-- Column 1 of the intersection's extents. -/
theorem v117_at : val_main_v117 (F := Ideal) x1 x3 (ix3 b q t) = val_main_v113 (F := Ideal) x1 x3 (ix4 b q t 1) := by
  rw [val_main_v117_apply, val_main_v116_apply]
  congr 1
  funext a
  match a with
  | ⟨0, _⟩ => exact Fin.ext (by show ((b.val * 900 + q.val) * 128 + t.val) / 115200 = b.val; omega)
  | ⟨1, _⟩ => exact Fin.ext (by show ((b.val * 900 + q.val) * 128 + t.val) / 128 % 900 = q.val; omega)
  | ⟨2, _⟩ => exact Fin.ext (by show ((b.val * 900 + q.val) * 128 + t.val) / 1 % 128 = t.val; omega)
  | ⟨3, _⟩ => rfl

/-- Column 0 of the enclosing box's extents. -/
theorem v145_at : val_main_v145 (F := Ideal) x1 x3 (ix3 b q t) = val_main_v143 (F := Ideal) x1 x3 (ix4 b q t 0) := by
  rw [val_main_v145_apply, val_main_v144_apply]
  congr 1
  funext a
  match a with
  | ⟨0, _⟩ => exact Fin.ext (by show ((b.val * 900 + q.val) * 128 + t.val) / 115200 = b.val; omega)
  | ⟨1, _⟩ => exact Fin.ext (by show ((b.val * 900 + q.val) * 128 + t.val) / 128 % 900 = q.val; omega)
  | ⟨2, _⟩ => exact Fin.ext (by show ((b.val * 900 + q.val) * 128 + t.val) / 1 % 128 = t.val; omega)
  | ⟨3, _⟩ => rfl

/-- Column 1 of the enclosing box's extents. -/
theorem v147_at : val_main_v147 (F := Ideal) x1 x3 (ix3 b q t) = val_main_v143 (F := Ideal) x1 x3 (ix4 b q t 1) := by
  rw [val_main_v147_apply, val_main_v146_apply]
  congr 1
  funext a
  match a with
  | ⟨0, _⟩ => exact Fin.ext (by show ((b.val * 900 + q.val) * 128 + t.val) / 115200 = b.val; omega)
  | ⟨1, _⟩ => exact Fin.ext (by show ((b.val * 900 + q.val) * 128 + t.val) / 128 % 900 = q.val; omega)
  | ⟨2, _⟩ => exact Fin.ext (by show ((b.val * 900 + q.val) * 128 + t.val) / 1 % 128 = t.val; omega)
  | ⟨3, _⟩ => rfl

/-- The intersection's area: its horizontal extent times its vertical one. -/
theorem v118_at : val_main_v118 (F := Ideal) x1 x3 (ix3 b q t)
    = interC (fun k => val_main_v46 (F := Ideal) x1 (ix3 b q k)) (fun k => val_main_v71 (F := Ideal) x3 (ix3 b t k)) := by
  rw [val_main_v118_apply, v115_at, v117_at, v113_at x1 x3 b q t 0 0 2 rfl rfl, v113_at x1 x3 b q t 1 1 3 rfl rfl]
  rfl

/-- The predicted box's area, broadcast across the targets, read back at (b, q, t). -/
theorem v121_at : val_main_v121 (F := Ideal) x1 (ix3 b q t) = val_main_v84 (F := Ideal) x1 (ix2 b q) := by
  rw [val_main_v121_apply, val_main_v119_apply]
  congr 1
  funext a
  match a with
  | ⟨0, _⟩ => rfl
  | ⟨1, _⟩ => rfl

/-- The target box's area, broadcast across the queries, read back at (b, q, t). -/
theorem v122_at : val_main_v122 (F := Ideal) x3 (ix3 b q t) = val_main_v97 (F := Ideal) x3 (ix2 b t) := by
  rw [val_main_v122_apply, val_main_v120_apply]
  congr 1
  funext a
  match a with
  | ⟨0, _⟩ => rfl
  | ⟨1, _⟩ => rfl

/-- The first guard constant is the shared word. -/
theorem v125_at (i : S64x900x128.Idx) : val_main_v125 (F := Ideal) i = epsW := by
  rw [val_main_v125_apply, val_main_cst_15_apply]; rfl

/-- The second guard constant is the same word. -/
theorem v149_at (i : S64x900x128.Idx) : val_main_v149 (F := Ideal) i = epsW := by
  rw [val_main_v149_apply, val_main_cst_17_apply]; rfl

/-- The union's area plus the guard: the two areas, minus the intersection, plus the guard. -/
theorem v126_at : val_main_v126 (F := Ideal) x1 x3 (ix3 b q t)
    = unionC (fun k => val_main_v46 (F := Ideal) x1 (ix3 b q k)) (fun k => val_main_v71 (F := Ideal) x3 (ix3 b t k)) := by
  rw [val_main_v126_apply, val_main_v124_apply, val_main_v123_apply, v121_at, v122_at, v84_at, v97_at, v118_at, v125_at]
  rfl

/-- The enclosing box's area plus the guard. -/
theorem v150_at : val_main_v150 (F := Ideal) x1 x3 (ix3 b q t)
    = encloseC (fun k => val_main_v46 (F := Ideal) x1 (ix3 b q k)) (fun k => val_main_v71 (F := Ideal) x3 (ix3 b t k)) := by
  rw [val_main_v150_apply, val_main_v148_apply, v145_at, v147_at, v143_at x1 x3 b q t 0 0 2 rfl rfl,
    v143_at x1 x3 b q t 1 1 3 rfl rfl, v149_at]
  rfl

/-- Generalised intersection over union: the overlap ratio minus the share of the enclosing box the union leaves empty. -/
theorem v153_at : val_main_v153 (F := Ideal) x1 x3 (ix3 b q t)
    = giouC (fun k => val_main_v46 (F := Ideal) x1 (ix3 b q k)) (fun k => val_main_v71 (F := Ideal) x3 (ix3 b t k)) := by
  rw [val_main_v153_apply, val_main_v127_apply, val_main_v152_apply, val_main_v151_apply, v118_at, v126_at, v150_at]
  rfl

end Pair

/-- The reference's negated GIoU at entry (b, q, t), over the corner-form arrays it has built. -/
theorem ref_giouC (x1 : (⟨S64x900x4, .f32⟩ : BufTy).Contents (Elt Ideal)) (x3 : (⟨S64x128x4, .f32⟩ : BufTy).Contents (Elt Ideal))
    (b : Fin 64) (q : Fin 900) (t : Fin 128) :
    val_main_v154 (F := Ideal) x1 x3 (ix3 b q t)
      = zeroW - giouC (fun k => val_main_v46 (F := Ideal) x1 (ix3 b q k)) (fun k => val_main_v71 (F := Ideal) x3 (ix3 b t k)) := by
  -- negation is subtraction from 0, and the word of `0.0` is 0
  rw [val_main_v154_apply, v153_at, zeroW_eq, zero_sub]
  rfl

end Cert.MatchCost.RefGiou

end
-- ==== Proof.RefValue.lean ====
/-
  The reference's result array is the specification's function of the four argument arrays, for labels that are classes.

  Entry (b, q, t) of the reference's result is `(1 · C + 5 · B) + 2 · N`, where `C` is its negated class probability, `B` its
  box distance and `N` its negated GIoU at that entry. Each of the three is the specification's term of the same reads
  (row (b, q) of the logits and label (b, t); the two boxes), so the entry is the specification's `cost`.
-/
import proofs.«400868_j75771813036148_1_alg».proof.Proof.RefRead
import proofs.«400868_j75771813036148_1_alg».proof.Proof.RefBox
import proofs.«400868_j75771813036148_1_alg».proof.Proof.RefClass
import proofs.«400868_j75771813036148_1_alg».proof.Proof.RefCorners
import proofs.«400868_j75771813036148_1_alg».proof.Proof.RefGiou
import proofs.«400868_j75771813036148_1_alg».proof.Proof.Spec

noncomputable section

namespace Cert.MatchCost.RefValue

open Cert.ReferenceIdeal Cert.ReferenceIdeal.ReadP Idealize.ShloMosaic Idealize.ShloMosaic.ValueIdx Cert.MatchCost

/-- The reference's negated GIoU at entry (b, q, t): its two corner-form arrays hold the corner forms of the two boxes. -/
theorem ref_giou (x1 : (⟨S64x900x4, .f32⟩ : BufTy).Contents (Elt Ideal)) (x3 : (⟨S64x128x4, .f32⟩ : BufTy).Contents (Elt Ideal))
    (b : Fin 64) (q : Fin 900) (t : Fin 128) :
    val_main_v154 (F := Ideal) x1 x3 (ix3 b q t) = zeroW - giou (fun k => x1 (ix3 b q k)) (fun k => x3 (ix3 b t k)) := by
  rw [RefGiou.ref_giouC]
  have ep : (fun k => val_main_v46 (F := Ideal) x1 (ix3 b q k)) = corner (fun k' => x1 (ix3 b q k')) :=
    funext fun k => RefCorners.ref_corners_pred x1 b q k
  have et : (fun k => val_main_v71 (F := Ideal) x3 (ix3 b t k)) = corner (fun k' => x3 (ix3 b t k')) :=
    funext fun k => RefCorners.ref_corners_tgt x3 b t k
  rw [ep, et]
  rfl

/-- The reference's result, entry by entry, is the specification's `G` of its arguments. -/
theorem ref_is_G (x0 : (⟨S64x900x256, .f32⟩ : BufTy).Contents (Elt Ideal)) (x1 : (⟨S64x900x4, .f32⟩ : BufTy).Contents (Elt Ideal))
    (x2 : (⟨S64x128, .i32⟩ : BufTy).Contents (Elt Ideal)) (x3 : (⟨S64x128x4, .f32⟩ : BufTy).Contents (Elt Ideal))
    (hl : ∀ j : S64x128.Idx, (x2 j).toNat < 256) :
    val_main_v162 (F := Ideal) x0 x1 x2 x3 = G x0 x1 x2 x3 := by
  funext i
  obtain ⟨b, q, t, rfl⟩ : ∃ (b : Fin 64) (q : Fin 900) (t : Fin 128), i = ix3 b q t := ⟨i 0, i 1, i 2, eq_ix3 i⟩
  rw [val_main_v162_apply, val_main_v159_apply, val_main_v156_apply, val_main_v158_apply, val_main_v161_apply,
    val_main_v155_apply, val_main_v157_apply, val_main_v160_apply, val_main_cst_18_apply, val_main_cst_19_apply, val_main_cst_20_apply,
    RefClass.ref_class x0 x2 b q t (hl _), RefBox.ref_l1, ref_giou]
  rfl

end Cert.MatchCost.RefValue

end
-- ==== Proof.KernelBoxes.lean ====
/-
  One entry of the block the kernel leaves at a grid point, with the class term kept whole.
-/
import proofs.«400868_j75771813036148_1_alg».proof.Proof.Gen.KernelIdeal.Frame
import proofs.«400868_j75771813036148_1_alg».proof.Proof.Spec
import Idealize.ShloMosaic.Lib.Pipeline.Value
import Idealize.ShloMosaic.Lib.ValueLayout

noncomputable section

namespace Cert.MatchCost.KernelBoxes

open Cert.KernelIdeal Cert.KernelIdeal.Gen Idealize.ShloMosaic Idealize.ShloMosaic.ValueIdx Cert.MatchCost

/-! ## Two reading lemmas the layout library does not carry -/

/-- An `[a, 1]` array broadcast to `[a, b]` reads, at `(p, c)`, the operand's one column at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The absolute value of a vector, read at an index, is the larger of the entry and its negation. -/
theorem absf_at {s : Shape} {φ : FTy} (a : FVec Ideal s φ) (i : s.Idx) : absf a i = absE (a i) := rfl

/-! ## The four columns of the predicted boxes at row q, the four rows of the transposed target boxes at column t -/

section Reads
variable (x1 : Vec Ideal S1x900x4 .f32) (x3 : Vec Ideal S1x4x128 .f32) (q : Fin 900) (t : Fin 128)

/-- Column 0 (centre x) of the predicted boxes, the leading unit axis dropped. -/
theorem pay5_at : k0_pay5 (F := Ideal) x1 (ix2 q 0) = x1 (ix3 0 q 0) := by
  unfold k0_pay5 k0_pay2
  exact (slice2_axis1_apply 0 _ _ q 0 0 rfl).trans (shapeCast_1ab_ab_apply _ _ q 0)

/-- Column 1 (centre y). -/
theorem pay6_at : k0_pay6 (F := Ideal) x1 (ix2 q 0) = x1 (ix3 0 q 1) := by
  unfold k0_pay6 k0_pay2
  exact (slice2_axis1_apply 1 _ _ q 0 1 rfl).trans (shapeCast_1ab_ab_apply _ _ q 1)

/-- Column 2 (width). -/
theorem pay7_at : k0_pay7 (F := Ideal) x1 (ix2 q 0) = x1 (ix3 0 q 2) := by
  unfold k0_pay7 k0_pay2
  exact (slice2_axis1_apply 2 _ _ q 0 2 rfl).trans (shapeCast_1ab_ab_apply _ _ q 2)

/-- Column 3 (height). -/
theorem pay8_at : k0_pay8 (F := Ideal) x1 (ix2 q 0) = x1 (ix3 0 q 3) := by
  unfold k0_pay8 k0_pay2
  exact (slice2_axis1_apply 3 _ _ q 0 3 rfl).trans (shapeCast_1ab_ab_apply _ _ q 3)

/-- Row 0 (centre x) of the transposed target boxes, the leading unit axis dropped. -/
theorem pay9_at : k0_pay9 (F := Ideal) x3 (ix2 0 t) = x3 (ix3 0 0 t) := by
  unfold k0_pay9 k0_pay3
  exact (slice2_axis0_apply 0 _ _ 0 t 0 rfl).trans (shapeCast_1ab_ab_apply _ _ 0 t)

/-- Row 1 (centre y). -/
theorem pay10_at : k0_pay10 (F := Ideal) x3 (ix2 0 t) = x3 (ix3 0 1 t) := by
  unfold k0_pay10 k0_pay3
  exact (slice2_axis0_apply 1 _ _ 0 t 1 rfl).trans (shapeCast_1ab_ab_apply _ _ 1 t)

/-- Row 2 (width). -/
theorem pay11_at : k0_pay11 (F := Ideal) x3 (ix2 0 t) = x3 (ix3 0 2 t) := by
  unfold k0_pay11 k0_pay3
  exact (slice2_axis0_apply 2 _ _ 0 t 2 rfl).trans (shapeCast_1ab_ab_apply _ _ 2 t)

/-- Row 3 (height). -/
theorem pay12_at : k0_pay12 (F := Ideal) x3 (ix2 0 t) = x3 (ix3 0 3 t) := by
  unfold k0_pay12 k0_pay3
  exact (slice2_axis0_apply 3 _ _ 0 t 3 rfl).trans (shapeCast_1ab_ab_apply _ _ 3 t)

/-! ## The first two absolute differences -/

/-- |centre x of the predicted box − centre x of the target box|, the column laid across and the row laid down. -/
theorem pay13_at : k0_pay13 (F := Ideal) x1 x3 (ix2 q t) = absE (x1 (ix3 0 q 0) - x3 (ix3 0 0 t)) := by
  show absE (broadcastTo S900x128 (k0_pay5 (F := Ideal) x1) broadcasts_S900x1_S900x128 (ix2 q t)
    - broadcastTo S900x128 (k0_pay9 (F := Ideal) x3) broadcasts_S1x128_S900x128 (ix2 q t)) = _
  rw [colBroadcast_apply, broadcastTo_1b_ab_apply, pay5_at, pay9_at]

/-- centre y of the predicted box − centre y of the target box (its absolute value is taken by the next stage). -/
theorem pay14_at : k0_pay14 (F := Ideal) x1 x3 (ix2 q t) = x1 (ix3 0 q 1) - x3 (ix3 0 1 t) := by
  show broadcastTo S900x128 (k0_pay6 (F := Ideal) x1) broadcasts_S900x1_S900x128 (ix2 q t)
    - broadcastTo S900x128 (k0_pay10 (F := Ideal) x3) broadcasts_S1x128_S900x128 (ix2 q t) = _
  rw [colBroadcast_apply, broadcastTo_1b_ab_apply, pay6_at, pay10_at]

/-! ## The corners: centre ∓ half the size, for the predicted box at row q and the target box at column t -/

/-- Predicted left edge. -/
theorem pay16_at : k0_pay16 (F := Ideal) (k0_pay5 x1) (k0_pay7 x1) (ix2 q 0) = corner (fun k => x1 (ix3 0 q k)) 0 := by
  show k0_pay5 (F := Ideal) x1 (ix2 q 0) - halfW * k0_pay7 (F := Ideal) x1 (ix2 q 0) = _
  rw [pay5_at, pay7_at]; rfl

/-- Predicted top edge. -/
theorem pay17_at : k0_pay17 (F := Ideal) (k0_pay6 x1) (k0_pay8 x1) (ix2 q 0) = corner (fun k => x1 (ix3 0 q k)) 1 := by
  show k0_pay6 (F := Ideal) x1 (ix2 q 0) - halfW * k0_pay8 (F := Ideal) x1 (ix2 q 0) = _
  rw [pay6_at, pay8_at]; rfl

/-- Predicted right edge. -/
theorem pay18_at : k0_pay18 (F := Ideal) (k0_pay5 x1) (k0_pay7 x1) (ix2 q 0) = corner (fun k => x1 (ix3 0 q k)) 2 := by
  show k0_pay5 (F := Ideal) x1 (ix2 q 0) + halfW * k0_pay7 (F := Ideal) x1 (ix2 q 0) = _
  rw [pay5_at, pay7_at]; rfl

/-- Predicted bottom edge. -/
theorem pay19_at : k0_pay19 (F := Ideal) (k0_pay6 x1) (k0_pay8 x1) (ix2 q 0) = corner (fun k => x1 (ix3 0 q k)) 3 := by
  show k0_pay6 (F := Ideal) x1 (ix2 q 0) + halfW * k0_pay8 (F := Ideal) x1 (ix2 q 0) = _
  rw [pay6_at, pay8_at]; rfl

/-- Target left edge. -/
theorem pay20_at : k0_pay20 (F := Ideal) (k0_pay9 x3) (k0_pay11 x3) (ix2 0 t) = corner (fun k => x3 (ix3 0 k t)) 0 := by
  show k0_pay9 (F := Ideal) x3 (ix2 0 t) - halfW * k0_pay11 (F := Ideal) x3 (ix2 0 t) = _
  rw [pay9_at, pay11_at]; rfl

/-- Target top edge. -/
theorem pay21_at : k0_pay21 (F := Ideal) (k0_pay10 x3) (k0_pay12 x3) (ix2 0 t) = corner (fun k => x3 (ix3 0 k t)) 1 := by
  show k0_pay10 (F := Ideal) x3 (ix2 0 t) - halfW * k0_pay12 (F := Ideal) x3 (ix2 0 t) = _
  rw [pay10_at, pay12_at]; rfl

/-- Target right edge. -/
theorem pay22_at : k0_pay22 (F := Ideal) (k0_pay9 x3) (k0_pay11 x3) (ix2 0 t) = corner (fun k => x3 (ix3 0 k t)) 2 := by
  show k0_pay9 (F := Ideal) x3 (ix2 0 t) + halfW * k0_pay11 (F := Ideal) x3 (ix2 0 t) = _
  rw [pay9_at, pay11_at]; rfl

/-- Target bottom edge. -/
theorem pay23_at : k0_pay23 (F := Ideal) (k0_pay10 x3) (k0_pay12 x3) (ix2 0 t) = corner (fun k => x3 (ix3 0 k t)) 3 := by
  show k0_pay10 (F := Ideal) x3 (ix2 0 t) + halfW * k0_pay12 (F := Ideal) x3 (ix2 0 t) = _
  rw [pay10_at, pay12_at]; rfl

/-! ## The areas -/

/-- The predicted box's area: (right − left) and (bottom − top), each clipped at 0, multiplied. -/
theorem pay24_at : k0_pay24 (F := Ideal) (k0_pay5 x1) (k0_pay6 x1) (k0_pay7 x1) (k0_pay8 x1) (ix2 q 0)
    = areaC (corner (fun k => x1 (ix3 0 q k))) := by
  show max (k0_pay18 (F := Ideal) (k0_pay5 x1) (k0_pay7 x1) (ix2 q 0) - k0_pay16 (F := Ideal) (k0_pay5 x1) (k0_pay7 x1) (ix2 q 0)) zeroW
      * max (k0_pay19 (F := Ideal) (k0_pay6 x1) (k0_pay8 x1) (ix2 q 0) - k0_pay17 (F := Ideal) (k0_pay6 x1) (k0_pay8 x1) (ix2 q 0)) zeroW = _
  rw [pay18_at, pay16_at, pay19_at, pay17_at]; rfl

/-- The target box's width, clipped at 0. -/
theorem pay25_at : k0_pay25 (F := Ideal) (k0_pay9 x3) (k0_pay11 x3) (ix2 0 t)
    = max (corner (fun k => x3 (ix3 0 k t)) 2 - corner (fun k => x3 (ix3 0 k t)) 0) zeroW := by
  show max (k0_pay22 (F := Ideal) (k0_pay9 x3) (k0_pay11 x3) (ix2 0 t) - k0_pay20 (F := Ideal) (k0_pay9 x3) (k0_pay11 x3) (ix2 0 t)) zeroW = _
  rw [pay22_at, pay20_at]

/-- The target box's height, not yet clipped. -/
theorem pay26_at : k0_pay26 (F := Ideal) (k0_pay10 x3) (k0_pay12 x3) (ix2 0 t)
    = corner (fun k => x3 (ix3 0 k t)) 3 - corner (fun k => x3 (ix3 0 k t)) 1 := by
  show k0_pay23 (F := Ideal) (k0_pay10 x3) (k0_pay12 x3) (ix2 0 t) - k0_pay21 (F := Ideal) (k0_pay10 x3) (k0_pay12 x3) (ix2 0 t) = _
  rw [pay23_at, pay21_at]

end Reads

/-! ## The three stages over any operands, at (q, t) -/

/-- The box distance: the two differences already formed, then the width's and the height's, each in absolute value,
    added left to right. -/
theorem pay15_at (v30 v31 : FVec Ideal S900x1 .f32) (v34 v35 : FVec Ideal S1x128 .f32) (v39 v42 : FVec Ideal S900x128 .f32)
    (q : Fin 900) (t : Fin 128) :
    k0_pay15 (F := Ideal) v30 v31 v34 v35 v39 v42 (ix2 q t)
      = ((v39 (ix2 q t) + absE (v42 (ix2 q t))) + absE (v30 (ix2 q 0) - v34 (ix2 0 t))) + absE (v31 (ix2 q 0) - v35 (ix2 0 t)) := by
  show ((v39 (ix2 q t) + absE (v42 (ix2 q t)))
      + absE (broadcastTo S900x128 v30 broadcasts_S900x1_S900x128 (ix2 q t) - broadcastTo S900x128 v34 broadcasts_S1x128_S900x128 (ix2 q t)))
      + absE (broadcastTo S900x128 v31 broadcasts_S900x1_S900x128 (ix2 q t) - broadcastTo S900x128 v35 broadcasts_S1x128_S900x128 (ix2 q t)) = _
  rw [colBroadcast_apply, broadcastTo_1b_ab_apply, colBroadcast_apply, broadcastTo_1b_ab_apply]

/-- The generalised intersection over union, from the eight corners, the predicted area and the target area's pieces:
    every operand is a column laid across or a row laid down, so at (q, t) it is the column's entry at q or the row's at t. -/
theorem pay28_at (v57 v60 v63 v66 : FVec Ideal S900x1 .f32) (v69 v72 v75 v78 : FVec Ideal S1x128 .f32)
    (v85 : FVec Ideal S900x1 .f32) (v88 v89 v90 : FVec Ideal S1x128 .f32) (q : Fin 900) (t : Fin 128) (cp ct : Fin 4 → EReal)
    (h57 : v57 (ix2 q 0) = cp 0) (h60 : v60 (ix2 q 0) = cp 1) (h63 : v63 (ix2 q 0) = cp 2) (h66 : v66 (ix2 q 0) = cp 3)
    (h69 : v69 (ix2 0 t) = ct 0) (h72 : v72 (ix2 0 t) = ct 1) (h75 : v75 (ix2 0 t) = ct 2) (h78 : v78 (ix2 0 t) = ct 3)
    (h85 : v85 (ix2 q 0) = areaC cp) (h88 : v88 (ix2 0 t) = max (ct 2 - ct 0) zeroW) (h89 : v89 (ix2 0 t) = ct 3 - ct 1)
    (h90 : v90 (ix2 0 t) = zeroW) :
    k0_pay28 (F := Ideal) v57 v60 v63 v66 v69 v72 v75 v78 v85 v88 v89 v90 (ix2 q t) = giouC cp ct := by
  unfold k0_pay28
  simp only [subf_apply, divf_apply, addf_apply, mulf_apply, maximumf_apply, minimumf_apply, broadcast_apply,
    colBroadcast_apply, broadcastTo_1b_ab_apply, h57, h60, h63, h66, h69, h72, h75, h78, h85, h88, h89, h90]
  rfl

/-- The weighted sum, the leading unit axis added back. -/
theorem pay1_at (v27 v54 v142 v143 : FVec Ideal S900x128 .f32) (q : Fin 900) (t : Fin 128) :
    k0_pay1 (F := Ideal) v27 v54 v142 v143 (ix3 0 q t)
      = (wCls * v27 (ix2 q t) + wBox * v54 (ix2 q t)) + wGiou * (v143 (ix2 q t) - v142 (ix2 q t)) := by
  unfold k0_pay1
  exact shapeCast_ab_1ab_apply _ _ 0 q t

/-- The block's entry at row `q`, column `t`: the specification's cost of the body's class term there and of the two
    boxes read off row `q` of the predicted-box block and column `t` of the transposed target-box block. -/
theorem out_entry_of_class (x0 : Vec Ideal S1x900x256 .f32) (x1 : Vec Ideal S1x900x4 .f32) (x2 : Vec Ideal S1x1x128 .i32) (x3 : Vec Ideal S1x4x128 .f32)
    (q : Fin 900) (t : Fin 128) :
    out0_4 (F := Ideal) x0 x1 x2 x3 (ix3 0 q t)
      = cost ((k0_pay4 (F := Ideal) x0 x2) (ix2 q t)) (fun k => x1 (ix3 0 q k)) (fun k => x3 (ix3 0 k t)) := by
  have hz : (![0, 0, 0] : Fin 3 → Nat) = fun _ => 0 := funext fun a => by fin_cases a <;> rfl
  unfold out0_4
  rw [View.canon_unit_zero hz]
  simp only [View.ld_unit_zero (S := S1x900x256) hz, View.ld_unit_zero (S := S1x900x4) hz,
    View.ld_unit_zero (S := S1x1x128) hz, View.ld_unit_zero (S := S1x4x128) hz]
  -- the weighted sum at (q, t); then the box distance and the overlap term from the columns at q and the rows at t
  rw [pay1_at, pay15_at, pay13_at, pay14_at, pay7_at, pay8_at, pay11_at, pay12_at,
    pay28_at _ _ _ _ _ _ _ _ _ _ _ _ q t (corner (fun k => x1 (ix3 0 q k))) (corner (fun k => x3 (ix3 0 k t)))
      (pay16_at x1 q) (pay17_at x1 q) (pay18_at x1 q) (pay19_at x1 q) (pay20_at x3 t) (pay21_at x3 t) (pay22_at x3 t) (pay23_at x3 t)
      (pay24_at x1 q) (pay25_at x3 t) (pay26_at x3 t) rfl]
  rfl

end Cert.MatchCost.KernelBoxes

end
-- ==== Proof.KernelClass.lean ====
/-
  The kernel's class term, read at one entry of a block.

  The payload is a softmax of each row of the block's logits, a one-hot matrix built from the block's labels, their
  matrix product into a zero accumulator, and the negation of that product by subtraction from zero. Read at row `q`,
  column `t` it is `0 − ∑ c, prob (row q) c · [c = label t]`.
-/
import proofs.«400868_j75771813036148_1_alg».proof.Proof.Gen.KernelIdeal.Skeleton
import proofs.«400868_j75771813036148_1_alg».proof.Proof.Spec
import Idealize.ShloMosaic.Lib.Pipeline.Value
import Idealize.ShloMosaic.Lib.ValueLayout

noncomputable section

open scoped BigOperators

namespace Cert.MatchCost.KernelClass

open Cert.KernelIdeal Cert.KernelIdeal.Gen Idealize.ShloMosaic Idealize.ShloMosaic.ValueIdx Cert.MatchCost

/-! ## Two layout steps at an index: a vector stood up as a column, and a column laid across the columns -/

section Layout
variable {α : Type}

/-- An `[a]` vector cast to the column `[a, 1]` reads, at `(i, u)`, the vector at `i`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The identity cast of a `[1, 128]` row reads the row itself. -/
theorem shapeCast_id_apply (x : IVec S1x128 32) (h : S1x128.ShapeCasts S1x128) (j : S1x128.Idx) :
    shapeCast S1x128 x h j = x j :=
  shapeCast_apply x h j j rfl

/-! ## The row reductions -/

/-- Inserting coordinate `c` on axis 1 over the reduced index `q` gives `(q, c)`. -/
theorem lift_ix (h : S900x256.Reduces [1] S900) (q : Fin 900) (c : Fin 256) : h.lift (ix1 q) c = ix2 q c := by
  funext a
  match a with
  | ⟨0, _⟩ => exact Fin.ext rfl
  | ⟨1, _⟩ => exact Fin.ext rfl

/-- The maximum of each row, folded from `-∞`. -/
def rowMaxK (X : FVec Ideal S900x256 .f32) : FVec Ideal S900 .f32 :=
  multiReduction (F := Ideal) .maximumf [1] S900 X 0xFF800000#32 Facts₀.reduces_S900x256_S900 (.inl rfl) rfl

theorem rowMaxK_apply (X : FVec Ideal S900x256 .f32) (q : Fin 900) :
    rowMaxK X (ix1 q) = rowMax (fun c => X (ix2 q c)) := by
  refine (Ideal.multiReduction_maximumf_single X _ Facts₀.reduces_S900x256_S900 (.inl rfl) rfl (ix1 q)).trans ?_
  unfold rowMax
  refine congrArg (fun f => (Finset.univ : Finset (Fin 256)).fold max negInf f) (funext fun c => ?_)
  exact congrArg X (lift_ix Facts₀.reduces_S900x256_S900 q c)

/-- The sum of each row. -/
def rowSumK (E : FVec Ideal S900x256 .f32) : FVec Ideal S900 .f32 :=
  multiReduction (F := Ideal) .add [1] S900 E 0x00000000#32 Facts₀.reduces_S900x256_S900 (.inl rfl) rfl

theorem rowSumK_apply (E : FVec Ideal S900x256 .f32) (q : Fin 900) :
    rowSumK E (ix1 q) = ∑ c : Fin 256, E (ix2 q c) := by
  refine (Ideal.multiReduction_add_single E _ Facts₀.reduces_S900x256_S900 (.inl rfl) rfl (ix1 q)).trans ?_
  exact Finset.sum_congr rfl fun c _ => congrArg E (lift_ix Facts₀.reduces_S900x256_S900 q c)

/-- A per-row value laid across the row's 256 columns (the keepdims column, then its broadcast). -/
def acrossK (v : FVec Ideal S900 .f32) : FVec Ideal S900x256 .f32 :=
  broadcastTo S900x256 (shapeCast S900x1 v Facts₀.shapeCasts_S900_S900x1) Facts₀.broadcasts_S900x1_S900x256

theorem acrossK_apply (v : FVec Ideal S900 .f32) (q : Fin 900) (c : Fin 256) : acrossK v (ix2 q c) = v (ix1 q) := by
  unfold acrossK
  rw [broadcastTo_a1_ab_apply, shapeCast_a_a1_apply]

/-! ## The softmax of the block's rows -/

/-- Each logit less its row's maximum, exponentiated. -/
def expK (X : FVec Ideal S900x256 .f32) : FVec Ideal S900x256 .f32 := exp (subf X (acrossK (rowMaxK X)))

theorem expK_apply (X : FVec Ideal S900x256 .f32) (q : Fin 900) (c : Fin 256) :
    expK X (ix2 q c) = expShift (fun c' => X (ix2 q c')) c := by
  show Ideal.exp (X (ix2 q c) - acrossK (rowMaxK X) (ix2 q c)) = _
  rw [acrossK_apply, rowMaxK_apply]
  rfl

/-- The softmax: each shifted exponential over its row's sum of them. -/
def softmaxK (X : FVec Ideal S900x256 .f32) : FVec Ideal S900x256 .f32 := divf (expK X) (acrossK (rowSumK (expK X)))

theorem softmaxK_apply (X : FVec Ideal S900x256 .f32) (q : Fin 900) (c : Fin 256) :
    softmaxK X (ix2 q c) = prob (fun c' => X (ix2 q c')) c := by
  show Ideal.div (expK X (ix2 q c)) (acrossK (rowSumK (expK X)) (ix2 q c)) = _
  rw [acrossK_apply, rowSumK_apply, expK_apply]
  unfold prob
  exact congrArg (Ideal.div _) (Finset.sum_congr rfl fun c' _ => expK_apply X q c')

/-! ## The one-hot matrix of the block's labels -/

/-- A bit widened to a word and read as a signed integer is 1 when set and 0 when clear. -/
theorem toInt_setWidth_bit (b : BitVec 1) : (b.setWidth 32).toInt = if b = 1#1 then 1 else 0 := by
  by_cases h : b = 1#1
  · subst h; decide
  · have h0 := eq_zero_of_ne_one h
    subst h0; decide

/-- The equality test of two words, widened and converted, is the indicator of their equality. -/
theorem indicator_word (a l : BitVec 32) :
    (((((IntOp.cmpi .eq a l).setWidth 32).toInt : ℤ) : ℝ) : EReal) = if a = l then 1 else 0 := by
  rw [toInt_setWidth_bit]
  by_cases h : a = l
  · have hb : IntOp.cmpi .eq a l = 1#1 := by subst h; simp [IntOp.cmpi]
    rw [if_pos hb, if_pos h]; simp
  · have hb : ¬ IntOp.cmpi .eq a l = 1#1 := by
      have hf : (a == l) = false := beq_eq_false_iff_ne.mpr h
      show ¬ BitVec.ofBool (a == l) = 1#1
      rw [hf]; decide
    rw [if_neg hb, if_neg h]; simp

/-- The labels' row laid down the 256 class rows. -/
def labelsK (P1 : Vec Ideal S1x1x128 .i32) : IVec S256x128 32 :=
  broadcastTo S256x128 (shapeCast S1x128 (shapeCast S1x128 P1 Facts₀.shapeCasts_S1x1x128_S1x128) Facts₀.shapeCasts_S1x128_S1x128)
    Facts₀.broadcasts_S1x128_S256x128

theorem labelsK_apply (P1 : Vec Ideal S1x1x128 .i32) (c : Fin 256) (t : Fin 128) :
    labelsK P1 (ix2 c t) = P1 (ix3 0 0 t) := by
  unfold labelsK
  rw [broadcastTo_1b_ab_apply, shapeCast_id_apply, shapeCast_1ab_ab_apply]

/-- The one-hot matrix: the class index down the rows compared with the labels, the bit widened and converted. -/
def onehotK (P1 : Vec Ideal S1x1x128 .i32) : FVec Ideal S256x128 .f32 :=
  sitofp .f32 (extui 32 (cmpi .eq (iota .tc S256x128 32 [0] Facts₀.iota_S256x128_d0_w32) (labelsK P1)) Facts₀.natLt_1_32)

theorem onehotK_apply (P1 : Vec Ideal S1x1x128 .i32) (c : Fin 256) (t : Fin 128) :
    onehotK P1 (ix2 c t) = isClass c (P1 (ix3 0 0 t)) := by
  have hi : iota .tc S256x128 32 [0] Facts₀.iota_S256x128_d0_w32 (ix2 c t) = BitVec.ofNat 32 c.val := by
    show BitVec.ofNat 32 (0 * 256 + c.val) = _
    rw [Nat.zero_mul, Nat.zero_add]
  show (((((IntOp.cmpi .eq (iota .tc S256x128 32 [0] Facts₀.iota_S256x128_d0_w32 (ix2 c t)) (labelsK P1 (ix2 c t))).setWidth 32).toInt : ℤ) : ℝ) : EReal) = _
  rw [hi, labelsK_apply, indicator_word]
  rfl

/-! ## The product's operand indices -/

/-- With the contraction position named by its one coordinate `c`, the left operand is read at `(q, c)` … -/
theorem lhsIdx_ix (q : Fin 900) (t : Fin 128) (c : Fin 256) :
    dot_S900x256_S256x128_S900x128_1_0_0_1_n_n.lhsIdx (ix2 q t)
      ((contrEquiv1 dot_S900x256_S256x128_S900x128_1_0_0_1_n_n 256 rfl rfl).symm c) = ix2 q c := by
  funext a
  match a with
  | ⟨0, _⟩ => exact Fin.ext rfl
  | ⟨1, _⟩ =>
    exact Fin.ext ((DotDims.lhsIdx_val_of_single (d := dot_S900x256_S256x128_S900x128_1_0_0_1_n_n) (cl := 1) rfl _ _).trans
      (contrEquiv1_symm_val dot_S900x256_S256x128_S900x128_1_0_0_1_n_n 256 rfl rfl c))

/-- … and the right operand at `(c, t)`. -/
theorem rhsIdx_ix (q : Fin 900) (t : Fin 128) (c : Fin 256) :
    dot_S900x256_S256x128_S900x128_1_0_0_1_n_n.rhsIdx (ix2 q t)
      ((contrEquiv1 dot_S900x256_S256x128_S900x128_1_0_0_1_n_n 256 rfl rfl).symm c) = ix2 c t := by
  funext a
  match a with
  | ⟨0, _⟩ =>
    exact Fin.ext ((DotDims.rhsIdx_val_of_single (d := dot_S900x256_S256x128_S900x128_1_0_0_1_n_n) (cr := 0) rfl _ _).trans
      (contrEquiv1_symm_val dot_S900x256_S256x128_S900x128_1_0_0_1_n_n 256 rfl rfl c))
  | ⟨1, _⟩ => exact Fin.ext rfl

/-! ## The payload -/

/-- The payload is the stages above composed: the definitions unfold to the printed sequence. -/
theorem k0_pay4_eq (P0 : Vec Ideal S1x900x256 .f32) (P1 : Vec Ideal S1x1x128 .i32) :
    k0_pay4 (F := Ideal) P0 P1
      = subf (broadcast S900x128 (Scalar.ofBits .f32 0x00000000#32))
          (matmul dot_S900x256_S256x128_S900x128_1_0_0_1_n_n none
            (truncf .bf16 (softmaxK (shapeCast S900x256 P0 Facts₀.shapeCasts_S1x900x256_S900x256)) Facts₀.bitsLt_bf16_f32)
            (truncf .bf16 (onehotK P1) Facts₀.bitsLt_bf16_f32) (constant S900x128 .f32 0x00000000#32)) := rfl

/-- The kernel's negated one-hot product at row `q`, column `t` of a block: from the block's row `q` of logits and
    the block's label `t`. -/
theorem kernel_class (P0 : Vec Ideal S1x900x256 .f32) (P1 : Vec Ideal S1x1x128 .i32) (q : Fin 900) (t : Fin 128) :
    (k0_pay4 (F := Ideal) P0 P1) (ix2 q t) = zeroW - classSum (fun c => P0 (ix3 0 q c)) (P1 (ix3 0 0 t)) := by
  rw [k0_pay4_eq]
  show zeroW - FloatOps.matmul dot_S900x256_S256x128_S900x128_1_0_0_1_n_n none
      (truncf .bf16 (softmaxK (shapeCast S900x256 P0 Facts₀.shapeCasts_S1x900x256_S900x256)) Facts₀.bitsLt_bf16_f32)
      (truncf .bf16 (onehotK P1) Facts₀.bitsLt_bf16_f32) (constant S900x128 .f32 0x00000000#32) (ix2 q t) = _
  rw [Ideal.matmul_constant_zero_apply]
  unfold classSum
  rw [← Equiv.sum_comp (contrEquiv1 dot_S900x256_S256x128_S900x128_1_0_0_1_n_n 256 rfl rfl).symm]
  refine congrArg (zeroW - ·) (Finset.sum_congr rfl fun c _ => ?_)
  rw [lhsIdx_ix, rhsIdx_ix]
  show softmaxK (shapeCast S900x256 P0 Facts₀.shapeCasts_S1x900x256_S900x256) (ix2 q c) * onehotK P1 (ix2 c t) = _
  rw [softmaxK_apply, onehotK_apply]
  simp only [shapeCast_1ab_ab_apply]

end Cert.MatchCost.KernelClass

end
-- ==== Proof.KernelBlock.lean ====
/-
  One entry of the block the kernel leaves at a grid point.

  The body stores one value, the weighted sum of the class term, the box distance and the negated GIoU, computed from the
  four loaded blocks. Read at row `q`, column `t` of the block it is the specification's `cost` of the class term of row
  `q` of the logits block and entry `t` of the label block, and of the two boxes read off row `q` of the predicted-box
  block and column `t` of the transposed target-box block: the box terms are read with the class term kept whole, and
  the class term is the negated one-hot product of the row's softmax with the label's indicator.
-/
import proofs.«400868_j75771813036148_1_alg».proof.Proof.Gen.KernelIdeal.Frame
import proofs.«400868_j75771813036148_1_alg».proof.Proof.KernelBoxes
import proofs.«400868_j75771813036148_1_alg».proof.Proof.KernelClass
import proofs.«400868_j75771813036148_1_alg».proof.Proof.Spec

noncomputable section

namespace Cert.MatchCost.KernelBlock

open Cert.KernelIdeal Cert.KernelIdeal.Gen Idealize.ShloMosaic Idealize.ShloMosaic.ValueIdx Cert.MatchCost

/-- The block's entry at row `q`, column `t` as the specification's cost. -/
theorem out_entry (x0 : Vec Ideal S1x900x256 .f32) (x1 : Vec Ideal S1x900x4 .f32) (x2 : Vec Ideal S1x1x128 .i32) (x3 : Vec Ideal S1x4x128 .f32)
    (q : Fin 900) (t : Fin 128) :
    out0_4 (F := Ideal) x0 x1 x2 x3 (ix3 0 q t)
      = cost (zeroW - classSum (fun c => x0 (ix3 0 q c)) (x2 (ix3 0 0 t))) (fun k => x1 (ix3 0 q k)) (fun k => x3 (ix3 0 k t)) := by
  rw [KernelBoxes.out_entry_of_class, KernelClass.kernel_class]

end Cert.MatchCost.KernelBlock

end
-- ==== Proof.KernelArray.lean ====
/-
  The kernel's result array after the run, as the specification's function of the four argument arrays.

  The grid has 64 points; point `t` works on batch `t`: every window's block index is `(t, 0, 0)`, so block `t` of an
  array is its slab `t` along the first axis. The labels reach the kernel through a broadcast that inserts a unit axis
  and the target boxes through a transposition of their last two axes, so entry `(0, 0, j)` of the label block is label
  `(t, j)` and entry `(0, k, j)` of the target-box block is coordinate `k` of target box `(t, j)`. With the block's entry
  known as the specification's `cost` of those reads, point `t` writes back slab `t` of `G`; the 64 slabs cover the
  array, so the array is `G`.
-/
import proofs.«400868_j75771813036148_1_alg».proof.Proof.KernelValue
import proofs.«400868_j75771813036148_1_alg».proof.Proof.KernelBlock
import proofs.«400868_j75771813036148_1_alg».proof.Proof.Spec
import Idealize.ShloMosaic.Lib.ValueLayout
import Idealize.ShloMosaic.Lib.StableHlo.Run

set_option maxRecDepth 16384

noncomputable section

namespace Cert.MatchCost.KernelArray

open Cert.KernelIdeal Cert.KernelIdeal.Gen Cert.KernelIdeal.ValueP Idealize.ShloMosaic Idealize.ShloMosaic.TcCoe Idealize.SL.Sem
open Idealize.ShloMosaic.ValueIdx Idealize.ShloMosaic.StableHlo Cert.MatchCost
open Idealize.ShloMosaic.Pipeline (Dat)

variable (m : (ℓ : Loc nD τ sig) → Buf (Elt Ideal) ℓ) (ρ : Dev nD → PrngReg)

/-! ## The argument arrays, typed by their literal shapes -/

abbrev logitsArr (c : Dev nD) : S64x900x256.Idx → EReal := m ((c : Thread nD τ).loc main_arg0)
abbrev pboxArr (c : Dev nD) : S64x900x4.Idx → EReal := m ((c : Thread nD τ).loc main_arg1)
abbrev labelArr (c : Dev nD) : S64x128.Idx → BitVec 32 := m ((c : Thread nD τ).loc main_arg2)
abbrev tboxArr (c : Dev nD) : S64x128x4.Idx → EReal := m ((c : Thread nD τ).loc main_arg3)

/-- The result array the specification gives for core `c`'s arguments. -/
abbrev result (c : Dev nD) : S64x900x128.Idx → EReal := G (logitsArr m c) (pboxArr m c) (labelArr m c) (tboxArr m c)

/-! ## The index maps, decided over the 64 points -/

/-- Every window's block index at point `t` is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- A grid point as a batch index. -/
abbrev batch (t : Fin cfg0.N) : Fin 64 := ⟨t.val, by have h : t.val < grid0.N := t.isLt; rw [N_0] at h; exact h⟩

/-! ## The two arrays the host prepares before the region -/

/-- The label array with a unit axis inserted. -/
theorem labels_in (c : Dev nD) :
    (V m c main_v0 : S64x1x128.Idx → BitVec 32)
      = broadcastInDim S64x1x128 ![0, 2] Facts₀.bcast_S64x128_S64x1x128_0_2 (labelArr m c) := by
  dsimp only [Gen.V, Gen.hostOps0]; after_results

/-- The target boxes with their last two axes exchanged. -/
theorem tboxes_in (c : Dev nD) :
    (V m c main_v1 : S64x4x128.Idx → EReal)
      = transpose S64x4x128 [0, 2, 1] (tboxArr m c) Facts₀.transposes_S64x128x4_S64x4x128_0_2_1 := by
  dsimp only [Gen.V, Gen.hostOps0]; after_results

/-! ## Each window's block at a point, read at explicit coordinates -/

/-- Row `q`, class `k` of the logits block at point `t` is logit `(t, q, k)`. -/
theorem read_logits (c : Dev nD) (t : Fin cfg0.N) (q : Fin 900) (k : Fin 256) :
    iblk m c 0 t (ix3 0 q k) = logitsArr m c (ix3 (batch t) q k) := by
  show V m c main_arg0 (((cfg0.win 0).blk t).view.emb (ix3 0 q k)) = _
  rw [V_main_arg0]
  obtain ⟨⟨e0, e1, e2⟩, -⟩ := idx_facts t
  refine congrArg (m ((c : Thread nD τ).loc main_arg0)) ?_
  funext a; apply Fin.ext
  match a with
  | ⟨0, _⟩ => show win0_0.index t (0 : Fin 3) * 1 + 1 * 0 = t.val; omega
  | ⟨1, _⟩ => show win0_0.index t (1 : Fin 3) * 900 + 1 * q.val = q.val; omega
  | ⟨2, _⟩ => show win0_0.index t (2 : Fin 3) * 256 + 1 * k.val = k.val; omega

/-- Row `q`, coordinate `k` of the predicted-box block at point `t` is coordinate `k` of predicted box `(t, q)`. -/
theorem read_pbox (c : Dev nD) (t : Fin cfg0.N) (q : Fin 900) (k : Fin 4) :
    iblk m c 1 t (ix3 0 q k) = pboxArr m c (ix3 (batch t) q k) := by
  show V m c main_arg1 (((cfg0.win 1).blk t).view.emb (ix3 0 q k)) = _
  rw [V_main_arg1]
  obtain ⟨-, ⟨e0, e1, e2⟩, -⟩ := idx_facts t
  refine congrArg (m ((c : Thread nD τ).loc main_arg1)) ?_
  funext a; apply Fin.ext
  match a with
  | ⟨0, _⟩ => show win0_1.index t (0 : Fin 3) * 1 + 1 * 0 = t.val; omega
  | ⟨1, _⟩ => show win0_1.index t (1 : Fin 3) * 900 + 1 * q.val = q.val; omega
  | ⟨2, _⟩ => show win0_1.index t (2 : Fin 3) * 4 + 1 * k.val = k.val; omega

/-- Entry `j` of the label block at point `t` is label `(t, j)`. -/
theorem read_label (c : Dev nD) (t : Fin cfg0.N) (j : Fin 128) :
    iblk m c 2 t (ix3 0 0 j) = labelArr m c (ix2 (batch t) j) := by
  show V m c main_v0 (((cfg0.win 2).blk t).view.emb (ix3 0 0 j)) = _
  obtain ⟨-, -, ⟨e0, e1, e2⟩, -⟩ := idx_facts t
  have he : ((cfg0.win 2).blk t).view.emb (ix3 0 0 j) = (ix3 (batch t) 0 j : S64x1x128.Idx) := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 128 + 1 * j.val = j.val; omega
  rw [he]
  refine (congrFun (labels_in m c) _).trans ?_
  exact broadcastInDim_apply _ Facts₀.bcast_S64x128_S64x1x128_0_2 (labelArr m c) (ix3 (batch t) 0 j) (ix2 (batch t) j) (fun a => match a with
    | ⟨0, _⟩ => by show t.val = if (64 : Nat) = 1 then 0 else t.val; rw [if_neg (by decide)]
    | ⟨1, _⟩ => by show j.val = if (128 : Nat) = 1 then 0 else j.val; rw [if_neg (by decide)])

/-- Row `k`, column `j` of the transposed target-box block at point `t` is coordinate `k` of target box `(t, j)`. -/
theorem read_tbox (c : Dev nD) (t : Fin cfg0.N) (k : Fin 4) (j : Fin 128) :
    iblk m c 3 t (ix3 0 k j) = tboxArr m c (ix3 (batch t) j k) := by
  show V m c main_v1 (((cfg0.win 3).blk t).view.emb (ix3 0 k j)) = _
  obtain ⟨-, -, -, ⟨e0, e1, e2⟩, -⟩ := idx_facts t
  have he : ((cfg0.win 3).blk t).view.emb (ix3 0 k j) = (ix3 (batch t) k j : S64x4x128.Idx) := by
    funext a; apply Fin.ext
    match a with
    | ⟨0, _⟩ => show win0_3.index t (0 : Fin 3) * 1 + 1 * 0 = t.val; omega
    | ⟨1, _⟩ => show win0_3.index t (1 : Fin 3) * 4 + 1 * k.val = k.val; omega
    | ⟨2, _⟩ => show win0_3.index t (2 : Fin 3) * 128 + 1 * j.val = j.val; omega
  rw [he]
  refine (congrFun (tboxes_in m c) _).trans ?_
  exact transpose_ix3_021_apply (tboxArr m c) _ (batch t) k j

/-! ## What a point writes back, the cover, and the array -/

/-- Point `t` writes back slab `t` of the specification's result. -/
theorem flushed_eq (c : Dev nD) (t : Fin cfg0.N) (hf : (cfg0.win 4).flush t = true) :
    (dats m 0 c).flushed 4 t = ((cfg0.win 4).blk t).view.read (Elt Ideal) (result m c) := by
  rw [ValueP.flushed4]
  funext y
  obtain ⟨y0, q, j, rfl⟩ : ∃ (y0 : Fin 1) (q : Fin 900) (j : Fin 128), y = ix3 y0 q j := ⟨y 0, y 1, y 2, eq_ix3 y⟩
  obtain rfl : y0 = 0 := Subsingleton.elim _ _
  show out0_4 (iblk m c 0 t) (iblk m c 1 t) (iblk m c 2 t) (iblk m c 3 t) (ix3 0 q j)
      = result m c (((cfg0.win 4).blk t).view.emb (ix3 0 q j))
  obtain ⟨-, -, -, -, ⟨e0, e1, e2⟩⟩ := idx_facts t
  have he : ((cfg0.win 4).blk t).view.emb (ix3 0 q j) = (ix3 (batch t) q j : S64x900x128.Idx) := by
    funext a; apply Fin.ext
    match a with
    | ⟨0, _⟩ => show win0_4.index t (0 : Fin 3) * 1 + 1 * 0 = t.val; omega
    | ⟨1, _⟩ => show win0_4.index t (1 : Fin 3) * 900 + 1 * q.val = q.val; omega
    | ⟨2, _⟩ => show win0_4.index t (2 : Fin 3) * 128 + 1 * j.val = j.val; omega
  rw [he]
  refine (KernelBlock.out_entry (iblk m c 0 t) (iblk m c 1 t) (iblk m c 2 t) (iblk m c 3 t) q j).trans ?_
  simp only [read_logits, read_pbox, read_label, read_tbox]
  rfl

/-- Every entry of the array lies in the slab of its batch. -/
theorem cover (i : S64x900x128.Idx) : ∃ t : Fin cfg0.N, (cfg0.win 4).flush t = true ∧ i ∈ ((cfg0.win 4).blk t).view.set := by
  have h0 : (i 0).val < 64 := (i 0).isLt
  have h1 : (i 1).val < 900 := (i 1).isLt
  have h2 : (i 2).val < 128 := (i 2).isLt
  have ht : (i 0).val < cfg0.N := by show (i 0).val < grid0.N; rw [N_0]; exact h0
  refine ⟨⟨(i 0).val, ht⟩, flush0_4 _, ?_⟩
  obtain ⟨-, -, -, -, ⟨e0', e1, e2⟩⟩ := idx_facts ⟨(i 0).val, ht⟩
  have e0 : win0_4.index ⟨(i 0).val, ht⟩ (0 : Fin 3) = (i 0).val := e0'
  show i ∈ ((View.whole main_v2).slice (win0_4.rect ⟨(i 0).val, ht⟩)).set
  rw [View.set_slice_whole, Rect.mem_set_unit]
  intro a
  match a with
  | ⟨0, _⟩ => show win0_4.index ⟨(i 0).val, ht⟩ (0 : Fin 3) * 1 ≤ (i 0).val ∧ (i 0).val < win0_4.index ⟨(i 0).val, ht⟩ (0 : Fin 3) * 1 + 1; omega
  | ⟨1, _⟩ => show win0_4.index ⟨(i 0).val, ht⟩ (1 : Fin 3) * 900 ≤ (i 1).val ∧ (i 1).val < win0_4.index ⟨(i 0).val, ht⟩ (1 : Fin 3) * 900 + 900; omega
  | ⟨2, _⟩ => show win0_4.index ⟨(i 0).val, ht⟩ (2 : Fin 3) * 128 ≤ (i 2).val ∧ (i 2).val < win0_4.index ⟨(i 0).val, ht⟩ (2 : Fin 3) * 128 + 128; omega

/-- The result array after the run is the specification's. -/
theorem final (c : Dev nD) : (dats m 0 c).arrAt 4 cfg0.N = result m c :=
  (dats m 0 c).arrAt_eq_of_cover 4 (result m c) (flushed_eq m c) (cover)

/-- The kernel's run, read: the result array is the specification's function of the arguments, which end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.MatchCost.KernelArray

end
-- ==== Proof.PreLabels.lean ====
/-
  What the precondition says of the labels.

  The stated precondition is a conjunction of four `all`s; its last conjunct is the `all` over the label array of
  `0 ≤ label ∧ label < 256` (signed compares of 32-bit words). So under the precondition every label word, read as an
  unsigned number, is below 256: it is a class.
-/
import proofs.«400868_j75771813036148_1_alg».proof.Pre_finite_inputs
import Idealize.ShloMosaic.Lib.ReduceAll
import Idealize.ShloMosaic.Lib.Affine
import Idealize.ShloMosaic.Lib.ValueIdx

noncomputable section

namespace Cert.MatchCost.PreLabels

open Idealize.ShloMosaic Idealize.ShloMosaic.ValueIdx Cert.Pre_finite_inputs

/-- The rank-0 index set has one element. -/
instance : Subsingleton S_.Idx := ⟨fun a b => funext fun d => d.elim0⟩

/-- A 32-bit word between 0 and 256 as a signed number is below 256 as an unsigned one. -/
theorem toNat_lt_of_signed (w : BitVec 32) (g : (0#32 : BitVec 32).toInt ≤ w.toInt) (l : w.toInt < (256#32 : BitVec 32).toInt) :
    w.toNat < 256 := by
  have e0 : (0#32 : BitVec 32).toInt = 0 := by decide
  have e256 : (256#32 : BitVec 32).toInt = 256 := by decide
  rw [e0] at g
  rw [e256] at l
  have key := BitVec.toInt_eq_toNat_cond w
  have hb : w.toNat < 2 ^ 32 := w.isLt
  split_ifs at key <;> omega

/-- Under the precondition every label is a class. -/
theorem labels_lt {F : FTy → Type} [FloatOps F] [Facts] (a0 : FVec F S64x900x256 .f32) (a1 : FVec F S64x900x4 .f32)
    (a2 : IVec S64x128 32) (a3 : FVec F S64x128x4 .f32) (h : fn (F := F) a0 a1 a2 a3 = fun _ => 1#1) (j : S64x128.Idx) :
    (a2 j).toNat < 256 := by
  have h0 : fn (F := F) a0 a1 a2 a3 ix0 = 1#1 := congrFun h ix0
  have hred : Host.reduce IntOp.andi
      (andi (cmpi .sge a2 (broadcastInDim S64x128 ![] Facts.bcast_S_S64x128 (constantI S_ 32 0#32)))
        (cmpi .slt a2 (broadcastInDim S64x128 ![] Facts.bcast_S_S64x128 (constantI S_ 32 256#32))))
      (constantI S_ 1 1#1) Facts.reducesTo_S64x128_S_d0_1 Facts.h_S_ ix0 = 1#1 := (IntOp.andi_eq_one.1 h0).2
  have hj := Host.reduce_andi_all _ _ Facts.reducesTo_S64x128_S_d0_1 Facts.h_S_ ix0 hred j
  obtain ⟨hge, hlt⟩ := IntOp.andi_eq_one.1 hj
  have g : (0#32 : BitVec 32).toInt ≤ (a2 j).toInt := IntOp.cmpi_sge.1 hge
  have l : (a2 j).toInt < (256#32 : BitVec 32).toInt := IntOp.cmpi_slt.1 hlt
  exact toNat_lt_of_signed _ g l

end Cert.MatchCost.PreLabels

end
-- ==== Proof.lean ====
/-
  The certificate of the matching-cost kernel against its reference.

  Both programs compute, for every batch `b`, query `q` and target `t`, the cost
      1 · (0 − P) + 5 · L1 + 2 · (0 − GIoU)
  (Proof/Spec.lean's `G`): `P` the softmax probability of query (b, q) at the class of target (b, t), `L1` the
  box distance, `GIoU` the generalised intersection over union of the two boxes.

  The kernel picks the probability by a product with a one-hot matrix built from the labels, the reference by indexing the
  probabilities at the label; the two agree because on the extended reals `x · 0 = 0` and `x · 1 = x` for every `x`, so the
  product's sum collapses to the one term whose class is the label — provided the label IS a class, which the precondition's
  last conjunct (`0 ≤ label < 256`) states. Everything else is the same arithmetic in the same order on both sides, up to
  the commutativity of `max`, `0 − x = −x`, a sum of four terms written out, and a row maximum taken once more against `−∞`.
  No step uses that the float inputs are finite.

  The three frames are the generated ones (the reference's is its run with the value dropped); the idealization rewrote
  nothing, so `preserves` is `True`; `algebraic` sets the kernel's result array (Proof/KernelArray.lean) beside the
  reference's (Proof/RefValue.lean over the reference's run), both equal to `G` of arguments that agree.
-/
import proofs.«400868_j75771813036148_1_alg».proof.Defs
import proofs.«400868_j75771813036148_1_alg».proof.Proof.Gen.Kernel
import proofs.«400868_j75771813036148_1_alg».proof.Proof.Gen.Kernel.Skeleton
import proofs.«400868_j75771813036148_1_alg».proof.Proof.Gen.Kernel.Launch
import proofs.«400868_j75771813036148_1_alg».proof.Proof.Gen.Kernel.Points
import proofs.«400868_j75771813036148_1_alg».proof.Proof.Gen.Kernel.Frame
import proofs.«400868_j75771813036148_1_alg».proof.Proof.Gen.KernelIdeal
import proofs.«400868_j75771813036148_1_alg».proof.Proof.Gen.KernelIdeal.Skeleton
import proofs.«400868_j75771813036148_1_alg».proof.Proof.Gen.KernelIdeal.Launch
import proofs.«400868_j75771813036148_1_alg».proof.Proof.Gen.KernelIdeal.Points
import proofs.«400868_j75771813036148_1_alg».proof.Proof.Gen.KernelIdeal.Frame
import proofs.«400868_j75771813036148_1_alg».proof.Proof.Gen.ReferenceIdeal
import proofs.«400868_j75771813036148_1_alg».proof.Proof.Gen.Pre_finite_inputs
import proofs.«400868_j75771813036148_1_alg».proof.Proof.RefRun
import proofs.«400868_j75771813036148_1_alg».proof.Proof.RefRead
import proofs.«400868_j75771813036148_1_alg».proof.Proof.RefValue
import proofs.«400868_j75771813036148_1_alg».proof.Proof.KernelArray
import proofs.«400868_j75771813036148_1_alg».proof.Proof.PreLabels
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the value dropped. -/
theorem frame_referenceIdeal : Cert.frame_ReferenceIdeal := fun m ρ _ =>
  (θ_run Cert.ReferenceIdeal.defs _ _).mono (fun _ h c => (h c).2) (Cert.MatchCost.RefRun.run (F := Ideal) m ρ)

/-- Both runs end with the specification's `G` of their arguments, and the arguments agree. -/
theorem algebraic : Cert.algebraic_KernelIdeal_ReferenceIdeal := by
  intro m ρ m' ρ' hpre hagree
  refine ⟨fun c => Cert.MatchCost.KernelArray.result m c, Cert.MatchCost.KernelArray.run m ρ, ?_⟩
  refine (θ_run Cert.ReferenceIdeal.defs _ _).mono (fun _ h c => ⟨(h c).1.trans ?_, (h c).2⟩)
    (Cert.MatchCost.RefRun.run (F := Ideal) m' ρ')
  have hl : ∀ j, (m ((c.tc : Thread Cert.KernelIdeal.nD Cert.KernelIdeal.τ).loc Cert.KernelIdeal.main_arg2) j).toNat < 256 :=
    fun j => Cert.MatchCost.PreLabels.labels_lt _ _ _ _ (hpre c) j
  rw [(hagree c).1, (hagree c).2.1, (hagree c).2.2.1, (hagree c).2.2.2]
  exact Cert.MatchCost.RefValue.ref_is_G _ _ _ _ hl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
